-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x256 : Shape := ⟨2, ![8192, 256]⟩
abbrev S1024x2304 : Shape := ⟨2, ![1024, 2304]⟩
abbrev S1024 : Shape := ⟨1, ![1024]⟩
abbrev S4x1280 : Shape := ⟨2, ![4, 1280]⟩
abbrev S4 : Shape := ⟨1, ![4]⟩
abbrev S64x1280 : Shape := ⟨2, ![64, 1280]⟩
abbrev S64 : Shape := ⟨1, ![64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S1024 : S_.BroadcastsInDim S1024 (![] : Fin 0 → Fin S1024.rank)
  reducesTo_S1024_S_d0 : S1024.ReducesTo [0] S_
  bcast_S_S4x1280 : S_.BroadcastsInDim S4x1280 (![] : Fin 0 → Fin S4x1280.rank)
  reducesTo_S4x1280_S_d0_1 : S4x1280.ReducesTo [0, 1] S_
  bcast_S_S4 : S_.BroadcastsInDim S4 (![] : Fin 0 → Fin S4.rank)
  reducesTo_S4_S_d0 : S4.ReducesTo [0] S_
  bcast_S_S64x1280 : S_.BroadcastsInDim S64x1280 (![] : Fin 0 → Fin S64x1280.rank)
  reducesTo_S64x1280_S_d0_1 : S64x1280.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x1280 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1280 .f32 := Host.absf main_arg11
  let main_cst_20 : FVec F S_ .f32 := constant S_ .f32 0x7F800000#32
  let main_v55 : FVec F S64x1280 .f32 := broadcastInDim S64x1280 ![] bcast_S_S64x1280 main_cst_20
  let main_v56 : IVec S64x1280 1 := cmpf .olt main_v54 main_v55
  let main_c_21 : IVec S_ 1 := constantI S_ 1 1#1
  let main_v57 : IVec S_ 1 := (fun x v => Host.reduce IntOp.andi x v reducesTo_S64x1280_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S4x1280 .f32) (main_arg8 : FVec F S4 .f32) (main_arg9 : FVec F S64x1280 .f32) (main_arg10 : FVec F S64 .f32) (main_arg11 : FVec F S64x1280 .f32) (main_arg12 : FVec F S64 .f32) (main_v33 : IVec S_ 1) : IVec S_ 1 :=
  let main_v34 : FVec F S4x1280 .f32 := Host.absf main_arg7
  let main_cst_12 : FVec F S_ .f32 := constant S_ .f32 0x7F800000#32
  let main_v35 : FVec F S4x1280 .f32 := broadcastInDim S4x1280 ![] bcast_S_S4x1280 main_cst_12
  let main_v36 : IVec S4x1280 1 := cmpf .olt main_v34 main_v35
  let main_c_13 : IVec S_ 1 := constantI S_ 1 1#1
  let main_v37 : IVec S_ 1 := (fun x v => Host.reduce IntOp.andi x v reducesTo_S4x1280_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S64x1280 .f32 := Host.absf main_arg9
  let main_cst_16 : FVec F S_ .f32 := constant S_ .f32 0x7F800000#32
  let main_v45 : FVec F S64x1280 .f32 := broadcastInDim S64x1280 ![] bcast_S_S64x1280 main_cst_16
  let main_v46 : IVec S64x1280 1 := cmpf .olt main_v44 main_v45
  let main_c_17 : IVec S_ 1 := constantI S_ 1 1#1
  let main_v47 : IVec S_ 1 := (fun x v => Host.reduce IntOp.andi x v reducesTo_S64x1280_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S1024 .f32) (main_arg5 : FVec F S4x1280 .f32) (main_arg6 : FVec F S4 .f32) (main_arg7 : FVec F S4x1280 .f32) (main_arg8 : FVec F S4 .f32) (main_arg9 : FVec F S64x1280 .f32) (main_arg10 : FVec F S64 .f32) (main_arg11 : FVec F S64x1280 .f32) (main_arg12 : FVec F S64 .f32) (main_v13 : IVec S_ 1) (main_v16 : IVec S1024x2304 1) : IVec S_ 1 :=
  let main_c_5 : IVec S_ 1 := constantI S_ 1 1#1
  let main_v17 : IVec S_ 1 := (fun x v => Host.reduce IntOp.andi x v reducesTo_S1024x2304_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4x1280 .f32 := Host.absf main_arg5
  let main_cst_8 : FVec F S_ .f32 := constant S_ .f32 0x7F800000#32
  let main_v25 : FVec F S4x1280 .f32 := broadcastInDim S4x1280 ![] bcast_S_S4x1280 main_cst_8
  let main_v26 : IVec S4x1280 1 := cmpf .olt main_v24 main_v25
  let main_c_9 : IVec S_ 1 := constantI S_ 1 1#1
  let main_v27 : IVec S_ 1 := (fun x v => Host.reduce IntOp.andi x v reducesTo_S4x1280_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x1024 .f32) (main_arg2 : FVec F S8192x256 .f32) (main_arg3 : FVec F S1024x2304 .f32) (main_arg4 : FVec F S1024 .f32) (main_arg5 : FVec F S4x1280 .f32) (main_arg6 : FVec F S4 .f32) (main_arg7 : FVec F S4x1280 .f32) (main_arg8 : FVec F S4 .f32) (main_arg9 : FVec F S64x1280 .f32) (main_arg10 : FVec F S64 .f32) (main_arg11 : FVec F S64x1280 .f32) (main_arg12 : FVec F S64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S1024x2304 .f32 := Host.absf main_arg3
  let main_cst_4 : FVec F S_ .f32 := constant S_ .f32 0x7F800000#32
  let main_v15 : FVec F S1024x2304 .f32 := broadcastInDim S1024x2304 ![] bcast_S_S1024x2304 main_cst_4
  let main_v16 : IVec S1024x2304 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S8192x256 : Shape := ⟨2, ![8192, 256]⟩
abbrev S1024x2304 : Shape := ⟨2, ![1024, 2304]⟩
abbrev S1024 : Shape := ⟨1, ![1024]⟩
abbrev S4x1280 : Shape := ⟨2, ![4, 1280]⟩
abbrev S4 : Shape := ⟨1, ![4]⟩
abbrev S64x1280 : Shape := ⟨2, ![64, 1280]⟩
abbrev S64 : Shape := ⟨1, ![64]⟩
abbrev S8x256 : Shape := ⟨2, ![8, 256]⟩
abbrev S2304x1024 : Shape := ⟨2, ![2304, 1024]⟩
abbrev S136x1280 : Shape := ⟨2, ![136, 1280]⟩
abbrev S1280x136 : Shape := ⟨2, ![1280, 136]⟩
abbrev S136 : Shape := ⟨1, ![136]⟩
abbrev S1x136 : Shape := ⟨2, ![1, 136]⟩
abbrev S1x1024 : Shape := ⟨2, ![1, 1024]⟩
abbrev S512x1024 : Shape := ⟨2, ![512, 1024]⟩
abbrev S512x256 : Shape := ⟨2, ![512, 256]⟩
abbrev S1024x1024 : Shape := ⟨2, ![1024, 1024]⟩
abbrev S256x1024 : Shape := ⟨2, ![256, 1024]⟩
abbrev S1024x136 : Shape := ⟨2, ![1024, 136]⟩
abbrev S256x136 : Shape := ⟨2, ![256, 136]⟩
abbrev S512x136 : Shape := ⟨2, ![512, 136]⟩
abbrev S512x64 : Shape := ⟨2, ![512, 64]⟩
abbrev S512x4 : Shape := ⟨2, ![512, 4]⟩
abbrev S512x32 : Shape := ⟨2, ![512, 32]⟩
abbrev S512 : Shape := ⟨1, ![512]⟩
abbrev S512x1 : Shape := ⟨2, ![512, 1]⟩
abbrev S512x8 : Shape := ⟨2, ![512, 8]⟩
abbrev S1x256 : Shape := ⟨2, ![1, 256]⟩

abbrev nBuf : Space → Nat
  | .hbm => 24
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x2304, .f32⟩
  | .hbm, ⟨4, _⟩ => ⟨S1024, .f32⟩
  | .hbm, ⟨5, _⟩ => ⟨S4x1280, .f32⟩
  | .hbm, ⟨6, _⟩ => ⟨S4, .f32⟩
  | .hbm, ⟨7, _⟩ => ⟨S4x1280, .f32⟩
  | .hbm, ⟨8, _⟩ => ⟨S4, .f32⟩
  | .hbm, ⟨9, _⟩ => ⟨S64x1280, .f32⟩
  | .hbm, ⟨10, _⟩ => ⟨S64, .f32⟩
  | .hbm, ⟨11, _⟩ => ⟨S64x1280, .f32⟩
  | .hbm, ⟨12, _⟩ => ⟨S64, .f32⟩
  | .hbm, ⟨13, _⟩ => ⟨S8x256, .f32⟩
  | .hbm, ⟨14, _⟩ => ⟨S2304x1024, .f32⟩
  | .hbm, ⟨15, _⟩ => ⟨S2304x1024, .bf16⟩
  | .hbm, ⟨16, _⟩ => ⟨S136x1280, .f32⟩
  | .hbm, ⟨17, _⟩ => ⟨S1280x136, .f32⟩
  | .hbm, ⟨18, _⟩ => ⟨S1280x136, .bf16⟩
  | .hbm, ⟨19, _⟩ => ⟨S136, .f32⟩
  | .hbm, ⟨20, _⟩ => ⟨S1x136, .f32⟩
  | .hbm, ⟨21, _⟩ => ⟨S1x1024, .f32⟩
  | .hbm, ⟨22, _⟩ => ⟨S8192x256, .f32⟩
  | .hbm, ⟨23, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S2304x1024, .bf16⟩
  | .local _ .vmem, ⟨7, _⟩ => ⟨S1x1024, .f32⟩
  | .local _ .vmem, ⟨8, _⟩ => ⟨S1280x136, .bf16⟩
  | .local _ .vmem, ⟨9, _⟩ => ⟨S1x136, .f32⟩
  | .local _ .vmem, ⟨10, _⟩ => ⟨S8x256, .f32⟩
  | .local _ .vmem, ⟨11, _⟩ => ⟨S512x256, .f32⟩
  | .local _ .vmem, ⟨12, _⟩ => ⟨S512x256, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x136 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x136 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x2304_S2304x1024_1_0 : S1024x2304.Transposes [1, 0] S2304x1024
  bitsLt_bf16_f32 : FTy.bits .bf16 < FTy.bits .f32
  concatenates_S64x1280_S64x1280_S4x1280_S4x1280_S136x1280_d0 : Shape.Concatenates [S64x1280, S64x1280, S4x1280, S4x1280] S136x1280 0
  transposes_S136x1280_S1280x136_1_0 : S136x1280.Transposes [1, 0] S1280x136
  concatenates_S64_S64_S4_S4_S136_d0 : Shape.Concatenates [S64, S64, S4, S4] S136 0
  shapeCasts_S136_S1x136 : S136.ShapeCasts S1x136
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S512x256_S512x256_0_0 : ∀ a, (![0, 0] : Fin 2 → Nat) a + S512x256.size a ≤ S512x256.size a
  h_S512x256 : 0 < S512x256.numel
  inb_S2304x1024_S1024x1024_0_0 : ∀ a, (![0, 0] : Fin 2 → Nat) a + S1024x1024.size a ≤ S2304x1024.size a
  h_S1024x1024 : 0 < S1024x1024.numel
  shapeCasts_S1024x1024_S1024x1024 : S1024x1024.ShapeCasts S1024x1024
  inb_S2304x1024_S1024x1024_1024_0 : ∀ a, (![1024, 0] : Fin 2 → Nat) a + S1024x1024.size a ≤ S2304x1024.size a
  inb_S2304x1024_S256x1024_2048_0 : ∀ a, (![2048, 0] : Fin 2 → Nat) a + S256x1024.size a ≤ S2304x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1280x136_S1024x136_0_0 : ∀ a, (![0, 0] : Fin 2 → Nat) a + S1024x136.size a ≤ S1280x136.size a
  h_S1024x136 : 0 < S1024x136.numel
  shapeCasts_S1024x136_S1024x136 : S1024x136.ShapeCasts S1024x136
  inb_S1280x136_S256x136_1024_0 : ∀ a, (![1024, 0] : Fin 2 → Nat) a + S256x136.size a ≤ S1280x136.size a
  h_S256x136 : 0 < S256x136.numel
  shapeCasts_S256x136_S256x136 : S256x136.ShapeCasts S256x136
  inb_S1x136_S1x136_0_0 : ∀ a, (![0, 0] : Fin 2 → Nat) a + S1x136.size a ≤ S1x136.size a
  h_S1x136 : 0 < S1x136.numel
  shapeCasts_S1x136_S1x136 : S1x136.ShapeCasts S1x136
  broadcasts_S1x136_S512x136 : S1x136.Broadcasts S512x136
  slices_S512x136_o0_0_S512x64 : S512x136.Slices ![0, 0] S512x64
  slices_S512x136_o0_64_S512x64 : S512x136.Slices ![0, 64] S512x64
  slices_S512x136_o0_128_S512x4 : S512x136.Slices ![0, 128] S512x4
  slices_S512x136_o0_132_S512x4 : S512x136.Slices ![0, 132] S512x4
  slices_S512x64_o0_0_S512x32 : S512x64.Slices ![0, 0] S512x32
  slices_S512x64_o0_32_S512x32 : S512x64.Slices ![0, 32] S512x32
  inb_S8x256_S8x256_0_0 : ∀ a, (![0, 0] : Fin 2 → Nat) a + S8x256.size a ≤ S8x256.size a
  h_S8x256 : 0 < S8x256.numel
  reduces_S512x32_S512 : S512x32.Reduces [1] S512
  shapeCasts_S512_S512x1 : S512.ShapeCasts S512x1
  slices_S512x32_o0_0_S512x8 : S512x32.Slices ![0, 0] S512x8
  reduces_S512x8_S512 : S512x8.Reduces [1] S512
  slices_S512x4_o0_0_S512x1 : S512x4.Slices ![0, 0] S512x1
  broadcasts_S512x1_S512x8 : S512x1.Broadcasts S512x8
  slices_S512x32_o0_8_S512x8 : S512x32.Slices ![0, 8] S512x8
  slices_S512x4_o0_1_S512x1 : S512x4.Slices ![0, 1] S512x1
  slices_S512x32_o0_16_S512x8 : S512x32.Slices ![0, 16] S512x8
  slices_S512x4_o0_2_S512x1 : S512x4.Slices ![0, 2] S512x1
  slices_S512x32_o0_24_S512x8 : S512x32.Slices ![0, 24] S512x8
  slices_S512x4_o0_3_S512x1 : S512x4.Slices ![0, 3] S512x1
  slices_S512x8_o0_0_S512x1 : S512x8.Slices ![0, 0] S512x1
  slices_S8x256_o0_0_S1x256 : S8x256.Slices ![0, 0] S1x256
  broadcasts_S512x1_S512x256 : S512x1.Broadcasts S512x256
  broadcasts_S1x256_S512x256 : S1x256.Broadcasts S512x256
  slices_S512x8_o0_1_S512x1 : S512x8.Slices ![0, 1] S512x1
  slices_S8x256_o1_0_S1x256 : S8x256.Slices ![1, 0] S1x256
  slices_S512x8_o0_2_S512x1 : S512x8.Slices ![0, 2] S512x1
  slices_S8x256_o2_0_S1x256 : S8x256.Slices ![2, 0] S1x256
  slices_S512x8_o0_3_S512x1 : S512x8.Slices ![0, 3] S512x1
  slices_S8x256_o3_0_S1x256 : S8x256.Slices ![3, 0] S1x256
  slices_S512x8_o0_4_S512x1 : S512x8.Slices ![0, 4] S512x1
  slices_S8x256_o4_0_S1x256 : S8x256.Slices ![4, 0] S1x256
  slices_S512x8_o0_5_S512x1 : S512x8.Slices ![0, 5] S512x1
  slices_S8x256_o5_0_S1x256 : S8x256.Slices ![5, 0] S1x256
  slices_S512x8_o0_6_S512x1 : S512x8.Slices ![0, 6] S512x1
  slices_S8x256_o6_0_S1x256 : S8x256.Slices ![6, 0] S1x256
  slices_S512x8_o0_7_S512x1 : S512x8.Slices ![0, 7] S512x1
  slices_S8x256_o7_0_S1x256 : S8x256.Slices ![7, 0] S1x256
  concatenates_S512x32_S512x32_S512x32_S512x32_S512x32_S512x32_S512x32_S512x32_S512x256_d1 : Shape.Concatenates [S512x32, S512x32, S512x32, S512x32, S512x32, S512x32, S512x32, S512x32] S512x256 1
  dot_S512x1024_S1024x1024_S512x1024_1_0_0_1_n_n_wf : DotDims.WF S512x1024 S1024x1024 S512x1024 [1] [0] [0] [1] [] []
  dot_S512x256_S256x1024_S512x1024_1_0_0_1_n_n_wf : DotDims.WF S512x256 S256x1024 S512x1024 [1] [0] [0] [1] [] []
  dot_S512x1024_S1024x136_S512x136_1_0_0_1_n_n_wf : DotDims.WF S512x1024 S1024x136 S512x136 [1] [0] [0] [1] [] []
  dot_S512x256_S256x136_S512x136_1_0_0_1_n_n_wf : DotDims.WF S512x256 S256x136 S512x136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x1024.size a ≤ S2304x1024.size a
  hwx0_3 : ∀ i : grid0.Coords, EltTy.bits .bf16 = 32 ∨ (Rect.block (s := S2304x1024) S2304x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x136.size a ≤ S1280x136.size a
  hwx0_5 : ∀ i : grid0.Coords, EltTy.bits .bf16 = 32 ∨ (Rect.block (s := S1280x136) S1280x136.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x136.size a ≤ S1x136.size a
  hwx0_6 : ∀ i : grid0.Coords, EltTy.bits .f32 = 32 ∨ (Rect.block (s := S1x136) S1x136.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .f32 = 32 ∨ (Rect.block (s := S8x256) S8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x256.size a
  hwx0_8 : ∀ i : grid0.Coords, EltTy.bits .f32 = 32 ∨ (Rect.block (s := S8192x256) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .f32 = 32 ∨ (Rect.block (s := S8192x1024) S512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x136_S512x136_1_0_0_1_n_n : DotDims S512x1024 S1024x136 S512x136 where
  lhsContracting := [1]
  rhsContracting := [0]
  lhsNonContracting := [0]
  rhsNonContracting := [1]
  lhsBatch := []
  rhsBatch := []
  wf := dot_S512x1024_S1024x136_S512x136_1_0_0_1_n_n_wf
def dot_S512x256_S256x136_S512x136_1_0_0_1_n_n : DotDims S512x256 S256x136 S512x136 where
  lhsContracting := [1]
  rhsContracting := [0]
  lhsNonContracting := [0]
  rhsNonContracting := [1]
  lhsBatch := []
  rhsBatch := []
  wf := dot_S512x256_S256x136_S512x136_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2304x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1280x136.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x136.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x256 : Shape := ⟨2, ![8192, 256]⟩
abbrev S1024x2304 : Shape := ⟨2, ![1024, 2304]⟩
abbrev S1024 : Shape := ⟨1, ![1024]⟩
abbrev S4x1280 : Shape := ⟨2, ![4, 1280]⟩
abbrev S4 : Shape := ⟨1, ![4]⟩
abbrev S64x1280 : Shape := ⟨2, ![64, 1280]⟩
abbrev S64 : Shape := ⟨1, ![64]⟩
abbrev S8192x2304 : Shape := ⟨2, ![8192, 2304]⟩
abbrev S2304x1024 : Shape := ⟨2, ![2304, 1024]⟩
abbrev S1x1024 : Shape := ⟨2, ![1, 1024]⟩
abbrev S_ : Shape := ⟨0, ![]⟩
abbrev S8192x1280 : Shape := ⟨2, ![8192, 1280]⟩
abbrev S1280x4 : Shape := ⟨2, ![1280, 4]⟩
abbrev S8192x4 : Shape := ⟨2, ![8192, 4]⟩
abbrev S1x4 : Shape := ⟨2, ![1, 4]⟩
abbrev S1280x64 : Shape := ⟨2, ![1280, 64]⟩
abbrev S8192x64 : Shape := ⟨2, ![8192, 64]⟩
abbrev S1x64 : Shape := ⟨2, ![1, 64]⟩
abbrev S8192x32 : Shape := ⟨2, ![8192, 32]⟩
abbrev S8192x32x1 : Shape := ⟨3, ![8192, 32, 1]⟩
abbrev S8192x1x32 : Shape := ⟨3, ![8192, 1, 32]⟩
abbrev S8192x32x32 : Shape := ⟨3, ![8192, 32, 32]⟩
abbrev S8192x4x256 : Shape := ⟨3, ![8192, 4, 256]⟩
abbrev S8192x4x1 : Shape := ⟨3, ![8192, 4, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x2304, .f32⟩
  | .hbm, ⟨4, _⟩ => ⟨S1024, .f32⟩
  | .hbm, ⟨5, _⟩ => ⟨S4x1280, .f32⟩
  | .hbm, ⟨6, _⟩ => ⟨S4, .f32⟩
  | .hbm, ⟨7, _⟩ => ⟨S4x1280, .f32⟩
  | .hbm, ⟨8, _⟩ => ⟨S4, .f32⟩
  | .hbm, ⟨9, _⟩ => ⟨S64x1280, .f32⟩
  | .hbm, ⟨10, _⟩ => ⟨S64, .f32⟩
  | .hbm, ⟨11, _⟩ => ⟨S64x1280, .f32⟩
  | .hbm, ⟨12, _⟩ => ⟨S64, .f32⟩
  | .hbm, ⟨13, _⟩ => ⟨S8192x2304, .f32⟩
  | .hbm, ⟨14, _⟩ => ⟨S2304x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1280, .f32⟩
  | .hbm, ⟨23, _⟩ => ⟨S1280x4, .f32⟩
  | .hbm, ⟨24, _⟩ => ⟨S8192x4, .f32⟩
  | .hbm, ⟨25, _⟩ => ⟨S1x4, .f32⟩
  | .hbm, ⟨26, _⟩ => ⟨S8192x4, .f32⟩
  | .hbm, ⟨27, _⟩ => ⟨S8192x4, .f32⟩
  | .hbm, ⟨28, _⟩ => ⟨S1280x4, .f32⟩
  | .hbm, ⟨29, _⟩ => ⟨S8192x4, .f32⟩
  | .hbm, ⟨30, _⟩ => ⟨S1x4, .f32⟩
  | .hbm, ⟨31, _⟩ => ⟨S8192x4, .f32⟩
  | .hbm, ⟨32, _⟩ => ⟨S8192x4, .f32⟩
  | .hbm, ⟨33, _⟩ => ⟨S1280x64, .f32⟩
  | .hbm, ⟨34, _⟩ => ⟨S8192x64, .f32⟩
  | .hbm, ⟨35, _⟩ => ⟨S1x64, .f32⟩
  | .hbm, ⟨36, _⟩ => ⟨S8192x64, .f32⟩
  | .hbm, ⟨37, _⟩ => ⟨S8192x64, .f32⟩
  | .hbm, ⟨38, _⟩ => ⟨S8192x32, .f32⟩
  | .hbm, ⟨39, _⟩ => ⟨S8192x32, .f32⟩
  | .hbm, ⟨40, _⟩ => ⟨S8192x32x1, .f32⟩
  | .hbm, ⟨41, _⟩ => ⟨S8192x1x32, .f32⟩
  | .hbm, ⟨42, _⟩ => ⟨S8192x32x32, .f32⟩
  | .hbm, ⟨43, _⟩ => ⟨S8192x32x32, .f32⟩
  | .hbm, ⟨44, _⟩ => ⟨S8192x32x32, .f32⟩
  | .hbm, ⟨45, _⟩ => ⟨S8192x4x256, .f32⟩
  | .hbm, ⟨46, _⟩ => ⟨S8192x4x256, .f32⟩
  | .hbm, ⟨47, _⟩ => ⟨S8192x4x256, .f32⟩
  | .hbm, ⟨48, _⟩ => ⟨S8192x4x256, .f32⟩
  | .hbm, ⟨49, _⟩ => ⟨S8192x4x256, .f32⟩
  | .hbm, ⟨50, _⟩ => ⟨S_, .f32⟩
  | .hbm, ⟨51, _⟩ => ⟨S8192x4, .f32⟩
  | .hbm, ⟨52, _⟩ => ⟨S8192x4x1, .f32⟩
  | .hbm, ⟨53, _⟩ => ⟨S_, .f32⟩
  | .hbm, ⟨54, _⟩ => ⟨S8192x4x1, .f32⟩
  | .hbm, ⟨55, _⟩ => ⟨S8192x4x1, .f32⟩
  | .hbm, ⟨56, _⟩ => ⟨S_, .f32⟩
  | .hbm, ⟨57, _⟩ => ⟨S8192x4x1, .f32⟩
  | .hbm, ⟨58, _⟩ => ⟨S8192x4x1, .f32⟩
  | .hbm, ⟨59, _⟩ => ⟨S8192x4x256, .f32⟩
  | .hbm, ⟨60, _⟩ => ⟨S8192x4x256, .f32⟩
  | .hbm, ⟨61, _⟩ => ⟨S1280x64, .f32⟩
  | .hbm, ⟨62, _⟩ => ⟨S8192x64, .f32⟩
  | .hbm, ⟨63, _⟩ => ⟨S1x64, .f32⟩
  | .hbm, ⟨64, _⟩ => ⟨S8192x64, .f32⟩
  | .hbm, ⟨65, _⟩ => ⟨S8192x64, .f32⟩
  | .hbm, ⟨66, _⟩ => ⟨S8192x32, .f32⟩
  | .hbm, ⟨67, _⟩ => ⟨S8192x32, .f32⟩
  | .hbm, ⟨68, _⟩ => ⟨S8192x32x1, .f32⟩
  | .hbm, ⟨69, _⟩ => ⟨S8192x1x32, .f32⟩
  | .hbm, ⟨70, _⟩ => ⟨S8192x32x32, .f32⟩
  | .hbm, ⟨71, _⟩ => ⟨S8192x32x32, .f32⟩
  | .hbm, ⟨72, _⟩ => ⟨S8192x32x32, .f32⟩
  | .hbm, ⟨73, _⟩ => ⟨S8192x4x256, .f32⟩
  | .hbm, ⟨74, _⟩ => ⟨S8192x4x256, .f32⟩
  | .hbm, ⟨75, _⟩ => ⟨S8192x4x256, .f32⟩
  | .hbm, ⟨76, _⟩ => ⟨S8192x4x256, .f32⟩
  | .hbm, ⟨77, _⟩ => ⟨S8192x4x256, .f32⟩
  | .hbm, ⟨78, _⟩ => ⟨S_, .f32⟩
  | .hbm, ⟨79, _⟩ => ⟨S8192x4, .f32⟩
  | .hbm, ⟨80, _⟩ => ⟨S8192x4x1, .f32⟩
  | .hbm, ⟨81, _⟩ => ⟨S_, .f32⟩
  | .hbm, ⟨82, _⟩ => ⟨S8192x4x1, .f32⟩
  | .hbm, ⟨83, _⟩ => ⟨S8192x4x1, .f32⟩
  | .hbm, ⟨84, _⟩ => ⟨S_, .f32⟩
  | .hbm, ⟨85, _⟩ => ⟨S8192x4x1, .f32⟩
  | .hbm, ⟨86, _⟩ => ⟨S8192x4x1, .f32⟩
  | .hbm, ⟨87, _⟩ => ⟨S8192x4x256, .f32⟩
  | .hbm, ⟨88, _⟩ => ⟨S8192x4x256, .f32⟩
  | .hbm, ⟨89, _⟩ => ⟨S8192x4x1, .f32⟩
  | .hbm, ⟨90, _⟩ => ⟨S8192x4x256, .f32⟩
  | .hbm, ⟨91, _⟩ => ⟨S8192x4x256, .f32⟩
  | .hbm, ⟨92, _⟩ => ⟨S8192x4x1, .f32⟩
  | .hbm, ⟨93, _⟩ => ⟨S8192x4x256, .f32⟩
  | .hbm, ⟨94, _⟩ => ⟨S8192x4x256, .f32⟩
  | .hbm, ⟨95, _⟩ => ⟨S8192x4x256, .f32⟩
  | .hbm, ⟨96, _⟩ => ⟨S_, .f32⟩
  | .hbm, ⟨97, _⟩ => ⟨S8192x256, .f32⟩
  | .hbm, ⟨98, _⟩ => ⟨S_, .f32⟩
  | .hbm, ⟨99, _⟩ => ⟨S8192x256, .f32⟩
  | .hbm, ⟨100, _⟩ => ⟨S8192x256, .f32⟩
  | .hbm, ⟨101, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_2 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_5 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  concatenates_S8192x1024_S8192x1024_S8192x256_S8192x2304_d1 : Shape.Concatenates [S8192x1024, S8192x1024, S8192x256] S8192x2304 1
  transposes_S1024x2304_S2304x1024_1_0 : S1024x2304.Transposes [1, 0] S2304x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  concatenates_S8192x1024_S8192x256_S8192x1280_d1 : Shape.Concatenates [S8192x1024, S8192x256] S8192x1280 1
  transposes_S4x1280_S1280x4_1_0 : S4x1280.Transposes [1, 0] S1280x4
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S64x1280_S1280x64_1_0 : S64x1280.Transposes [1, 0] S1280x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  slices_S8192x64_S8192x32_0_0 : S8192x64.Slices ![0, 0] S8192x32
  slices_S8192x64_S8192x32_0_32 : S8192x64.Slices ![0, 32] S8192x32
  bcast_S8192x32_S8192x32x1_0_1 : S8192x32.BroadcastsInDim S8192x32x1 (![0, 1] : Fin 2 → Fin S8192x32x1.rank)
  bcast_S8192x32_S8192x1x32_0_2 : S8192x32.BroadcastsInDim S8192x1x32 (![0, 2] : Fin 2 → Fin S8192x1x32.rank)
  bcast_S8192x32x1_S8192x32x32_0_1_2 : S8192x32x1.BroadcastsInDim S8192x32x32 (![0, 1, 2] : Fin 3 → Fin S8192x32x32.rank)
  bcast_S8192x1x32_S8192x32x32_0_1_2 : S8192x1x32.BroadcastsInDim S8192x32x32 (![0, 1, 2] : Fin 3 → Fin S8192x32x32.rank)
  shapeCasts_S8192x32x32_S8192x4x256 : S8192x32x32.ShapeCasts S8192x4x256
  reducesTo_S8192x4x256_S8192x4_d2 : S8192x4x256.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x256_0_1_2 : S8192x4x1.BroadcastsInDim S8192x4x256 (![0, 1, 2] : Fin 3 → Fin S8192x4x256.rank)
  reducesTo_S8192x4x256_S8192x256_d1 : S8192x4x256.ReducesTo [1] S8192x256
  bcast_S_S8192x256 : S_.BroadcastsInDim S8192x256 (![] : Fin 0 → Fin S8192x256.rank)
  dot_S8192x2304_S2304x1024_S8192x1024_1_0_0_1_n_n_wf : DotDims.WF S8192x2304 S2304x1024 S8192x1024 [1] [0] [0] [1] [] []
  dot_S8192x1280_S1280x4_S8192x4_1_0_0_1_n_n_wf : DotDims.WF S8192x1280 S1280x4 S8192x4 [1] [0] [0] [1] [] []
  dot_S8192x1280_S1280x64_S8192x64_1_0_0_1_n_n_wf : DotDims.WF S8192x1280 S1280x64 S8192x64 [1] [0] [0] [1] [] []

variable [Facts₀]

def dot_S8192x2304_S2304x1024_S8192x1024_1_0_0_1_n_n : DotDims S8192x2304 S2304x1024 S8192x1024 where
  lhsContracting := [1]
  rhsContracting := [0]
  lhsNonContracting := [0]
  rhsNonContracting := [1]
  lhsBatch := []
  rhsBatch := []
  wf := dot_S8192x2304_S2304x1024_S8192x1024_1_0_0_1_n_n_wf
def dot_S8192x1280_S1280x4_S8192x4_1_0_0_1_n_n : DotDims S8192x1280 S1280x4 S8192x4 where
  lhsContracting := [1]
  rhsContracting := [0]
  lhsNonContracting := [0]
  rhsNonContracting := [1]
  lhsBatch := []
  rhsBatch := []
  wf := dot_S8192x1280_S1280x4_S8192x4_1_0_0_1_n_n_wf
def dot_S8192x1280_S1280x64_S8192x64_1_0_0_1_n_n : DotDims S8192x1280 S1280x64 S8192x64 where
  lhsContracting := [1]
  rhsContracting := [0]
  lhsNonContracting := [0]
  rhsNonContracting := [1]
  lhsBatch := []
  rhsBatch := []
  wf := dot_S8192x1280_S1280x64_S8192x64_1_0_0_1_n_n_wf

class Facts : Prop extends Facts₀ where

variable [Facts]
-- ==== Proof.KDefs.lean ====
import proofs.«422122_j1039382085932_3_alg».proof.Proof.Gen.Kernel.Launch
import proofs.«422122_j1039382085932_3_alg».proof.Proof.Gen.Kernel.Skeleton
import proofs.«422122_j1039382085932_3_alg».proof.Proof.Gen.Kernel.Points
import Idealize.ShloMosaic.Lib.Pipeline.FrameBody

/-!
# What the kernel's one region finds and what its body leaves

The arrays as the region finds them (after the nine host operations: two transposes cast to bf16, two
four-piece concatenations, two reshapes and the one-hot constant), a window's block at a grid point, the
rectangles the body reads through, and the two values the body stores: the hidden-state block (one payload
of the loaded blocks) and the new-memory block (the chain of payloads from the fused projection on).
-/

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core c's TensorCore buffers when the region is entered: after the host operations. -/
abbrev V (c : Dev nD) (b : Ref sig .tc) : Buf (Elt F) ((c : Thread nD τ).loc b) :=
  StableHlo.after (hostOps0 (F := F)) (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

abbrev rX : Rect S512x1024 := Rect.unit (s := S512x1024) ![0, 0] S512x1024.size inb_S512x1024_S512x1024_0_0
abbrev rM : Rect S512x256 := Rect.unit (s := S512x256) ![0, 0] S512x256.size inb_S512x256_S512x256_0_0
abbrev rW0 : Rect S2304x1024 := Rect.unit (s := S2304x1024) ![0, 0] S1024x1024.size inb_S2304x1024_S1024x1024_0_0
abbrev rW1 : Rect S2304x1024 := Rect.unit (s := S2304x1024) ![1024, 0] S1024x1024.size inb_S2304x1024_S1024x1024_1024_0
abbrev rW2 : Rect S2304x1024 := Rect.unit (s := S2304x1024) ![2048, 0] S256x1024.size inb_S2304x1024_S256x1024_2048_0
abbrev rB : Rect S1x1024 := Rect.unit (s := S1x1024) ![0, 0] S1x1024.size inb_S1x1024_S1x1024_0_0
abbrev rF0 : Rect S1280x136 := Rect.unit (s := S1280x136) ![0, 0] S1024x136.size inb_S1280x136_S1024x136_0_0
abbrev rF1 : Rect S1280x136 := Rect.unit (s := S1280x136) ![1024, 0] S256x136.size inb_S1280x136_S256x136_1024_0
abbrev rBf : Rect S1x136 := Rect.unit (s := S1x136) ![0, 0] S1x136.size inb_S1x136_S1x136_0_0
abbrev rR : Rect S8x256 := Rect.unit (s := S8x256) ![0, 0] S8x256.size inb_S8x256_S8x256_0_0

/-! ## What the body stores -/

/-- The hidden-state block from the blocks of x, h0, mem, the transposed weight and its bias. -/
def hPay (x0 x1 : Vec F S512x1024 .f32) (x2 : Vec F S512x256 .f32) (x3 : Vec F S2304x1024 .bf16) (x4 : Vec F S1x1024 .f32) :
    FVec F S512x1024 .f32 :=
  k0_pay3 (View.ld x0 rX) (View.ld x1 rX) (View.ld x2 rM) (View.ld x3 rW0) (View.ld x3 rW1) (View.ld x3 rW2) (View.ld x4 rB)

/-- The fused projection (before its bias) from the same blocks and the fused weight. -/
def fusedPay (x0 x1 : Vec F S512x1024 .f32) (x2 : Vec F S512x256 .f32) (x3 : Vec F S2304x1024 .bf16) (x4 : Vec F S1x1024 .f32)
    (x5 : Vec F S1280x136 .bf16) : FVec F S512x136 .f32 :=
  k0_pay4 (View.ld x0 rX) (View.ld x1 rX) (View.ld x2 rM) (View.ld x3 rW0) (View.ld x3 rW1) (View.ld x3 rW2) (View.ld x4 rB)
    (View.ld x5 rF0) (View.ld x5 rF1)

/-- The new-memory block from the old memory block v4, the fused projection v31, its bias row v32 and the
    one-hot table v44: the body's chain of payloads, in the order the body computes them. -/
def memChain (v4 : Vec F S512x256 .f32) (v31 : FVec F S512x136 .f32) (v32 : Vec F S1x136 .f32) (v44 : Vec F S8x256 .f32) :
    FVec F S512x256 .f32 :=
  let v38 := k0_pay8 v31 v32
  let v39 := k0_pay9 v31 v32
  let v40 := k0_pay10 v31 v32
  let v41 := k0_pay11 v31 v32
  let v42 := k0_pay12 v31 v32
  let v43 := k0_pay13 v31 v32
  let v48 := k0_pay14 v31 v32
  let v54 := k0_pay15 v31 v32
  let v77 := k0_pay16 v31 v32
  let v78 := k0_pay17 v31 v32
  let v125 := k0_pay18 v38 v40 v48 v54 v77 v78
  let v149 := k0_pay19 v38 v40 v48 v54 v125
  let v178 := k0_pay20 v38 v40 v44 v48 v54 v125
  let v198 := k0_pay21 v41 v44 v149 v178
  let v202 := k0_pay22 v42
  let v208 := k0_pay23 v43
  let v229 := k0_pay24 v42
  let v230 := k0_pay25 v39 v42 v43
  let v255 := k0_pay26 v39 v42 v202 v208 v229 v230
  let v275 := k0_pay27 v39 v202 v208
  let v276 := k0_pay28 v42
  let v303 := k0_pay29 v39 v42 v202 v208 v255 v275 v276
  let v326 := k0_pay30 v39 v42 v44 v202 v208 v255 v275 v276
  let v328 := k0_pay31 v44
  let v329 := k0_pay32 v39 v42 v202 v208 v255 v275 v276
  k0_pay1 v4 v43 v44 v198 v303 v326 v328 v329

/-- Window 9's staging buffer (the hidden state) after the body: its one whole-block store. -/
def out0_9 (x0 x1 : Vec F S512x1024 .f32) (x2 : Vec F S512x256 .f32) (x3 : Vec F S2304x1024 .bf16) (x4 : Vec F S1x1024 .f32) :
    Vec F S512x1024 .f32 :=
  View.canon [⟨rX, hPay x0 x1 x2 x3 x4⟩]

/-- Window 8's staging buffer (the new memory) after the body: its one whole-block store. -/
def out0_8 (x0 x1 : Vec F S512x1024 .f32) (x2 : Vec F S512x256 .f32) (x3 : Vec F S2304x1024 .bf16) (x4 : Vec F S1x1024 .f32)
    (x5 : Vec F S1280x136 .bf16) (x6 : Vec F S1x136 .f32) (x7 : Vec F S8x256 .f32) : Vec F S512x256 .f32 :=
  View.canon [⟨rM, memChain (View.ld x2 rM) (fusedPay x0 x1 x2 x3 x4 x5) (View.ld x6 rBf) (View.ld x7 rR)⟩]

end Cert.Kernel.Hand

end
-- ==== Proof.KFrame.lean ====
import proofs.«422122_j1039382085932_3_alg».proof.Proof.Gen.Kernel.Launch
import proofs.«422122_j1039382085932_3_alg».proof.Proof.Gen.Kernel.Skeleton
import proofs.«422122_j1039382085932_3_alg».proof.Proof.Gen.Kernel.Points
import proofs.«422122_j1039382085932_3_alg».proof.Proof.KDefs
import Idealize.ShloMosaic.Lib.Pipeline.FrameBody
import Idealize.ShloMosaic.Lib.Ring
import Idealize.ShloMosaic.Lib.Tactic

/-!
# The frame of the kernel program

The program is nine host operations (two of them four-piece concatenations) and then one pipelined region on a
grid of sixteen points with ten windows. Its body loads the eight input windows' buffers through literal
rectangles and stores each of the two output windows' buffers once, whole. So the region's run is the library's
frame run: the proof data say that after the body every input buffer holds its block and each output buffer holds
the one stored value written over the input blocks; the body's triple is symbolic execution of its skeleton; and
the frame claim is read off the run's post, an argument array a window stages by the first clause, every other
argument array by the second, each then seen untouched by the host operations (none of which writes an
argument array).
-/

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates. -/
theorem hostOps0_fresh : (hostOps0 : List (HloOp τ sig (Elt F))).Forall fun op => op.fresh = ∅ := by
  simp only [List.Forall]; repeat' constructor

/-- The program is its host operations and then the region, which therefore finds the buffers as the host
    operations leave them. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))

/-! ## The input windows' buffers at a point -/

/-- Input window 0's current buffer holds its block at every point, fetched there or not (where it is not
    fetched its block index has not moved), for any proof data over the region-entry arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (where it is not
    fetched its block index has not moved), for any proof data over the region-entry arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (where it is not
    fetched its block index has not moved), for any proof data over the region-entry arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (where it is not
    fetched its block index has not moved), for any proof data over the region-entry arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (where it is not
    fetched its block index has not moved), for any proof data over the region-entry arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (where it is not
    fetched its block index has not moved), for any proof data over the region-entry arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (where it is not
    fetched its block index has not moved), for any proof data over the region-entry arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (where it is not
    fetched its block index has not moved), for any proof data over the region-entry arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the region-entry arrays, a state in the library's frame post has every argument
    array as launched: the three argument arrays the windows stage are inputs, which the region leaves at their
    entry contents; the other ten no window stages, and the post's second clause keeps them; and the entry
    contents of each are the launched ones. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- So a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_of m dats hA r h c) h

/-! ## The two stores cover their buffers -/

/-- The one store of the new-memory buffer is of the whole block. -/
theorem cover0_8 (p0 : Vec F S512x256 .f32) (y : S512x256.Idx) :
    ∃ pc ∈ ([⟨rM, p0⟩] : List (View.Piece (Elt F) S512x256 .f32)), y ∈ pc.1.set :=
  View.cover_of_tiled [⟨rM, p0⟩] S512x256.size (by rfl) y

/-- The one store of the hidden-state buffer is of the whole block. -/
theorem cover0_9 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole buffers, the eight inputs' at contents x0 .. x7 and the two outputs' at anything, runs to
    a state with the inputs' as they were, the new-memory buffer at its stored value over the inputs and the
    hidden-state buffer at its: the printed function and its seven parts are their skeletons, which are run
    operation by operation; a whole-block store leaves the stored value whatever was there. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S2304x1024 .bf16) (harg4 : arg4.IsWhole) (arg5 : Memref sig .tc .vmem S1x1024 .f32) (harg5 : arg5.IsWhole) (arg6 : Memref sig .tc .vmem S1280x136 .bf16) (harg6 : arg6.IsWhole) (arg7 : Memref sig .tc .vmem S1x136 .f32) (harg7 : arg7.IsWhole) (arg8 : Memref sig .tc .vmem S8x256 .f32) (harg8 : arg8.IsWhole) (arg9 : Memref sig .tc .vmem S512x256 .f32) (harg9 : arg9.IsWhole) (arg10 : Memref sig .tc .vmem S512x1024 .f32) (harg10 : arg10.IsWhole)
    (x0 : Vec F S512x1024 .f32) (x1 : Vec F S512x1024 .f32) (x2 : Vec F S512x256 .f32) (x3 : Vec F S2304x1024 .bf16) (x4 : Vec F S1x1024 .f32) (x5 : Vec F S1280x136 .bf16) (x6 : Vec F S1x136 .f32) (x7 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4)) -∗ K ⟨⟩))
      ⊢ wp frame (wpE (defs₀ (F := F)) Variants.none c none) E (cc0_nru_kernel i arg1 harg1 arg2 harg2 arg3 harg3 arg4 harg4 arg5 harg5 arg6 harg6 arg7 harg7 arg8 harg8 arg9 harg9 arg10 harg10) K := by
  simp only [cc0_nru_kernel_eq_skeleton]; unfold cc0_nru_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of the pipeline on core c: the arrays as the region finds them; after the body at point t each
    input's buffer at its block, the new-memory buffer and the hidden-state buffer at their stored values over
    the input blocks; the invariant the class's (scratch and generator register untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The step the frame is made of: a state in the frame post of this module's proof data has the thirteen
    argument arrays as launched. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  kept_of m (dats m) (A_eq m) r h c

/-- The frame claim at any float instance: the program runs, and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.Kernel.Hand

end
-- ==== Proof.KiDefs.lean ====
import proofs.«422122_j1039382085932_3_alg».proof.Proof.Gen.KernelIdeal.Launch
import proofs.«422122_j1039382085932_3_alg».proof.Proof.Gen.KernelIdeal.Skeleton
import proofs.«422122_j1039382085932_3_alg».proof.Proof.Gen.KernelIdeal.Points
import Idealize.ShloMosaic.Lib.Pipeline.FrameBody

/-!
# What the kernel's one region finds and what its body leaves

The arrays as the region finds them (after the nine host operations: two transposes cast to bf16, two
four-piece concatenations, two reshapes and the one-hot constant), a window's block at a grid point, the
rectangles the body reads through, and the two values the body stores: the hidden-state block (one payload
of the loaded blocks) and the new-memory block (the chain of payloads from the fused projection on).
-/

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core c's TensorCore buffers when the region is entered: after the host operations. -/
abbrev V (c : Dev nD) (b : Ref sig .tc) : Buf (Elt F) ((c : Thread nD τ).loc b) :=
  StableHlo.after (hostOps0 (F := F)) (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

abbrev rX : Rect S512x1024 := Rect.unit (s := S512x1024) ![0, 0] S512x1024.size inb_S512x1024_S512x1024_0_0
abbrev rM : Rect S512x256 := Rect.unit (s := S512x256) ![0, 0] S512x256.size inb_S512x256_S512x256_0_0
abbrev rW0 : Rect S2304x1024 := Rect.unit (s := S2304x1024) ![0, 0] S1024x1024.size inb_S2304x1024_S1024x1024_0_0
abbrev rW1 : Rect S2304x1024 := Rect.unit (s := S2304x1024) ![1024, 0] S1024x1024.size inb_S2304x1024_S1024x1024_1024_0
abbrev rW2 : Rect S2304x1024 := Rect.unit (s := S2304x1024) ![2048, 0] S256x1024.size inb_S2304x1024_S256x1024_2048_0
abbrev rB : Rect S1x1024 := Rect.unit (s := S1x1024) ![0, 0] S1x1024.size inb_S1x1024_S1x1024_0_0
abbrev rF0 : Rect S1280x136 := Rect.unit (s := S1280x136) ![0, 0] S1024x136.size inb_S1280x136_S1024x136_0_0
abbrev rF1 : Rect S1280x136 := Rect.unit (s := S1280x136) ![1024, 0] S256x136.size inb_S1280x136_S256x136_1024_0
abbrev rBf : Rect S1x136 := Rect.unit (s := S1x136) ![0, 0] S1x136.size inb_S1x136_S1x136_0_0
abbrev rR : Rect S8x256 := Rect.unit (s := S8x256) ![0, 0] S8x256.size inb_S8x256_S8x256_0_0

/-! ## What the body stores -/

/-- The hidden-state block from the blocks of x, h0, mem, the transposed weight and its bias. -/
def hPay (x0 x1 : Vec F S512x1024 .f32) (x2 : Vec F S512x256 .f32) (x3 : Vec F S2304x1024 .bf16) (x4 : Vec F S1x1024 .f32) :
    FVec F S512x1024 .f32 :=
  k0_pay3 (View.ld x0 rX) (View.ld x1 rX) (View.ld x2 rM) (View.ld x3 rW0) (View.ld x3 rW1) (View.ld x3 rW2) (View.ld x4 rB)

/-- The fused projection (before its bias) from the same blocks and the fused weight. -/
def fusedPay (x0 x1 : Vec F S512x1024 .f32) (x2 : Vec F S512x256 .f32) (x3 : Vec F S2304x1024 .bf16) (x4 : Vec F S1x1024 .f32)
    (x5 : Vec F S1280x136 .bf16) : FVec F S512x136 .f32 :=
  k0_pay4 (View.ld x0 rX) (View.ld x1 rX) (View.ld x2 rM) (View.ld x3 rW0) (View.ld x3 rW1) (View.ld x3 rW2) (View.ld x4 rB)
    (View.ld x5 rF0) (View.ld x5 rF1)

/-- The new-memory block from the old memory block v4, the fused projection v31, its bias row v32 and the
    one-hot table v44: the body's chain of payloads, in the order the body computes them. -/
def memChain (v4 : Vec F S512x256 .f32) (v31 : FVec F S512x136 .f32) (v32 : Vec F S1x136 .f32) (v44 : Vec F S8x256 .f32) :
    FVec F S512x256 .f32 :=
  let v38 := k0_pay8 v31 v32
  let v39 := k0_pay9 v31 v32
  let v40 := k0_pay10 v31 v32
  let v41 := k0_pay11 v31 v32
  let v42 := k0_pay12 v31 v32
  let v43 := k0_pay13 v31 v32
  let v48 := k0_pay14 v31 v32
  let v54 := k0_pay15 v31 v32
  let v77 := k0_pay16 v31 v32
  let v78 := k0_pay17 v31 v32
  let v125 := k0_pay18 v38 v40 v48 v54 v77 v78
  let v149 := k0_pay19 v38 v40 v48 v54 v125
  let v178 := k0_pay20 v38 v40 v44 v48 v54 v125
  let v198 := k0_pay21 v41 v44 v149 v178
  let v202 := k0_pay22 v42
  let v208 := k0_pay23 v43
  let v229 := k0_pay24 v42
  let v230 := k0_pay25 v39 v42 v43
  let v255 := k0_pay26 v39 v42 v202 v208 v229 v230
  let v275 := k0_pay27 v39 v202 v208
  let v276 := k0_pay28 v42
  let v303 := k0_pay29 v39 v42 v202 v208 v255 v275 v276
  let v326 := k0_pay30 v39 v42 v44 v202 v208 v255 v275 v276
  let v328 := k0_pay31 v44
  let v329 := k0_pay32 v39 v42 v202 v208 v255 v275 v276
  k0_pay1 v4 v43 v44 v198 v303 v326 v328 v329

/-- Window 9's staging buffer (the hidden state) after the body: its one whole-block store. -/
def out0_9 (x0 x1 : Vec F S512x1024 .f32) (x2 : Vec F S512x256 .f32) (x3 : Vec F S2304x1024 .bf16) (x4 : Vec F S1x1024 .f32) :
    Vec F S512x1024 .f32 :=
  View.canon [⟨rX, hPay x0 x1 x2 x3 x4⟩]

/-- Window 8's staging buffer (the new memory) after the body: its one whole-block store. -/
def out0_8 (x0 x1 : Vec F S512x1024 .f32) (x2 : Vec F S512x256 .f32) (x3 : Vec F S2304x1024 .bf16) (x4 : Vec F S1x1024 .f32)
    (x5 : Vec F S1280x136 .bf16) (x6 : Vec F S1x136 .f32) (x7 : Vec F S8x256 .f32) : Vec F S512x256 .f32 :=
  View.canon [⟨rM, memChain (View.ld x2 rM) (fusedPay x0 x1 x2 x3 x4 x5) (View.ld x6 rBf) (View.ld x7 rR)⟩]

end Cert.KernelIdeal.Hand

end
-- ==== Proof.KiFrame.lean ====
import proofs.«422122_j1039382085932_3_alg».proof.Proof.Gen.KernelIdeal.Launch
import proofs.«422122_j1039382085932_3_alg».proof.Proof.Gen.KernelIdeal.Skeleton
import proofs.«422122_j1039382085932_3_alg».proof.Proof.Gen.KernelIdeal.Points
import proofs.«422122_j1039382085932_3_alg».proof.Proof.KiDefs
import Idealize.ShloMosaic.Lib.Pipeline.FrameBody
import Idealize.ShloMosaic.Lib.Ring
import Idealize.ShloMosaic.Lib.Tactic

/-!
# The frame of the kernel program

The program is nine host operations (two of them four-piece concatenations) and then one pipelined region on a
grid of sixteen points with ten windows. Its body loads the eight input windows' buffers through literal
rectangles and stores each of the two output windows' buffers once, whole. So the region's run is the library's
frame run: the proof data say that after the body every input buffer holds its block and each output buffer holds
the one stored value written over the input blocks; the body's triple is symbolic execution of its skeleton; and
the frame claim is read off the run's post, an argument array a window stages by the first clause, every other
argument array by the second, each then seen untouched by the host operations (none of which writes an
argument array).
-/

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates. -/
theorem hostOps0_fresh : (hostOps0 : List (HloOp τ sig (Elt F))).Forall fun op => op.fresh = ∅ := by
  simp only [List.Forall]; repeat' constructor

/-- The program is its host operations and then the region, which therefore finds the buffers as the host
    operations leave them. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))
/-- No host operation writes argument array 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes,
      StableHlo.reshape_writes, Finset.mem_singleton]
    repeat' apply And.intro
    all_goals exact StableHlo.devRef_ne_of_ne (by decide)))

/-! ## The input windows' buffers at a point -/

/-- Input window 0's current buffer holds its block at every point, fetched there or not (where it is not
    fetched its block index has not moved), for any proof data over the region-entry arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (where it is not
    fetched its block index has not moved), for any proof data over the region-entry arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (where it is not
    fetched its block index has not moved), for any proof data over the region-entry arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (where it is not
    fetched its block index has not moved), for any proof data over the region-entry arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (where it is not
    fetched its block index has not moved), for any proof data over the region-entry arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (where it is not
    fetched its block index has not moved), for any proof data over the region-entry arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (where it is not
    fetched its block index has not moved), for any proof data over the region-entry arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (where it is not
    fetched its block index has not moved), for any proof data over the region-entry arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the region-entry arrays, a state in the library's frame post has every argument
    array as launched: the three argument arrays the windows stage are inputs, which the region leaves at their
    entry contents; the other ten no window stages, and the post's second clause keeps them; and the entry
    contents of each are the launched ones. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- So a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_of m dats hA r h c) h

/-! ## The two stores cover their buffers -/

/-- The one store of the new-memory buffer is of the whole block. -/
theorem cover0_8 (p0 : Vec F S512x256 .f32) (y : S512x256.Idx) :
    ∃ pc ∈ ([⟨rM, p0⟩] : List (View.Piece (Elt F) S512x256 .f32)), y ∈ pc.1.set :=
  View.cover_of_tiled [⟨rM, p0⟩] S512x256.size (by rfl) y

/-- The one store of the hidden-state buffer is of the whole block. -/
theorem cover0_9 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole buffers, the eight inputs' at contents x0 .. x7 and the two outputs' at anything, runs to
    a state with the inputs' as they were, the new-memory buffer at its stored value over the inputs and the
    hidden-state buffer at its: the printed function and its seven parts are their skeletons, which are run
    operation by operation; a whole-block store leaves the stored value whatever was there. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S2304x1024 .bf16) (harg4 : arg4.IsWhole) (arg5 : Memref sig .tc .vmem S1x1024 .f32) (harg5 : arg5.IsWhole) (arg6 : Memref sig .tc .vmem S1280x136 .bf16) (harg6 : arg6.IsWhole) (arg7 : Memref sig .tc .vmem S1x136 .f32) (harg7 : arg7.IsWhole) (arg8 : Memref sig .tc .vmem S8x256 .f32) (harg8 : arg8.IsWhole) (arg9 : Memref sig .tc .vmem S512x256 .f32) (harg9 : arg9.IsWhole) (arg10 : Memref sig .tc .vmem S512x1024 .f32) (harg10 : arg10.IsWhole)
    (x0 : Vec F S512x1024 .f32) (x1 : Vec F S512x1024 .f32) (x2 : Vec F S512x256 .f32) (x3 : Vec F S2304x1024 .bf16) (x4 : Vec F S1x1024 .f32) (x5 : Vec F S1280x136 .bf16) (x6 : Vec F S1x136 .f32) (x7 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4)) -∗ K ⟨⟩))
      ⊢ wp frame (wpE (defs₀ (F := F)) Variants.none c none) E (cc0_nru_kernel i arg1 harg1 arg2 harg2 arg3 harg3 arg4 harg4 arg5 harg5 arg6 harg6 arg7 harg7 arg8 harg8 arg9 harg9 arg10 harg10) K := by
  simp only [cc0_nru_kernel_eq_skeleton]; unfold cc0_nru_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of the pipeline on core c: the arrays as the region finds them; after the body at point t each
    input's buffer at its block, the new-memory buffer and the hidden-state buffer at their stored values over
    the input blocks; the invariant the class's (scratch and generator register untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The step the frame is made of: a state in the frame post of this module's proof data has the thirteen
    argument arrays as launched. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  kept_of m (dats m) (A_eq m) r h c

/-- The frame claim at any float instance: the program runs, and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.KernelIdeal.Hand

end
-- ==== Proof.Spec.lean ====
import Idealize.ShloMosaic.PureOps.Ideal

/-!
# The two programs as row-level functions on the extended reals

Every batch row is computed independently, so both programs are described by functions of one row.
hK, fusedK, memRowK follow the kernel's order of operations (three partial matrix products, a fused
projection of width 136, the fifth-power norm of a rank-one outer product taken as a PRODUCT of two norms, the
one-hot expansion, one multiply by the tiled second factor, the factor 1/4); hR, linR, memRowR follow
the reference's (one product over the concatenated row, four projections, the norm of the outer product taken
directly over its 256 entries, a power with exponent the single-precision 0.2, a mean as a sum divided by 4).
-/

noncomputable section

namespace Cert.Spec

open Idealize.ShloMosaic

/-! ## The literals both programs share -/

abbrev zeroE : EReal := Ideal.ofBits .f32 0x00000000#32
abbrev oneE : EReal := Ideal.ofBits .f32 0x3F800000#32
/-- the single-precision number nearest 0.2, the exponent of the fifth root -/
abbrev c02E : EReal := Ideal.ofBits .f32 0x3E4CCCCD#32
/-- the single-precision number nearest 1e-12, the floor of a norm -/
abbrev epsE : EReal := Ideal.ofBits .f32 0x2B8CBCCC#32
abbrev quarterE : EReal := Ideal.ofBits .f32 0x3E800000#32
abbrev fourE : EReal := Ideal.ofBits .f32 0x40800000#32

/-- The absolute value as both programs take it. -/
def absE (a : EReal) : EReal := max a (-a)
/-- |a|^5 in the kernel's order: (|a|·|a|)·(|a|·|a|), then times |a|. -/
def pow5K (a : EReal) : EReal := ((absE a * absE a) * (absE a * absE a)) * absE a
/-- |a|^5 in the reference's order: |a| times ((|a|·|a|)·(|a|·|a|)). -/
def pow5R (a : EReal) : EReal := absE a * ((absE a * absE a) * (absE a * absE a))

/-! ## The arguments, as curried arrays -/

structure Args where
  x : Fin 8192 → Fin 1024 → EReal
  h0 : Fin 8192 → Fin 1024 → EReal
  mem : Fin 8192 → Fin 256 → EReal
  Wh : Fin 1024 → Fin 2304 → EReal
  bh : Fin 1024 → EReal
  Wa : Fin 4 → Fin 1280 → EReal
  ba : Fin 4 → EReal
  Wb : Fin 4 → Fin 1280 → EReal
  bb : Fin 4 → EReal
  Wva : Fin 64 → Fin 1280 → EReal
  bva : Fin 64 → EReal
  Wvb : Fin 64 → Fin 1280 → EReal
  bvb : Fin 64 → EReal

/-- Every entry of every argument is a real number. -/
structure Args.Real (A : Args) : Prop where
  x : ∀ b j, ∃ r : ℝ, A.x b j = (r : EReal)
  h0 : ∀ b j, ∃ r : ℝ, A.h0 b j = (r : EReal)
  mem : ∀ b j, ∃ r : ℝ, A.mem b j = (r : EReal)
  Wh : ∀ n j, ∃ r : ℝ, A.Wh n j = (r : EReal)
  bh : ∀ n, ∃ r : ℝ, A.bh n = (r : EReal)
  Wa : ∀ k j, ∃ r : ℝ, A.Wa k j = (r : EReal)
  ba : ∀ k, ∃ r : ℝ, A.ba k = (r : EReal)
  Wb : ∀ k j, ∃ r : ℝ, A.Wb k j = (r : EReal)
  bb : ∀ k, ∃ r : ℝ, A.bb k = (r : EReal)
  Wva : ∀ c j, ∃ r : ℝ, A.Wva c j = (r : EReal)
  bva : ∀ c, ∃ r : ℝ, A.bva c = (r : EReal)
  Wvb : ∀ c j, ∃ r : ℝ, A.Wvb c j = (r : EReal)
  bvb : ∀ c, ∃ r : ℝ, A.bvb c = (r : EReal)

variable (A : Args)

/-! ## The kernel's form -/

/-- The hidden state, kernel order: x·Wx + h0·Wh0, then + mem·Wm, then + bias, then the maximum with 0. -/
def hK (b : Fin 8192) (n : Fin 1024) : EReal :=
  max ((((∑ j : Fin 1024, A.x b j * A.Wh n ⟨j.val, by omega⟩)
      + (∑ j : Fin 1024, A.h0 b j * A.Wh n ⟨1024 + j.val, by omega⟩))
      + (∑ j : Fin 256, A.mem b j * A.Wh n ⟨2048 + j.val, by omega⟩)) + A.bh n) zeroE

/-- The four narrow weight matrices stacked: rows 0–63 W_va, 64–127 W_vb, 128–131 W_a, 132–135 W_b. -/
def Wf (c : Fin 136) (j : Fin 1280) : EReal :=
  if h : c.val < 64 then A.Wva ⟨c.val, h⟩ j
  else if h2 : c.val < 128 then A.Wvb ⟨c.val - 64, by omega⟩ j
  else if h3 : c.val < 132 then A.Wa ⟨c.val - 128, by omega⟩ j
  else A.Wb ⟨c.val - 132, by omega⟩ j
/-- and their biases stacked the same way. -/
def bf (c : Fin 136) : EReal :=
  if h : c.val < 64 then A.bva ⟨c.val, h⟩
  else if h2 : c.val < 128 then A.bvb ⟨c.val - 64, by omega⟩
  else if h3 : c.val < 132 then A.ba ⟨c.val - 128, by omega⟩
  else A.bb ⟨c.val - 132, by omega⟩

/-- The fused projection of (h, mem), kernel order: h·Wf[:1024] + mem·Wf[1024:], then + bias. -/
def fusedK (b : Fin 8192) (c : Fin 136) : EReal :=
  ((∑ j : Fin 1024, hK A b j * Wf A c ⟨j.val, by omega⟩)
    + (∑ j : Fin 256, A.mem b j * Wf A c ⟨1024 + j.val, by omega⟩)) + bf A c

/-- The kernel's fifth root with its floor: exp(0.2·log s) where s > 0, else 0; then the maximum with 1e-12. -/
def normK (s : EReal) : EReal :=
  max (if 0 < s then Ideal.exp (c02E * Ideal.log (if 0 < s then s else oneE)) else zeroE) epsE

/-- One branch of the kernel on one row. The 64 entries of u hold the two factors (u0 = entries 0–31,
    u1 = entries 32–63), co the four coefficients, R the one-hot table. -/
def s1K (u : Fin 64 → EReal) : EReal := ∑ j : Fin 32, pow5K (u ⟨32 + j.val, by omega⟩)
def s0K (u : Fin 64 → EReal) (k : Fin 4) : EReal := ∑ r : Fin 8, pow5K (u ⟨8 * k.val + r.val, by omega⟩)
/-- coefficient over norm, times the k-th group of eight entries of u0 -/
def termK (u : Fin 64 → EReal) (co : Fin 4 → EReal) (k : Fin 4) (r : Fin 8) : EReal :=
  Ideal.div (co k) (normK (s0K u k * s1K u)) * u ⟨8 * k.val + r.val, by omega⟩
def gK (u : Fin 64 → EReal) (co : Fin 4 → EReal) (r : Fin 8) : EReal :=
  ((termK u co 0 r + termK u co 1 r) + termK u co 2 r) + termK u co 3 r
/-- the one-hot expansion, accumulated left to right over the table's eight rows -/
def expandK (g : Fin 8 → EReal) (R : Fin 8 → Fin 256 → EReal) (q : Fin 256) : EReal :=
  ((((((g 0 * R 0 q + g 1 * R 1 q) + g 2 * R 2 q) + g 3 * R 3 q) + g 4 * R 4 q) + g 5 * R 5 q) + g 6 * R 6 q) + g 7 * R 7 q
def contribK (u : Fin 64 → EReal) (co : Fin 4 → EReal) (R : Fin 8 → Fin 256 → EReal) (q : Fin 256) : EReal :=
  expandK (gK u co) R q * u ⟨32 + q.val % 32, by omega⟩

/-- The kernel's new memory entry on one row, from the fused row fz (136 wide: u_va | u_vb | alpha | beta),
    the one-hot table R and the old memory entry mv. -/
def memRowK (fz : Fin 136 → EReal) (R : Fin 8 → Fin 256 → EReal) (mv : EReal) (q : Fin 256) : EReal :=
  mv + (contribK (fun c => fz ⟨c.val, by omega⟩) (fun k => fz ⟨128 + k.val, by omega⟩) R q
        - contribK (fun c => fz ⟨64 + c.val, by omega⟩) (fun k => fz ⟨132 + k.val, by omega⟩) R q) * quarterE

/-- The one-hot table the kernel is launched with: row i is 1 on columns 32·i … 32·i+31. -/
def onehot (i : Fin 8) (q : Fin 256) : EReal := if q.val / 32 = i.val then oneE else zeroE

def memK (b : Fin 8192) (q : Fin 256) : EReal := memRowK (fusedK A b) onehot (A.mem b q) q

/-! ## The reference's form -/

/-- x, h0 and mem side by side. -/
def catR (b : Fin 8192) (j : Fin 2304) : EReal :=
  if h : j.val < 1024 then A.x b ⟨j.val, h⟩
  else if h2 : j.val < 2048 then A.h0 b ⟨j.val - 1024, by omega⟩
  else A.mem b ⟨j.val - 2048, by omega⟩
def hR (b : Fin 8192) (n : Fin 1024) : EReal :=
  max ((∑ j : Fin 2304, catR A b j * A.Wh n j) + A.bh n) zeroE
/-- h and mem side by side. -/
def hmR (b : Fin 8192) (j : Fin 1280) : EReal :=
  if h : j.val < 1024 then hR A b ⟨j.val, h⟩ else A.mem b ⟨j.val - 1024, by omega⟩
/-- A linear layer on (h, mem). -/
def linR {K : Nat} (W : Fin K → Fin 1280 → EReal) (bias : Fin K → EReal) (b : Fin 8192) (c : Fin K) : EReal :=
  (∑ j : Fin 1280, hmR A b j * W c j) + bias c
/-- The outer product u0 ⊗ u1 (32 × 32) regrouped as 4 × 256: entry (k, q) is u0[8k + q/32] · u1[q mod 32]. -/
def vR (u : Fin 64 → EReal) (k : Fin 4) (q : Fin 256) : EReal :=
  u ⟨8 * k.val + q.val / 32, by omega⟩ * u ⟨32 + q.val % 32, by omega⟩
/-- its fifth-power norm over the 256 entries, with the floor -/
def normR (u : Fin 64 → EReal) (k : Fin 4) : EReal :=
  max (Ideal.pow (zeroE + ∑ q : Fin 256, pow5R (vR u k q)) c02E) epsE
def deltaR (ua ub : Fin 64 → EReal) (al be : Fin 4 → EReal) (k : Fin 4) (q : Fin 256) : EReal :=
  al k * Ideal.div (vR ua k q) (normR ua k) - be k * Ideal.div (vR ub k q) (normR ub k)
/-- The reference's new memory entry on one row. -/
def memRowR (ua ub : Fin 64 → EReal) (al be : Fin 4 → EReal) (mv : EReal) (q : Fin 256) : EReal :=
  mv + Ideal.div (zeroE + ∑ k : Fin 4, deltaR ua ub al be k q) fourE
def memR (b : Fin 8192) (q : Fin 256) : EReal :=
  memRowR (linR A A.Wva A.bva b) (linR A A.Wvb A.bvb b) (linR A A.Wa A.ba b) (linR A A.Wb A.bb b) (A.mem b q) q

end Cert.Spec

end
-- ==== Proof.SpecArgs.lean ====
import proofs.«422122_j1039382085932_3_alg».proof.Proof.Spec
import Idealize.ShloMosaic.Lib.ValueIdx

/-!
# The specification's arguments read off the thirteen argument arrays

An array of shape [a, b] is a function of a two-coordinate index; the specification takes it curried.
-/

noncomputable section

namespace Cert.Spec

open Idealize.ShloMosaic Idealize.ShloMosaic.ValueIdx

/-- The thirteen argument arrays (x, h0, memory, W_h, b_h, W_a, b_a, W_b, b_b, W_va, b_va, W_vb, b_vb, in the
    programs' order) as the specification's curried arrays. -/
def argsOf
    (a0 a1 : (⟨2, ![8192, 1024]⟩ : Shape).Idx → EReal) (a2 : (⟨2, ![8192, 256]⟩ : Shape).Idx → EReal)
    (a3 : (⟨2, ![1024, 2304]⟩ : Shape).Idx → EReal) (a4 : (⟨1, ![1024]⟩ : Shape).Idx → EReal)
    (a5 : (⟨2, ![4, 1280]⟩ : Shape).Idx → EReal) (a6 : (⟨1, ![4]⟩ : Shape).Idx → EReal)
    (a7 : (⟨2, ![4, 1280]⟩ : Shape).Idx → EReal) (a8 : (⟨1, ![4]⟩ : Shape).Idx → EReal)
    (a9 : (⟨2, ![64, 1280]⟩ : Shape).Idx → EReal) (a10 : (⟨1, ![64]⟩ : Shape).Idx → EReal)
    (a11 : (⟨2, ![64, 1280]⟩ : Shape).Idx → EReal) (a12 : (⟨1, ![64]⟩ : Shape).Idx → EReal) : Args where
  x b j := a0 (ix2 b j)
  h0 b j := a1 (ix2 b j)
  mem b j := a2 (ix2 b j)
  Wh n j := a3 (ix2 n j)
  bh n := a4 (ix1 n)
  Wa k j := a5 (ix2 k j)
  ba k := a6 (ix1 k)
  Wb k j := a7 (ix2 k j)
  bb k := a8 (ix1 k)
  Wva c j := a9 (ix2 c j)
  bva c := a10 (ix1 c)
  Wvb c j := a11 (ix2 c j)
  bvb c := a12 (ix1 c)

end Cert.Spec

end
-- ==== Proof.KiHost.lean ====
import proofs.«422122_j1039382085932_3_alg».proof.Proof.KiDefs
import proofs.«422122_j1039382085932_3_alg».proof.Proof.SpecArgs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-!
# What the host operations before the region leave, read at an index

The region's five resident operands are written by host operations: W_h transposed (entry (j, n) is
W_h[n, j]), the four narrow weights stacked then transposed (entry (j, c) is row c of the stack at column j),
the four narrow biases stacked as a row, b_h as a row, and the one-hot table. A change of float format is the
identity on extended reals.
-/

noncomputable section

namespace Cert.KernelIdeal.Hand

open Idealize.ShloMosaic Idealize.ShloMosaic.TcCoe Idealize.ShloMosaic.StableHlo Idealize.ShloMosaic.ValueIdx
open Idealize.SL Idealize.SL.Sem
open Cert.KernelIdeal Cert.KernelIdeal.Gen

variable (m : (ℓ : Loc nD τ sig) → Buf (Elt Ideal) ℓ)

/-- The specification's arguments: the thirteen argument arrays as core c holds them at launch. -/
abbrev argsAt (c : Dev nD) : Cert.Spec.Args :=
  Cert.Spec.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-! ## The buffers' terms -/

theorem V_v1 (c : Dev nD) : @Eq (S2304x1024.Idx → EReal) (V m c main_v1)
    (truncf (F := Ideal) .bf16 (transpose S2304x1024 [1, 0] (m ((c : Thread nD τ).loc main_arg3)) transposes_S1024x2304_S2304x1024_1_0) bitsLt_bf16_f32) := by
  dsimp only [V, hostOps0]
  after_results

theorem V_v7 (c : Dev nD) : @Eq (S1x1024.Idx → EReal) (V m c main_v7)
    (shapeCast S1x1024 (m ((c : Thread nD τ).loc main_arg4)) shapeCasts_S1024_S1x1024) := by
  dsimp only [V, hostOps0]
  after_results
  rfl

theorem V_v4 (c : Dev nD) : @Eq (S1280x136.Idx → EReal) (V m c main_v4)
    (truncf (F := Ideal) .bf16 (transpose S1280x136 [1, 0]
      (concatenate S136x1280 0 [⟨S64x1280, m ((c : Thread nD τ).loc main_arg9)⟩, ⟨S64x1280, m ((c : Thread nD τ).loc main_arg11)⟩,
        ⟨S4x1280, m ((c : Thread nD τ).loc main_arg5)⟩, ⟨S4x1280, m ((c : Thread nD τ).loc main_arg7)⟩] concatenates_S64x1280_S64x1280_S4x1280_S4x1280_S136x1280_d0)
      transposes_S136x1280_S1280x136_1_0) bitsLt_bf16_f32) := by
  show StableHlo.after (hostOps0 (F := Ideal)) (fun b => m (c, b)) (Proc.devRef .tc main_v4) = _
  unfold hostOps0
  after_results
  rfl

theorem V_v6 (c : Dev nD) : @Eq (S1x136.Idx → EReal) (V m c main_v6)
    (shapeCast S1x136 (concatenate S136 0 [⟨S64, m ((c : Thread nD τ).loc main_arg10)⟩, ⟨S64, m ((c : Thread nD τ).loc main_arg12)⟩,
        ⟨S4, m ((c : Thread nD τ).loc main_arg6)⟩, ⟨S4, m ((c : Thread nD τ).loc main_arg8)⟩] concatenates_S64_S64_S4_S4_S136_d0) shapeCasts_S136_S1x136) := by
  show StableHlo.after (hostOps0 (F := Ideal)) (fun b => m (c, b)) (Proc.devRef .tc main_v6) = _
  unfold hostOps0
  after_results
  rfl

theorem V_cst (c : Dev nD) : @Eq (S8x256.Idx → EReal) (V m c main_cst)
    (fun i => FloatOps.ofBits (F := Ideal) .f32 (lit0 (S8x256.rowMajor i))) := by
  dsimp only [V, hostOps0]
  after_results
  rfl

/-- No host operation writes x, h0 or memory: the region finds them as launched. -/
theorem V_x (c : Dev nD) : @Eq (S8192x1024.Idx → EReal) (V m c main_arg0) (m ((c : Thread nD τ).loc main_arg0)) := by
  dsimp only [V, hostOps0]
  after_results
theorem V_h0 (c : Dev nD) : @Eq (S8192x1024.Idx → EReal) (V m c main_arg1) (m ((c : Thread nD τ).loc main_arg1)) := by
  dsimp only [V, hostOps0]
  after_results
theorem V_mem (c : Dev nD) : @Eq (S8192x256.Idx → EReal) (V m c main_arg2) (m ((c : Thread nD τ).loc main_arg2)) := by
  dsimp only [V, hostOps0]
  after_results

/-! ## Read at an index -/

/-- W_h transposed: entry (j, n) is W_h[n, j]. -/
theorem V_v1_at (c : Dev nD) (j : Fin 2304) (n : Fin 1024) :
    (V m c main_v1 : S2304x1024.Idx → EReal) (ix2 j n) = (argsAt m c).Wh n j := by
  rw [V_v1, truncf_apply]
  exact transpose_ix2_apply _ _ j n

/-- b_h as a row. -/
theorem V_v7_at (c : Dev nD) (n : Fin 1024) :
    (V m c main_v7 : S1x1024.Idx → EReal) (ix2 0 n) = (argsAt m c).bh n := by
  rw [V_v7]
  exact shapeCast_a_1a_apply _ _ 0 n

/-- The four narrow biases stacked as a row: entry c is the stack's entry c. -/
theorem V_v6_at (c : Dev nD) (c' : Fin 136) :
    (V m c main_v6 : S1x136.Idx → EReal) (ix2 0 c') = Cert.Spec.bf (argsAt m c) c' := by
  rw [V_v6, shapeCast_a_1a_apply _ _ 0 c']
  unfold Cert.Spec.bf
  by_cases h1 : c'.val < 64
  · rw [dif_pos h1]
    exact concatenate_apply_piece (t := S136) 0 _ _ (ix1 c') 0 (by simp) S64 _ rfl rfl 0 rfl (ix1 ⟨c'.val, h1⟩)
      (fun b hb => absurd (Subsingleton.elim _ _) hb) (by show 0 + c'.val = c'.val; omega)
  · rw [dif_neg h1]
    by_cases h2 : c'.val < 128
    · rw [dif_pos h2]
      exact concatenate_apply_piece (t := S136) 0 _ _ (ix1 c') 1 (by simp) S64 _ rfl rfl 64 rfl (ix1 ⟨c'.val - 64, by omega⟩)
        (fun b hb => absurd (Subsingleton.elim _ _) hb) (by show 64 + (c'.val - 64) = c'.val; omega)
    · rw [dif_neg h2]
      by_cases h3 : c'.val < 132
      · rw [dif_pos h3]
        exact concatenate_apply_piece (t := S136) 0 _ _ (ix1 c') 2 (by simp) S4 _ rfl rfl 128 rfl (ix1 ⟨c'.val - 128, by omega⟩)
          (fun b hb => absurd (Subsingleton.elim _ _) hb) (by show 128 + (c'.val - 128) = c'.val; omega)
      · rw [dif_neg h3]
        have h4 : c'.val < 136 := c'.isLt
        exact concatenate_apply_piece (t := S136) 0 _ _ (ix1 c') 3 (by simp) S4 _ rfl rfl 132 rfl (ix1 ⟨c'.val - 132, by omega⟩)
          (fun b hb => absurd (Subsingleton.elim _ _) hb) (by show 132 + (c'.val - 132) = c'.val; omega)

/-- The four narrow weights stacked then transposed: entry (j, c) is the stack's row c at column j. -/
theorem V_v4_at (c : Dev nD) (j : Fin 1280) (c' : Fin 136) :
    (V m c main_v4 : S1280x136.Idx → EReal) (ix2 j c') = Cert.Spec.Wf (argsAt m c) c' j := by
  rw [V_v4, truncf_apply, transpose_ix2_apply _ _ j c']
  unfold Cert.Spec.Wf
  by_cases h1 : c'.val < 64
  · rw [dif_pos h1]
    exact concatenate_apply_piece (t := S136x1280) 0 _ _ (ix2 c' j) 0 (by simp) S64x1280 _ rfl rfl 0 rfl (ix2 ⟨c'.val, h1⟩ j)
      (fun b hb => by match b with | ⟨0, _⟩ => exact absurd rfl hb | ⟨1, _⟩ => rfl) (by show 0 + c'.val = c'.val; omega)
  · rw [dif_neg h1]
    by_cases h2 : c'.val < 128
    · rw [dif_pos h2]
      exact concatenate_apply_piece (t := S136x1280) 0 _ _ (ix2 c' j) 1 (by simp) S64x1280 _ rfl rfl 64 rfl (ix2 ⟨c'.val - 64, by omega⟩ j)
        (fun b hb => by match b with | ⟨0, _⟩ => exact absurd rfl hb | ⟨1, _⟩ => rfl) (by show 64 + (c'.val - 64) = c'.val; omega)
    · rw [dif_neg h2]
      by_cases h3 : c'.val < 132
      · rw [dif_pos h3]
        exact concatenate_apply_piece (t := S136x1280) 0 _ _ (ix2 c' j) 2 (by simp) S4x1280 _ rfl rfl 128 rfl (ix2 ⟨c'.val - 128, by omega⟩ j)
          (fun b hb => by match b with | ⟨0, _⟩ => exact absurd rfl hb | ⟨1, _⟩ => rfl) (by show 128 + (c'.val - 128) = c'.val; omega)
      · rw [dif_neg h3]
        have h4 : c'.val < 136 := c'.isLt
        exact concatenate_apply_piece (t := S136x1280) 0 _ _ (ix2 c' j) 3 (by simp) S4x1280 _ rfl rfl 132 rfl (ix2 ⟨c'.val - 132, by omega⟩ j)
          (fun b hb => by match b with | ⟨0, _⟩ => exact absurd rfl hb | ⟨1, _⟩ => rfl) (by show 132 + (c'.val - 132) = c'.val; omega)

/-- The table's 2048 words, decided one by one: word 256·i + q is the word of 1 when q / 32 = i, else the zero word. -/
theorem lit0_onehot : ∀ k : Fin 2048,
    lit0 k = if (k.val % 256) / 32 = k.val / 256 then 0x3F800000#32 else 0x00000000#32 := by
  decide +kernel

/-- The one-hot table: entry (i, q) is 1 when q / 32 = i, else 0. -/
theorem V_cst_at (c : Dev nD) (i : Fin 8) (q : Fin 256) :
    (V m c main_cst : S8x256.Idx → EReal) (ix2 i q) = Cert.Spec.onehot i q := by
  rw [V_cst]
  have hk : (S8x256.rowMajor (ix2 i q)).val = i.val * 256 + q.val := Shape.rowMajor_val_two (ix2 i q)
  have hi := i.isLt
  have hq := q.isLt
  have e1 : ((S8x256.rowMajor (ix2 i q)).val % 256) / 32 = q.val / 32 := by rw [hk]; omega
  have e2 : (S8x256.rowMajor (ix2 i q)).val / 256 = i.val := by rw [hk]; omega
  have hl := lit0_onehot (S8x256.rowMajor (ix2 i q))
  rw [e1, e2] at hl
  refine (congrArg (Ideal.ofBits .f32) hl).trans ?_
  unfold Cert.Spec.onehot
  split <;> rfl

end Cert.KernelIdeal.Hand

end
-- ==== Proof.KiPayH.lean ====
import proofs.«422122_j1039382085932_3_alg».proof.Proof.Gen.KernelIdeal.Skeleton
import proofs.«422122_j1039382085932_3_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The two matrix-product payloads of the kernel, entry by entry, over the extended reals

Over the extended reals a change of float format is the identity and a matrix product into a zero accumulator is the
plain sum over the contracted coordinate. So the hidden-state payload at (p, n) is the maximum with zero of three
partial products of row p with column n plus the bias entry n, and the fused projection's payload at (p, c) is row p
of the hidden-state payload times column c of one weight block plus row p of the memory block times column c of the
other. Each of the four products is first read at an entry: its left index has the output's row and the contracted
coordinate, its right index the contracted coordinate and the output's column.
-/

noncomputable section

namespace Cert.KernelIdeal.PayH

open Idealize.ShloMosaic Idealize.ShloMosaic.ValueIdx Cert.KernelIdeal Cert.KernelIdeal.Gen

theorem lhs_mmA_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mmA_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mmA_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mmA_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A matrix product [512,1024] x [1024,1024] into the zero accumulator, read at (p, n): the sum over the
    contracted coordinate of the row's entries times the column's. -/
theorem mmA_apply {φ₁ φ₂ : FTy} (a : FVec Ideal S512x1024 φ₁) (b : FVec Ideal S1024x1024 φ₂) (p : Fin 512) (n : Fin 1024) :
    matmul dot_S512x1024_S1024x1024_S512x1024_1_0_0_1_n_n none a b (constant (F := Ideal) S512x1024 .f32 0x00000000#32) (ix2 p n)
      = ∑ j : Fin 1024, (a (ix2 p j) : EReal) * b (ix2 j n) := by
  refine (Ideal.matmul_constant_zero_apply dot_S512x1024_S1024x1024_S512x1024_1_0_0_1_n_n none a b (ix2 p n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k := funext fun x => Fin.ext (by
    match x with
    | ⟨0, _⟩ => exact lhs_mmA_0 _ _
    | ⟨1, _⟩ => exact (lhs_mmA_1 _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n := funext fun x => Fin.ext (by
    match x with
    | ⟨0, _⟩ => exact (rhs_mmA_0 _ _).trans hk
    | ⟨1, _⟩ => exact rhs_mmA_1 _ _)
  rw [el, er]

theorem lhs_mmB_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_mmB_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_mmB_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_mmB_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- A matrix product [512,256] x [256,1024] into the zero accumulator, read at (p, n): the sum over the
    contracted coordinate of the row's entries times the column's. -/
theorem mmB_apply {φ₁ φ₂ : FTy} (a : FVec Ideal S512x256 φ₁) (b : FVec Ideal S256x1024 φ₂) (p : Fin 512) (n : Fin 1024) :
    matmul dot_S512x256_S256x1024_S512x1024_1_0_0_1_n_n none a b (constant (F := Ideal) S512x1024 .f32 0x00000000#32) (ix2 p n)
      = ∑ j : Fin 256, (a (ix2 p j) : EReal) * b (ix2 j n) := by
  refine (Ideal.matmul_constant_zero_apply dot_S512x256_S256x1024_S512x1024_1_0_0_1_n_n none a b (ix2 p n)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p n) ((contrEquiv1 dot_S512x256_S256x1024_S512x1024_1_0_0_1_n_n 256 rfl rfl).symm k) = ix2 p k := funext fun x => Fin.ext (by
    match x with
    | ⟨0, _⟩ => exact lhs_mmB_0 _ _
    | ⟨1, _⟩ => exact (lhs_mmB_1 _ _).trans hk)
  have er : dot_S512x256_S256x1024_S512x1024_1_0_0_1_n_n.rhsIdx (ix2 p n) ((contrEquiv1 dot_S512x256_S256x1024_S512x1024_1_0_0_1_n_n 256 rfl rfl).symm k) = ix2 k n := funext fun x => Fin.ext (by
    match x with
    | ⟨0, _⟩ => exact (rhs_mmB_0 _ _).trans hk
    | ⟨1, _⟩ => exact rhs_mmB_1 _ _)
  rw [el, er]

theorem lhs_mmC_0 (i : S512x136.Idx) (q : dot_S512x1024_S1024x136_S512x136_1_0_0_1_n_n.contr.Idx) :
    (dot_S512x1024_S1024x136_S512x136_1_0_0_1_n_n.lhsIdx i q 0).val = (i 0).val := by
  unfold DotDims.lhsIdx
  rw [dif_neg (show ¬(0 : Fin S512x1024.rank) ∈ dot_S512x1024_S1024x136_S512x136_1_0_0_1_n_n.lhsBatch by decide), dif_pos (show (0 : Fin S512x1024.rank) ∈ dot_S512x1024_S1024x136_S512x136_1_0_0_1_n_n.lhsNonContracting by decide)]
  rfl
theorem lhs_mmC_1 (i : S512x136.Idx) (q : dot_S512x1024_S1024x136_S512x136_1_0_0_1_n_n.contr.Idx) :
    (dot_S512x1024_S1024x136_S512x136_1_0_0_1_n_n.lhsIdx i q 1).val = (q ⟨0, by decide⟩).val :=
  dot_S512x1024_S1024x136_S512x136_1_0_0_1_n_n.lhsIdx_val_of_single rfl i q
theorem rhs_mmC_0 (i : S512x136.Idx) (q : dot_S512x1024_S1024x136_S512x136_1_0_0_1_n_n.contr.Idx) :
    (dot_S512x1024_S1024x136_S512x136_1_0_0_1_n_n.rhsIdx i q 0).val = (q ⟨0, by decide⟩).val :=
  dot_S512x1024_S1024x136_S512x136_1_0_0_1_n_n.rhsIdx_val_of_single rfl i q
theorem rhs_mmC_1 (i : S512x136.Idx) (q : dot_S512x1024_S1024x136_S512x136_1_0_0_1_n_n.contr.Idx) :
    (dot_S512x1024_S1024x136_S512x136_1_0_0_1_n_n.rhsIdx i q 1).val = (i 1).val := by
  unfold DotDims.rhsIdx
  rw [dif_neg (show ¬(1 : Fin S1024x136.rank) ∈ dot_S512x1024_S1024x136_S512x136_1_0_0_1_n_n.rhsBatch by decide), dif_pos (show (1 : Fin S1024x136.rank) ∈ dot_S512x1024_S1024x136_S512x136_1_0_0_1_n_n.rhsNonContracting by decide)]
  rfl

/-- A matrix product [512,1024] x [1024,136] into the zero accumulator, read at (p, n): the sum over the
    contracted coordinate of the row's entries times the column's. -/
theorem mmC_apply {φ₁ φ₂ : FTy} (a : FVec Ideal S512x1024 φ₁) (b : FVec Ideal S1024x136 φ₂) (p : Fin 512) (n : Fin 136) :
    matmul dot_S512x1024_S1024x136_S512x136_1_0_0_1_n_n none a b (constant (F := Ideal) S512x136 .f32 0x00000000#32) (ix2 p n)
      = ∑ j : Fin 1024, (a (ix2 p j) : EReal) * b (ix2 j n) := by
  refine (Ideal.matmul_constant_zero_apply dot_S512x1024_S1024x136_S512x136_1_0_0_1_n_n none a b (ix2 p n)).trans ?_
  rw [← Equiv.sum_comp (contrEquiv1 dot_S512x1024_S1024x136_S512x136_1_0_0_1_n_n 1024 rfl rfl).symm]
  refine Finset.sum_congr rfl fun k _ => ?_
  have hk := contrEquiv1_symm_val dot_S512x1024_S1024x136_S512x136_1_0_0_1_n_n 1024 rfl rfl k
  have el : dot_S512x1024_S1024x136_S512x136_1_0_0_1_n_n.lhsIdx (ix2 p n) ((contrEquiv1 dot_S512x1024_S1024x136_S512x136_1_0_0_1_n_n 1024 rfl rfl).symm k) = ix2 p k := funext fun x => Fin.ext (by
    match x with
    | ⟨0, _⟩ => exact lhs_mmC_0 _ _
    | ⟨1, _⟩ => exact (lhs_mmC_1 _ _).trans hk)
  have er : dot_S512x1024_S1024x136_S512x136_1_0_0_1_n_n.rhsIdx (ix2 p n) ((contrEquiv1 dot_S512x1024_S1024x136_S512x136_1_0_0_1_n_n 1024 rfl rfl).symm k) = ix2 k n := funext fun x => Fin.ext (by
    match x with
    | ⟨0, _⟩ => exact (rhs_mmC_0 _ _).trans hk
    | ⟨1, _⟩ => exact rhs_mmC_1 _ _)
  rw [el, er]

theorem lhs_mmD_0 (i : S512x136.Idx) (q : dot_S512x256_S256x136_S512x136_1_0_0_1_n_n.contr.Idx) :
    (dot_S512x256_S256x136_S512x136_1_0_0_1_n_n.lhsIdx i q 0).val = (i 0).val := by
  unfold DotDims.lhsIdx
  rw [dif_neg (show ¬(0 : Fin S512x256.rank) ∈ dot_S512x256_S256x136_S512x136_1_0_0_1_n_n.lhsBatch by decide), dif_pos (show (0 : Fin S512x256.rank) ∈ dot_S512x256_S256x136_S512x136_1_0_0_1_n_n.lhsNonContracting by decide)]
  rfl
theorem lhs_mmD_1 (i : S512x136.Idx) (q : dot_S512x256_S256x136_S512x136_1_0_0_1_n_n.contr.Idx) :
    (dot_S512x256_S256x136_S512x136_1_0_0_1_n_n.lhsIdx i q 1).val = (q ⟨0, by decide⟩).val :=
  dot_S512x256_S256x136_S512x136_1_0_0_1_n_n.lhsIdx_val_of_single rfl i q
theorem rhs_mmD_0 (i : S512x136.Idx) (q : dot_S512x256_S256x136_S512x136_1_0_0_1_n_n.contr.Idx) :
    (dot_S512x256_S256x136_S512x136_1_0_0_1_n_n.rhsIdx i q 0).val = (q ⟨0, by decide⟩).val :=
  dot_S512x256_S256x136_S512x136_1_0_0_1_n_n.rhsIdx_val_of_single rfl i q
theorem rhs_mmD_1 (i : S512x136.Idx) (q : dot_S512x256_S256x136_S512x136_1_0_0_1_n_n.contr.Idx) :
    (dot_S512x256_S256x136_S512x136_1_0_0_1_n_n.rhsIdx i q 1).val = (i 1).val := by
  unfold DotDims.rhsIdx
  rw [dif_neg (show ¬(1 : Fin S256x136.rank) ∈ dot_S512x256_S256x136_S512x136_1_0_0_1_n_n.rhsBatch by decide), dif_pos (show (1 : Fin S256x136.rank) ∈ dot_S512x256_S256x136_S512x136_1_0_0_1_n_n.rhsNonContracting by decide)]
  rfl

/-- A matrix product [512,256] x [256,136] into the zero accumulator, read at (p, n): the sum over the
    contracted coordinate of the row's entries times the column's. -/
theorem mmD_apply {φ₁ φ₂ : FTy} (a : FVec Ideal S512x256 φ₁) (b : FVec Ideal S256x136 φ₂) (p : Fin 512) (n : Fin 136) :
    matmul dot_S512x256_S256x136_S512x136_1_0_0_1_n_n none a b (constant (F := Ideal) S512x136 .f32 0x00000000#32) (ix2 p n)
      = ∑ j : Fin 256, (a (ix2 p j) : EReal) * b (ix2 j n) := by
  refine (Ideal.matmul_constant_zero_apply dot_S512x256_S256x136_S512x136_1_0_0_1_n_n none a b (ix2 p n)).trans ?_
  rw [← Equiv.sum_comp (contrEquiv1 dot_S512x256_S256x136_S512x136_1_0_0_1_n_n 256 rfl rfl).symm]
  refine Finset.sum_congr rfl fun k _ => ?_
  have hk := contrEquiv1_symm_val dot_S512x256_S256x136_S512x136_1_0_0_1_n_n 256 rfl rfl k
  have el : dot_S512x256_S256x136_S512x136_1_0_0_1_n_n.lhsIdx (ix2 p n) ((contrEquiv1 dot_S512x256_S256x136_S512x136_1_0_0_1_n_n 256 rfl rfl).symm k) = ix2 p k := funext fun x => Fin.ext (by
    match x with
    | ⟨0, _⟩ => exact lhs_mmD_0 _ _
    | ⟨1, _⟩ => exact (lhs_mmD_1 _ _).trans hk)
  have er : dot_S512x256_S256x136_S512x136_1_0_0_1_n_n.rhsIdx (ix2 p n) ((contrEquiv1 dot_S512x256_S256x136_S512x136_1_0_0_1_n_n 256 rfl rfl).symm k) = ix2 k n := funext fun x => Fin.ext (by
    match x with
    | ⟨0, _⟩ => exact (rhs_mmD_0 _ _).trans hk
    | ⟨1, _⟩ => exact rhs_mmD_1 _ _)
  rw [el, er]

/-- The bias row [1,1024] broadcast down the 512 rows, read at (p, n): the row's entry n. -/
theorem biasRow_apply {α : Type} (x : S1x1024.Idx → α) (p : Fin 512) (n : Fin 1024) :
    broadcastTo S512x1024 x broadcasts_S1x1024_S512x1024 (ix2 p n) = x (ix2 0 n) :=
  broadcastTo_apply x broadcasts_S1x1024_S512x1024 (ix2 p n) (ix2 0 n) (fun a => by
    match a with
    | ⟨0, _⟩ => rfl
    | ⟨1, _⟩ => rfl)

/-- The hidden-state payload at (p, n): the three partial products of row p with column n, summed in the
    kernel's order, plus the bias entry n, then the maximum with zero. -/
theorem pay3_apply (v0 v2 : Vec Ideal S512x1024 .f32) (v4 : Vec Ideal S512x256 .f32) (v6 v8 : Vec Ideal S1024x1024 .bf16)
    (v10 : Vec Ideal S256x1024 .bf16) (v17 : Vec Ideal S1x1024 .f32) (p : Fin 512) (n : Fin 1024) :
    k0_pay3 (F := Ideal) v0 v2 v4 v6 v8 v10 v17 (ix2 p n)
      = max ((((∑ j : Fin 1024, (v0 (ix2 p j) : EReal) * v6 (ix2 j n)) + (∑ j : Fin 1024, (v2 (ix2 p j) : EReal) * v8 (ix2 j n)))
          + (∑ j : Fin 256, (v4 (ix2 p j) : EReal) * v10 (ix2 j n))) + v17 (ix2 0 n)) Cert.Spec.zeroE := by
  unfold k0_pay3 k0_pay2
  simp only [maximumf_apply, addf_apply, broadcast_apply, shapeCast_self, mmA_apply, mmB_apply, biasRow_apply, truncf_apply]
  rfl

/-- The fused projection's payload at (p, c): row p of the hidden-state payload times column c of the first
    weight block, plus row p of the memory block times column c of the second. -/
theorem pay4_apply (v0 v2 : Vec Ideal S512x1024 .f32) (v4 : Vec Ideal S512x256 .f32) (v6 v8 : Vec Ideal S1024x1024 .bf16)
    (v10 : Vec Ideal S256x1024 .bf16) (v17 : Vec Ideal S1x1024 .f32) (v25 : Vec Ideal S1024x136 .bf16) (v27 : Vec Ideal S256x136 .bf16)
    (p : Fin 512) (c : Fin 136) :
    k0_pay4 (F := Ideal) v0 v2 v4 v6 v8 v10 v17 v25 v27 (ix2 p c)
      = (∑ j : Fin 1024, (k0_pay3 (F := Ideal) v0 v2 v4 v6 v8 v10 v17 (ix2 p j) : EReal) * v25 (ix2 j c))
        + (∑ j : Fin 256, (v4 (ix2 p j) : EReal) * v27 (ix2 j c)) := by
  unfold k0_pay4 k0_pay2
  simp only [addf_apply, shapeCast_self, mmC_apply, mmD_apply, truncf_apply]

end Cert.KernelIdeal.PayH
-- ==== Proof.KiPayA.lean ====
import proofs.«422122_j1039382085932_3_alg».proof.Proof.Gen.KernelIdeal.Skeleton
import proofs.«422122_j1039382085932_3_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The first branch of the memory update, read at one entry

The fused projection plus its bias is cut into the two factors u0, u1 (32 entries each) and the four
coefficients of the first branch. Each of the four groups of eight entries of u0 is scaled by its coefficient
over the floored fifth root of (the group's sum of fifth powers) times (the sum of fifth powers of u1); the four
scaled groups are added, expanded through the one-hot table and multiplied by u1 repeated eight times. Read at
row p and column q this is the row-level function contribK of the row's 64 entries, its four coefficients and
the table.
-/

noncomputable section

namespace Cert.KernelIdeal.PayA

open Idealize.ShloMosaic Idealize.ShloMosaic.ValueIdx Cert.KernelIdeal Cert.KernelIdeal.Gen

/-! ## Shape operations at an index, in the forms this kernel meets -/

section Layout
variable {α : Type}

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (p, u), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- The sum along the lanes of a [512, n] block, read at row p, is the sum of the row's n entries. -/
theorem rowSum_apply {n : ℕ} (src : FVec Ideal ⟨2, ![512, n]⟩ .f32) (acc : BitVec 32)
    (h : (⟨2, ![512, n]⟩ : Shape).Reduces [1] S512) (hφ : FKind.Formats .f32) (hacc : acc = FKind.add.neutral .f32 hφ)
    (p : Fin 512) :
    multiReduction (F := Ideal) .add [1] S512 src acc h hφ hacc (ix1 p) = ∑ k : Fin n, src (ix2 p k) := by
  refine (Ideal.multiReduction_add_single src acc h hφ hacc (ix1 p)).trans ?_
  refine Finset.sum_congr rfl fun k _ => congrArg src ?_
  funext a
  match a with
  | ⟨0, _⟩ => rfl
  | ⟨1, _⟩ => rfl

/-- The absolute value, the exponential and the logarithm of a block, read at an index. -/
theorem absf_apply {s : Shape} (a : FVec Ideal s .f32) (i : s.Idx) : absf a i = max (a i) (-(a i)) := rfl
theorem exp_apply {s : Shape} (a : FVec Ideal s .f32) (i : s.Idx) : exp a i = Ideal.exp (a i) := rfl
theorem log_apply {s : Shape} (a : FVec Ideal s .f32) (i : s.Idx) : log a i = Ideal.log (a i) := rfl

/-- A select on "s is above zero" is the if on 0 < s. -/
theorem select_ogt_zero (s A B : EReal) :
    Scalar.select (Ideal.cmp .ogt s (Ideal.ofBits .f32 0x00000000#32)) A B = if 0 < s then A else B := by
  unfold Scalar.select Ideal.cmp
  rw [Ideal.ofBits_zero_f32]
  by_cases h : 0 < s
  · simp [h]
  · simp [h]

/-! ## The row's entries, and the payloads that cut and power them -/

/-- The 64 entries of row p that hold the first branch's two factors: the fused projection plus its bias. -/
abbrev uRow (v31 : FVec Ideal S512x136 .f32) (v32 : Vec Ideal S1x136 .f32) (p : Fin 512) : Fin 64 → EReal :=
  fun c : Fin 64 => (v31 (ix2 p ⟨c.val, by omega⟩) : EReal) + v32 (ix2 0 ⟨c.val, by omega⟩)
/-- The four coefficients of row p's first branch. -/
abbrev coRow (v31 : FVec Ideal S512x136 .f32) (v32 : Vec Ideal S1x136 .f32) (p : Fin 512) : Fin 4 → EReal :=
  fun k : Fin 4 => (v31 (ix2 p ⟨128 + k.val, by omega⟩) : EReal) + v32 (ix2 0 ⟨128 + k.val, by omega⟩)

variable (v31 : FVec Ideal S512x136 .f32) (v32 : Vec Ideal S1x136 .f32) (v44 : Vec Ideal S8x256 .f32)

/-- The projection plus its bias row, at (p, c). -/
theorem pay5_apply (p : Fin 512) (c : Fin 136) :
    k0_pay5 (F := Ideal) v31 v32 (ix2 p c) = (v31 (ix2 p c) : EReal) + v32 (ix2 0 c) := by
  unfold k0_pay5
  rw [addf_apply, broadcastTo_1b_ab_apply, shapeCast_self]

/-- The coefficients' four columns are columns 128 to 131. -/
theorem pay8_apply (p : Fin 512) (k : Fin 4) :
    k0_pay8 (F := Ideal) v31 v32 (ix2 p k) = coRow v31 v32 p k := by
  unfold k0_pay8
  rw [slice2_axis1_eq, pay5_apply]

/-- The first 64 columns. -/
theorem pay6_apply (p : Fin 512) (c : Fin 64) :
    k0_pay6 (F := Ideal) v31 v32 (ix2 p c) = uRow v31 v32 p c := by
  unfold k0_pay6
  rw [slice2_axis1_apply 0 _ _ p c ⟨c.val, by omega⟩ (by show c.val = 0 + c.val; omega), pay5_apply]

/-- The first factor: entries 0 to 31. -/
theorem pay10_apply (p : Fin 512) (j : Fin 32) :
    k0_pay10 (F := Ideal) v31 v32 (ix2 p j) = uRow v31 v32 p ⟨j.val, by omega⟩ := by
  unfold k0_pay10
  rw [slice2_axis1_apply 0 _ _ p j ⟨j.val, by omega⟩ (by show j.val = 0 + j.val; omega), pay6_apply]

/-- The second factor: entries 32 to 63. -/
theorem pay11_apply (p : Fin 512) (j : Fin 32) :
    k0_pay11 (F := Ideal) v31 v32 (ix2 p j) = uRow v31 v32 p ⟨32 + j.val, by omega⟩ := by
  unfold k0_pay11
  rw [slice2_axis1_eq, pay6_apply]

/-- The fifth powers of the first factor's entries. -/
theorem pay14_apply (p : Fin 512) (j : Fin 32) :
    k0_pay14 (F := Ideal) v31 v32 (ix2 p j) = Cert.Spec.pow5K (uRow v31 v32 p ⟨j.val, by omega⟩) := by
  unfold k0_pay14
  rw [mulf_apply, mulf_apply, mulf_apply, absf_apply, pay10_apply]
  rfl

/-- The sum of the fifth powers of the second factor's entries, as a column. -/
theorem pay15_apply (p : Fin 512) (u : Fin 1) :
    k0_pay15 (F := Ideal) v31 v32 (ix2 p u) = Cert.Spec.s1K (uRow v31 v32 p) := by
  unfold k0_pay15
  rw [shapeCast_a_a1_apply]
  refine (rowSum_apply _ _ _ _ _ p).trans ?_
  unfold Cert.Spec.s1K
  refine Finset.sum_congr rfl fun j _ => ?_
  rw [mulf_apply, mulf_apply, mulf_apply, absf_apply, pay11_apply]
  rfl

/-! ## One scaled group: coefficient over norm, times eight entries of the first factor -/

/-- A coefficient column a over the floored fifth root of a column S. -/
def normCol (a S : FVec Ideal S512x1 .f32) : FVec Ideal S512x1 .f32 :=
  divf a
    (maximumf
      (select (cmpf .ogt S (broadcast S512x1 (Scalar.ofBits .f32 0x00000000#32)))
        (exp
          (mulf (broadcast S512x1 (Scalar.ofBits .f32 0x3E4CCCCD#32))
            (log (select (cmpf .ogt S (broadcast S512x1 (Scalar.ofBits .f32 0x00000000#32))) S
              (broadcast S512x1 (Scalar.ofBits .f32 0x3F800000#32))))))
        (broadcast S512x1 (Scalar.ofBits .f32 0x00000000#32)))
      (broadcast S512x1 (Scalar.ofBits .f32 0x2B8CBCCC#32)))

/-- At an index it is the coefficient divided by the norm of the entry of S. -/
theorem normCol_apply (a S : FVec Ideal S512x1 .f32) (i : S512x1.Idx) :
    normCol a S i = Ideal.div (a i) (Cert.Spec.normK (S i)) := by
  unfold normCol
  simp only [divf_apply, maximumf_apply, select_apply, cmpf_apply, exp_apply, log_apply, mulf_apply, broadcast_apply,
    Ideal.cmpf_def]
  rw [show Scalar.ofBits (F := Ideal) .f32 0x00000000#32 = Ideal.ofBits .f32 0x00000000#32 from rfl,
    select_ogt_zero, select_ogt_zero]
  rfl

/-- The shape the four terms share: a the coefficient's column, w the group's eight fifth powers, x the
    group's eight entries, v54 the column of the second factor's sum of fifth powers. -/
def normTerm (a : FVec Ideal S512x1 .f32) (w x : FVec Ideal S512x8 .f32) (v54 : FVec Ideal S512x1 .f32) :
    FVec Ideal S512x8 .f32 :=
  mulf
    (broadcastTo S512x8
      (normCol a
        (mulf (shapeCast S512x1 (multiReduction .add [1] S512 w 0x00000000#32 reduces_S512x8_S512 (.inl rfl) rfl)
          shapeCasts_S512_S512x1) v54))
      broadcasts_S512x1_S512x8)
    x

/-- The product of the two sums in a term, at row p. -/
theorem prodSums_apply (w : FVec Ideal S512x8 .f32) (v54 : FVec Ideal S512x1 .f32) (p : Fin 512) :
    mulf (shapeCast S512x1 (multiReduction (F := Ideal) .add [1] S512 w 0x00000000#32 reduces_S512x8_S512 (.inl rfl) rfl)
        shapeCasts_S512_S512x1) v54 (ix2 p (0 : Fin 1))
      = (∑ r : Fin 8, w (ix2 p r)) * v54 (ix2 p (0 : Fin 1)) := by
  rw [mulf_apply, shapeCast_a_a1_apply]
  exact congrArg (· * v54 (ix2 p (0 : Fin 1))) (rowSum_apply _ _ _ _ _ p)

/-- A term at (p, r): the coefficient over the floored fifth root of the product of sums, times the entry. -/
theorem normTerm_apply (a : FVec Ideal S512x1 .f32) (w x : FVec Ideal S512x8 .f32) (v54 : FVec Ideal S512x1 .f32)
    (p : Fin 512) (r : Fin 8) :
    normTerm a w x v54 (ix2 p r)
      = Ideal.div (a (ix2 p (0 : Fin 1)))
          (Cert.Spec.normK ((∑ r : Fin 8, w (ix2 p r)) * v54 (ix2 p (0 : Fin 1)))) * x (ix2 p r) := by
  unfold normTerm
  rw [mulf_apply, broadcastTo_a1_ab_apply, normCol_apply, prodSums_apply]

/-- A term whose operands read the row's entries of group k is the row-level term k. -/
theorem normTerm_termK (u : Fin 64 → EReal) (co : Fin 4 → EReal) (k : Fin 4) (o : ℕ) (ho : o = 8 * k.val)
    (a : FVec Ideal S512x1 .f32) (w x : FVec Ideal S512x8 .f32) (v54 : FVec Ideal S512x1 .f32) (p : Fin 512)
    (ha : a (ix2 p (0 : Fin 1)) = co k)
    (hw : ∀ r : Fin 8, w (ix2 p r) = Cert.Spec.pow5K (u ⟨o + r.val, by omega⟩))
    (hx : ∀ r : Fin 8, x (ix2 p r) = u ⟨o + r.val, by omega⟩)
    (h54 : v54 (ix2 p (0 : Fin 1)) = Cert.Spec.s1K u) (r : Fin 8) :
    normTerm a w x v54 (ix2 p r) = Cert.Spec.termK u co k r := by
  subst ho
  rw [normTerm_apply, ha, hx, h54]
  simp only [hw]
  rfl

/-! ## The slices the four terms read -/

/-- Eight entries of the first factor from entry o on. -/
theorem slice40_apply (o : ℕ) (ho : o + 8 ≤ 32) (hs : S512x32.Slices ![0, o] S512x8) (p : Fin 512) (r : Fin 8) :
    extractStridedSlice S512x8 ![0, o] (k0_pay10 (F := Ideal) v31 v32) hs (ix2 p r)
      = uRow v31 v32 p ⟨o + r.val, by omega⟩ := by
  rw [slice2_axis1_eq, pay10_apply]

/-- Their fifth powers. -/
theorem slice48_apply (o : ℕ) (ho : o + 8 ≤ 32) (hs : S512x32.Slices ![0, o] S512x8) (p : Fin 512) (r : Fin 8) :
    extractStridedSlice S512x8 ![0, o] (k0_pay14 (F := Ideal) v31 v32) hs (ix2 p r)
      = Cert.Spec.pow5K (uRow v31 v32 p ⟨o + r.val, by omega⟩) := by
  rw [slice2_axis1_eq, pay14_apply]

/-- One coefficient's column. -/
theorem slice38_apply (kk : ℕ) (hk : kk < 4) (hs : S512x4.Slices ![0, kk] S512x1) (p : Fin 512) :
    extractStridedSlice S512x1 ![0, kk] (k0_pay8 (F := Ideal) v31 v32) hs (ix2 p (0 : Fin 1))
      = coRow v31 v32 p ⟨kk, hk⟩ := by
  rw [slice2_axis1_eq, pay8_apply]
  rfl

/-! ## The four terms as the payloads give them -/

theorem pay16_eq :
    k0_pay16 (F := Ideal) v31 v32
      = normTerm (extractStridedSlice S512x1 ![0, 0] (k0_pay8 v31 v32) slices_S512x4_o0_0_S512x1)
          (extractStridedSlice S512x8 ![0, 0] (k0_pay14 v31 v32) slices_S512x32_o0_0_S512x8)
          (extractStridedSlice S512x8 ![0, 0] (k0_pay10 v31 v32) slices_S512x32_o0_0_S512x8) (k0_pay15 v31 v32) := rfl

theorem pay17_eq :
    k0_pay17 (F := Ideal) v31 v32
      = extractStridedSlice S512x8 ![0, 8] (k0_pay14 v31 v32) slices_S512x32_o0_8_S512x8 := rfl

theorem pay18_eq (v38 : FVec Ideal S512x4 .f32) (v40 v48 : FVec Ideal S512x32 .f32) (v54 : FVec Ideal S512x1 .f32)
    (v77 v78 : FVec Ideal S512x8 .f32) :
    k0_pay18 (F := Ideal) v38 v40 v48 v54 v77 v78
      = addf
          (addf v77
            (normTerm (extractStridedSlice S512x1 ![0, 1] v38 slices_S512x4_o0_1_S512x1) v78
              (extractStridedSlice S512x8 ![0, 8] v40 slices_S512x32_o0_8_S512x8) v54))
          (normTerm (extractStridedSlice S512x1 ![0, 2] v38 slices_S512x4_o0_2_S512x1)
            (extractStridedSlice S512x8 ![0, 16] v48 slices_S512x32_o0_16_S512x8)
            (extractStridedSlice S512x8 ![0, 16] v40 slices_S512x32_o0_16_S512x8) v54) := rfl

theorem pay19_eq (v38 : FVec Ideal S512x4 .f32) (v40 v48 : FVec Ideal S512x32 .f32) (v54 : FVec Ideal S512x1 .f32)
    (v125 : FVec Ideal S512x8 .f32) :
    k0_pay19 (F := Ideal) v38 v40 v48 v54 v125
      = addf v125
          (normTerm (extractStridedSlice S512x1 ![0, 3] v38 slices_S512x4_o0_3_S512x1)
            (extractStridedSlice S512x8 ![0, 24] v48 slices_S512x32_o0_24_S512x8)
            (extractStridedSlice S512x8 ![0, 24] v40 slices_S512x32_o0_24_S512x8) v54) := rfl

/-- The four scaled groups added left to right, at (p, r): the row-level gK. -/
abbrev gChain : FVec Ideal S512x8 .f32 :=
  k0_pay19 (k0_pay8 v31 v32) (k0_pay10 v31 v32) (k0_pay14 v31 v32) (k0_pay15 v31 v32)
    (k0_pay18 (k0_pay8 v31 v32) (k0_pay10 v31 v32) (k0_pay14 v31 v32) (k0_pay15 v31 v32) (k0_pay16 v31 v32) (k0_pay17 v31 v32))

theorem gChain_apply (p : Fin 512) (r : Fin 8) :
    gChain v31 v32 (ix2 p r) = Cert.Spec.gK (uRow v31 v32 p) (coRow v31 v32 p) r := by
  show k0_pay19 _ _ _ _ _ (ix2 p r) = _
  rw [pay19_eq, pay18_eq, pay16_eq, pay17_eq, addf_apply, addf_apply, addf_apply]
  unfold Cert.Spec.gK
  refine congrArg₂ (· + ·) (congrArg₂ (· + ·) (congrArg₂ (· + ·) ?_ ?_) ?_) ?_
  · exact normTerm_termK _ _ 0 0 rfl _ _ _ _ p (slice38_apply v31 v32 0 (by omega) _ p)
      (fun r => slice48_apply v31 v32 0 (by omega) _ p r) (fun r => slice40_apply v31 v32 0 (by omega) _ p r)
      (pay15_apply v31 v32 p 0) r
  · exact normTerm_termK _ _ 1 8 rfl _ _ _ _ p (slice38_apply v31 v32 1 (by omega) _ p)
      (fun r => slice48_apply v31 v32 8 (by omega) _ p r) (fun r => slice40_apply v31 v32 8 (by omega) _ p r)
      (pay15_apply v31 v32 p 0) r
  · exact normTerm_termK _ _ 2 16 rfl _ _ _ _ p (slice38_apply v31 v32 2 (by omega) _ p)
      (fun r => slice48_apply v31 v32 16 (by omega) _ p r) (fun r => slice40_apply v31 v32 16 (by omega) _ p r)
      (pay15_apply v31 v32 p 0) r
  · exact normTerm_termK _ _ 3 24 rfl _ _ _ _ p (slice38_apply v31 v32 3 (by omega) _ p)
      (fun r => slice48_apply v31 v32 24 (by omega) _ p r) (fun r => slice40_apply v31 v32 24 (by omega) _ p r)
      (pay15_apply v31 v32 p 0) r

/-! ## The one-hot expansion and the product with the second factor -/

/-- Column i of g spread over 256 lanes, times row i of the table spread over 512 rows, at (p, q). -/
theorem ohTerm_apply (i : ℕ) (hi : i < 8) (g : FVec Ideal S512x8 .f32) (hs1 : S512x8.Slices ![0, i] S512x1)
    (hs2 : S8x256.Slices ![i, 0] S1x256) (p : Fin 512) (q : Fin 256) :
    (broadcastTo S512x256 (extractStridedSlice S512x1 ![0, i] g hs1) broadcasts_S512x1_S512x256 (ix2 p q) : EReal)
        * broadcastTo S512x256 (extractStridedSlice S1x256 ![i, 0] v44 hs2) broadcasts_S1x256_S512x256 (ix2 p q)
      = g (ix2 p ⟨i, hi⟩) * v44 (ix2 ⟨i, hi⟩ q) := by
  rw [broadcastTo_a1_ab_apply, slice2_axis1_eq, broadcastTo_1b_ab_apply, slice2_axis0_eq]
  rfl

/-- The first five rows of the expansion. -/
theorem pay20_apply (v38 : FVec Ideal S512x4 .f32) (v40 v48 : FVec Ideal S512x32 .f32) (v54 : FVec Ideal S512x1 .f32)
    (v125 : FVec Ideal S512x8 .f32) (p : Fin 512) (q : Fin 256) :
    k0_pay20 (F := Ideal) v38 v40 v44 v48 v54 v125 (ix2 p q)
      = ((((k0_pay19 v38 v40 v48 v54 v125 (ix2 p (0 : Fin 8)) * v44 (ix2 (0 : Fin 8) q)
            + k0_pay19 v38 v40 v48 v54 v125 (ix2 p (1 : Fin 8)) * v44 (ix2 (1 : Fin 8) q))
            + k0_pay19 v38 v40 v48 v54 v125 (ix2 p (2 : Fin 8)) * v44 (ix2 (2 : Fin 8) q))
            + k0_pay19 v38 v40 v48 v54 v125 (ix2 p (3 : Fin 8)) * v44 (ix2 (3 : Fin 8) q))
            + k0_pay19 v38 v40 v48 v54 v125 (ix2 p (4 : Fin 8)) * v44 (ix2 (4 : Fin 8) q)) := by
  unfold k0_pay20
  simp only [addf_apply, mulf_apply]
  refine congrArg₂ (· + ·) (congrArg₂ (· + ·) (congrArg₂ (· + ·) (congrArg₂ (· + ·) ?_ ?_) ?_) ?_) ?_
  · exact ohTerm_apply v44 0 (by omega) _ _ _ p q
  · exact ohTerm_apply v44 1 (by omega) _ _ _ p q
  · exact ohTerm_apply v44 2 (by omega) _ _ _ p q
  · exact ohTerm_apply v44 3 (by omega) _ _ _ p q
  · exact ohTerm_apply v44 4 (by omega) _ _ _ p q

/-- The second factor repeated eight times along the lanes, at (p, q): its entry q mod 32. -/
theorem tile_apply (v41 : FVec Ideal S512x32 .f32) (p : Fin 512) (q : Fin 256) :
    concatenate S512x256 1 [⟨S512x32, v41⟩, ⟨S512x32, v41⟩, ⟨S512x32, v41⟩, ⟨S512x32, v41⟩, ⟨S512x32, v41⟩, ⟨S512x32, v41⟩,
        ⟨S512x32, v41⟩, ⟨S512x32, v41⟩]
        concatenates_S512x32_S512x32_S512x32_S512x32_S512x32_S512x32_S512x32_S512x32_S512x256_d1 (ix2 p q)
      = v41 (ix2 p ⟨q.val % 32, Nat.mod_lt _ (by omega)⟩) := by
  refine concatenate_replicate_apply (t := S512x256) (s₁ := S512x32) 1 8 v41 _ rfl (ix2 p q)
    (ix2 p ⟨q.val % 32, Nat.mod_lt _ (by omega)⟩) rfl fun b hb => ?_
  match b with
  | ⟨0, _⟩ => rfl
  | ⟨1, _⟩ => exact absurd rfl hb

/-- The whole first branch at (p, q), over the row's named entries. -/
theorem chain_apply (p : Fin 512) (q : Fin 256) :
    k0_pay21 (F := Ideal) (k0_pay11 v31 v32) v44 (gChain v31 v32)
        (k0_pay20 (k0_pay8 v31 v32) (k0_pay10 v31 v32) v44 (k0_pay14 v31 v32) (k0_pay15 v31 v32)
          (k0_pay18 (k0_pay8 v31 v32) (k0_pay10 v31 v32) (k0_pay14 v31 v32) (k0_pay15 v31 v32) (k0_pay16 v31 v32)
            (k0_pay17 v31 v32))) (ix2 p q)
      = Cert.Spec.contribK (uRow v31 v32 p) (coRow v31 v32 p) (fun i q' => (v44 (ix2 i q') : EReal)) q := by
  unfold k0_pay21
  simp only [addf_apply, mulf_apply]
  unfold Cert.Spec.contribK Cert.Spec.expandK
  refine congrArg₂ (· * ·) (congrArg₂ (· + ·) (congrArg₂ (· + ·) (congrArg₂ (· + ·) ?_ ?_) ?_) ?_) ?_
  · rw [pay20_apply]
    refine congrArg₂ (· + ·) (congrArg₂ (· + ·) (congrArg₂ (· + ·) (congrArg₂ (· + ·) ?_ ?_) ?_) ?_) ?_
    · exact congrArg (· * (v44 (ix2 (0 : Fin 8) q) : EReal)) (gChain_apply v31 v32 p 0)
    · exact congrArg (· * (v44 (ix2 (1 : Fin 8) q) : EReal)) (gChain_apply v31 v32 p 1)
    · exact congrArg (· * (v44 (ix2 (2 : Fin 8) q) : EReal)) (gChain_apply v31 v32 p 2)
    · exact congrArg (· * (v44 (ix2 (3 : Fin 8) q) : EReal)) (gChain_apply v31 v32 p 3)
    · exact congrArg (· * (v44 (ix2 (4 : Fin 8) q) : EReal)) (gChain_apply v31 v32 p 4)
  · exact (ohTerm_apply v44 5 (by omega) _ _ _ p q).trans
      (congrArg (· * (v44 (ix2 (5 : Fin 8) q) : EReal)) (gChain_apply v31 v32 p 5))
  · exact (ohTerm_apply v44 6 (by omega) _ _ _ p q).trans
      (congrArg (· * (v44 (ix2 (6 : Fin 8) q) : EReal)) (gChain_apply v31 v32 p 6))
  · exact (ohTerm_apply v44 7 (by omega) _ _ _ p q).trans
      (congrArg (· * (v44 (ix2 (7 : Fin 8) q) : EReal)) (gChain_apply v31 v32 p 7))
  · rw [tile_apply, pay11_apply]

/-! ## The statement the certificate uses -/

/-- The first branch as a function of the projection, its bias row and the one-hot table. -/
abbrev alphaChain {F : FTy → Type} [FloatOps F] (v31 : FVec F S512x136 .f32) (v32 : Vec F S1x136 .f32) (v44 : Vec F S8x256 .f32) : FVec F S512x256 .f32 :=
  k0_pay21 (k0_pay11 v31 v32) v44
    (k0_pay19 (k0_pay8 v31 v32) (k0_pay10 v31 v32) (k0_pay14 v31 v32) (k0_pay15 v31 v32) (k0_pay18 (k0_pay8 v31 v32) (k0_pay10 v31 v32) (k0_pay14 v31 v32) (k0_pay15 v31 v32) (k0_pay16 v31 v32) (k0_pay17 v31 v32)))
    (k0_pay20 (k0_pay8 v31 v32) (k0_pay10 v31 v32) v44 (k0_pay14 v31 v32) (k0_pay15 v31 v32) (k0_pay18 (k0_pay8 v31 v32) (k0_pay10 v31 v32) (k0_pay14 v31 v32) (k0_pay15 v31 v32) (k0_pay16 v31 v32) (k0_pay17 v31 v32)))

theorem alphaChain_apply (v31 : FVec Ideal S512x136 .f32) (v32 : Vec Ideal S1x136 .f32) (v44 : Vec Ideal S8x256 .f32) (p : Fin 512) (q : Fin 256) :
    alphaChain (F := Ideal) v31 v32 v44 (ix2 p q)
      = Cert.Spec.contribK (fun c : Fin 64 => (v31 (ix2 p ⟨c.val, by omega⟩) : EReal) + v32 (ix2 0 ⟨c.val, by omega⟩))
          (fun k : Fin 4 => (v31 (ix2 p ⟨128 + k.val, by omega⟩) : EReal) + v32 (ix2 0 ⟨128 + k.val, by omega⟩))
          (fun i q' => (v44 (ix2 i q') : EReal)) q :=
  chain_apply v31 v32 v44 p q

end Cert.KernelIdeal.PayA

end
-- ==== Proof.KiPayB.lean ====
import proofs.«422122_j1039382085932_3_alg».proof.Proof.Gen.KernelIdeal.Skeleton
import proofs.«422122_j1039382085932_3_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The beta branch and the final combination, read at an index

The second of the kernel's two branches takes its coefficients from columns 132..135 of the fused projection
and its two factors from columns 64..95 and 96..127. This module reads every value of that branch at one row p
(and one column), at the extended reals, down to the row-level functions of the specification: the fifth powers,
the two sums whose product is the norm's argument, the four coefficient-over-norm terms, the one-hot expansion
over the table's eight rows, the product with the second factor tiled eight times, and last the new memory
entry: old memory plus (alpha contribution minus beta contribution) times one quarter.
-/

noncomputable section

namespace Cert.KernelIdeal.PayB

open Idealize.ShloMosaic Idealize.ShloMosaic.ValueIdx Cert.KernelIdeal Cert.KernelIdeal.Gen

/-! ## Layout operations at coordinates: the forms this branch meets -/

/-- A column of n entries broadcast along b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a matrix, at the ideal values: at row p the sum of that row's entries. -/
theorem rowSum_apply {n m : ℕ} (v : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (p : Fin n) :
    multiReduction .add [1] ⟨1, ![n]⟩ v 0x00000000#32 h hφ hacc (ix1 p) = ∑ k : Fin m, v (ix2 p k) := by
  refine (Ideal.multiReduction_add_single v _ h hφ hacc (ix1 p)).trans ?_
  refine Finset.sum_congr rfl fun k _ => congrArg v ?_
  funext c
  match c with
  | ⟨0, _⟩ => exact Fin.ext rfl
  | ⟨1, _⟩ => exact Fin.ext rfl

/-- Eight copies of a 32-column block side by side read, at column q, the block at column q mod 32. -/
theorem tile8_apply {α : Type} (x : S512x32.Idx → α)
    (h : Shape.Concatenates [S512x32, S512x32, S512x32, S512x32, S512x32, S512x32, S512x32, S512x32] S512x256 1)
    (p : Fin 512) (q : Fin 256) :
    concatenate S512x256 1 [⟨S512x32, x⟩, ⟨S512x32, x⟩, ⟨S512x32, x⟩, ⟨S512x32, x⟩, ⟨S512x32, x⟩, ⟨S512x32, x⟩,
      ⟨S512x32, x⟩, ⟨S512x32, x⟩] h (ix2 p q) = x (ix2 p ⟨q.val % 32, Nat.mod_lt _ (by omega)⟩) := by
  refine concatenate_replicate_apply (t := S512x256) (s₁ := S512x32) 1 8 x h rfl (ix2 p q)
    (ix2 p ⟨q.val % 32, Nat.mod_lt _ (by omega)⟩) rfl fun b hb => ?_
  match b with
  | ⟨0, _⟩ => rfl
  | ⟨1, _⟩ => exact absurd rfl hb

/-! ## The fused row with its bias, and the branch's slices of it -/

/-- The beta branch's 64 columns of the biased fused row p: its two factors side by side. -/
abbrev uRow (v31 : FVec Ideal S512x136 .f32) (v32 : Vec Ideal S1x136 .f32) (p : Fin 512) : Fin 64 → EReal :=
  fun c => (v31 (ix2 p ⟨64 + c.val, by omega⟩) : EReal) + v32 (ix2 0 ⟨64 + c.val, by omega⟩)

/-- The beta branch's four coefficients on row p. -/
abbrev coRow (v31 : FVec Ideal S512x136 .f32) (v32 : Vec Ideal S1x136 .f32) (p : Fin 512) : Fin 4 → EReal :=
  fun k => (v31 (ix2 p ⟨132 + k.val, by omega⟩) : EReal) + v32 (ix2 0 ⟨132 + k.val, by omega⟩)

section Row
variable (v31 : FVec Ideal S512x136 .f32) (v32 : Vec Ideal S1x136 .f32) (p : Fin 512)

/-- The fused projection plus its bias row, at (p, c). -/
theorem pay5_apply (c : Fin 136) :
    k0_pay5 v31 v32 (ix2 p c) = (v31 (ix2 p c) : EReal) + v32 (ix2 0 c) := by
  unfold k0_pay5
  show (v31 (ix2 p c) : EReal)
      + broadcastTo S512x136 (shapeCast S1x136 v32 shapeCasts_S1x136_S1x136) broadcasts_S1x136_S512x136 (ix2 p c) = _
  rw [broadcastTo_1b_ab_apply, shapeCast_self]

/-- The four beta coefficients are columns 132..135. -/
theorem pay9_apply (k : Fin 4) : k0_pay9 v31 v32 (ix2 p k) = coRow v31 v32 p k := by
  unfold k0_pay9
  exact (slice2_axis1_apply 132 (k0_pay5 v31 v32) _ p k ⟨132 + k.val, by omega⟩ rfl).trans
    (pay5_apply v31 v32 p _)

/-- The branch's 64 columns are columns 64..127. -/
theorem pay7_apply (c : Fin 64) : k0_pay7 v31 v32 (ix2 p c) = uRow v31 v32 p c := by
  unfold k0_pay7
  exact (slice2_axis1_apply 64 (k0_pay5 v31 v32) _ p c ⟨64 + c.val, by omega⟩ rfl).trans
    (pay5_apply v31 v32 p _)

/-- The first factor is the first 32 of them. -/
theorem pay12_apply (j : Fin 32) : k0_pay12 v31 v32 (ix2 p j) = uRow v31 v32 p ⟨j.val, by omega⟩ := by
  unfold k0_pay12
  exact (slice2_axis1_apply 0 (k0_pay7 v31 v32) _ p j ⟨j.val, by omega⟩ (Nat.zero_add _).symm).trans
    (pay7_apply v31 v32 p _)

/-- The second factor is the last 32. -/
theorem pay13_apply (j : Fin 32) : k0_pay13 v31 v32 (ix2 p j) = uRow v31 v32 p ⟨32 + j.val, by omega⟩ := by
  unfold k0_pay13
  exact (slice2_axis1_apply 32 (k0_pay7 v31 v32) _ p j ⟨32 + j.val, by omega⟩ rfl).trans
    (pay7_apply v31 v32 p _)

end Row

/-! ## Fifth powers and their sums -/

/-- The fifth power of the absolute value, in the kernel's order of products. -/
theorem pay22_apply (v42 : FVec Ideal S512x32 .f32) (i : S512x32.Idx) :
    k0_pay22 v42 i = Cert.Spec.pow5K (v42 i) := rfl

/-- The sum over a row of the second factor's fifth powers. -/
theorem pay23_apply (v43 : FVec Ideal S512x32 .f32) (p : Fin 512) (r : Fin 1) :
    k0_pay23 v43 (ix2 p r) = ∑ j : Fin 32, Cert.Spec.pow5K (v43 (ix2 p j)) := by
  unfold k0_pay23
  refine (shapeCast_a_a1_apply _ _ p r).trans ?_
  exact rowSum_apply _ _ _ _ p

/-! ## The guarded fifth root with its floor -/

/-- The kernel's norm of a column of sums: where the sum is positive the exponential of 0.2 times its logarithm
    (the logarithm taken of 1 elsewhere), zero elsewhere, then the maximum with the floor. -/
def normCol (s : FVec Ideal S512x1 .f32) : FVec Ideal S512x1 .f32 :=
  maximumf
    (select (cmpf .ogt s (broadcast S512x1 (Scalar.ofBits .f32 0x00000000#32)))
      (exp (mulf (broadcast S512x1 (Scalar.ofBits .f32 0x3E4CCCCD#32))
        (log (select (cmpf .ogt s (broadcast S512x1 (Scalar.ofBits .f32 0x00000000#32))) s
          (broadcast S512x1 (Scalar.ofBits .f32 0x3F800000#32))))))
      (broadcast S512x1 (Scalar.ofBits .f32 0x00000000#32)))
    (broadcast S512x1 (Scalar.ofBits .f32 0x2B8CBCCC#32))

/-- At an index it is the specification's norm of the entry. -/
theorem normCol_apply (s : FVec Ideal S512x1 .f32) (i : S512x1.Idx) : normCol s i = Cert.Spec.normK (s i) := by
  show max (Scalar.select (Ideal.cmp .ogt (s i) (Ideal.ofBits .f32 0x00000000#32))
      (Ideal.exp (Ideal.ofBits .f32 0x3E4CCCCD#32 * Ideal.log (Scalar.select
        (Ideal.cmp .ogt (s i) (Ideal.ofBits .f32 0x00000000#32)) (s i) (Ideal.ofBits .f32 0x3F800000#32))))
      (Ideal.ofBits .f32 0x00000000#32)) (Ideal.ofBits .f32 0x2B8CBCCC#32) = _
  unfold Cert.Spec.normK
  have hc : Ideal.cmp .ogt (s i) (Ideal.ofBits .f32 0x00000000#32) = BitVec.ofBool (decide ((0 : EReal) < s i)) := by
    rw [Ideal.ofBits_zero_f32]; rfl
  rw [hc]
  by_cases h : (0 : EReal) < s i
  · rw [decide_eq_true h, if_pos h, if_pos h]; rfl
  · rw [decide_eq_false h, if_neg h]; rfl

/-- One coefficient-over-norm column: column oc of the coefficients over the norm of (the sum of the eight fifth
    powers from column o on) times (the second factor's sum). -/
def coefCol (o oc : ℕ) (hs : S512x32.Slices ![0, o] S512x8) (hc : S512x4.Slices ![0, oc] S512x1)
    (v39 : FVec Ideal S512x4 .f32) (v202 : FVec Ideal S512x32 .f32) (v208 : FVec Ideal S512x1 .f32) :
    FVec Ideal S512x1 .f32 :=
  divf (extractStridedSlice S512x1 ![0, oc] v39 hc)
    (normCol (mulf (shapeCast S512x1 (multiReduction .add [1] S512 (extractStridedSlice S512x8 ![0, o] v202 hs)
      0x00000000#32 reduces_S512x8_S512 (.inl rfl) rfl) shapeCasts_S512_S512x1) v208))

theorem coefCol_apply (o oc : ℕ) (hs : S512x32.Slices ![0, o] S512x8) (hc : S512x4.Slices ![0, oc] S512x1)
    (v39 : FVec Ideal S512x4 .f32) (v202 : FVec Ideal S512x32 .f32) (v208 : FVec Ideal S512x1 .f32)
    (ho : o + 8 ≤ 32) (hoc : oc < 4) (p : Fin 512) (r : Fin 1) :
    coefCol o oc hs hc v39 v202 v208 (ix2 p r)
      = Ideal.div (v39 (ix2 p ⟨oc, hoc⟩))
          (Cert.Spec.normK ((∑ k : Fin 8, v202 (ix2 p ⟨o + k.val, by omega⟩)) * v208 (ix2 p r))) := by
  show Ideal.div (extractStridedSlice S512x1 ![0, oc] v39 hc (ix2 p r)) (normCol _ (ix2 p r)) = _
  rw [normCol_apply, slice2_axis1_apply oc v39 hc p r ⟨oc, hoc⟩ (by show oc = oc + r.val; omega)]
  show Ideal.div _ (Cert.Spec.normK (shapeCast S512x1 _ shapeCasts_S512_S512x1 (ix2 p r) * v208 (ix2 p r))) = _
  rw [shapeCast_a_a1_apply]
  refine congrArg (fun x => Ideal.div _ (Cert.Spec.normK (x * _))) ?_
  refine (rowSum_apply _ _ _ _ p).trans ?_
  exact Finset.sum_congr rfl fun k _ => slice2_axis1_apply o v202 hs p k ⟨o + k.val, by omega⟩ rfl

/-! ## The four terms and their sum -/

section Branch
variable (v39 : FVec Ideal S512x4 .f32) (v42 v43 : FVec Ideal S512x32 .f32) (p : Fin 512)
  (u : Fin 64 → EReal) (co : Fin 4 → EReal)
  (h39 : ∀ k : Fin 4, v39 (ix2 p k) = co k)
  (h42 : ∀ j : Fin 32, v42 (ix2 p j) = u ⟨j.val, by omega⟩)
  (h43 : ∀ j : Fin 32, v43 (ix2 p j) = u ⟨32 + j.val, by omega⟩)

include h39 h42 h43 in
/-- The k-th coefficient-over-norm column on row p: the coefficient over the norm of the product of the two sums. -/
theorem coef_apply (kk : Fin 4) (o oc : ℕ) (ho : o = 8 * kk.val) (hoc : oc = kk.val)
    (hs : S512x32.Slices ![0, o] S512x8) (hc : S512x4.Slices ![0, oc] S512x1) (r : Fin 1) :
    coefCol o oc hs hc v39 (k0_pay22 v42) (k0_pay23 v43) (ix2 p r)
      = Ideal.div (co kk) (Cert.Spec.normK (Cert.Spec.s0K u kk * Cert.Spec.s1K u)) := by
  subst ho hoc
  have e1 : v39 (ix2 p ⟨kk.val, kk.isLt⟩) = co kk := h39 kk
  have e2 : (∑ k : Fin 8, k0_pay22 v42 (ix2 p ⟨8 * kk.val + k.val, by have := kk.isLt; omega⟩)) = Cert.Spec.s0K u kk := by
    unfold Cert.Spec.s0K
    exact Finset.sum_congr rfl fun k _ => by rw [pay22_apply, h42]
  have e3 : (∑ j : Fin 32, Cert.Spec.pow5K (v43 (ix2 p j))) = Cert.Spec.s1K u := by
    unfold Cert.Spec.s1K
    exact Finset.sum_congr rfl fun j _ => by rw [h43]
  rw [coefCol_apply _ _ _ _ _ _ _ (by have := kk.isLt; omega) kk.isLt, pay23_apply, e1, e2, e3]

include h39 h42 h43 in
/-- The k-th term at (p, r): that column times the k-th group of eight entries of the first factor. -/
theorem term_apply (kk : Fin 4) (o oc : ℕ) (ho : o = 8 * kk.val) (hoc : oc = kk.val)
    (hs : S512x32.Slices ![0, o] S512x8) (hc : S512x4.Slices ![0, oc] S512x1) (r : Fin 8) :
    broadcastTo S512x8 (coefCol o oc hs hc v39 (k0_pay22 v42) (k0_pay23 v43)) broadcasts_S512x1_S512x8 (ix2 p r)
        * extractStridedSlice S512x8 ![0, o] v42 hs (ix2 p r)
      = Cert.Spec.termK u co kk r := by
  rw [broadcastTo_a1_ab_apply, coef_apply v39 v42 v43 p u co h39 h42 h43 kk o oc ho hoc hs hc,
    slice2_axis1_apply o v42 hs p r ⟨o + r.val, by have := kk.isLt; omega⟩ rfl, h42]
  subst ho
  rfl

/-- The sum of the four terms, as the kernel accumulates it from the branch's three slices. -/
abbrev gVec (v39 : FVec Ideal S512x4 .f32) (v42 v43 : FVec Ideal S512x32 .f32) : FVec Ideal S512x8 .f32 :=
  k0_pay29 v39 v42 (k0_pay22 v42) (k0_pay23 v43)
    (k0_pay26 v39 v42 (k0_pay22 v42) (k0_pay23 v43) (k0_pay24 v42) (k0_pay25 v39 v42 v43))
    (k0_pay27 v39 (k0_pay22 v42) (k0_pay23 v43)) (k0_pay28 v42)

include h39 h42 h43 in
theorem gVec_apply (r : Fin 8) : gVec v39 v42 v43 (ix2 p r) = Cert.Spec.gK u co r := by
  have t0 := term_apply v39 v42 v43 p u co h39 h42 h43 0 0 0 rfl rfl
    slices_S512x32_o0_0_S512x8 slices_S512x4_o0_0_S512x1 r
  have t1 := term_apply v39 v42 v43 p u co h39 h42 h43 1 8 1 rfl rfl
    slices_S512x32_o0_8_S512x8 slices_S512x4_o0_1_S512x1 r
  have t2 := term_apply v39 v42 v43 p u co h39 h42 h43 2 16 2 rfl rfl
    slices_S512x32_o0_16_S512x8 slices_S512x4_o0_2_S512x1 r
  have t3 := term_apply v39 v42 v43 p u co h39 h42 h43 3 24 3 rfl rfl
    slices_S512x32_o0_24_S512x8 slices_S512x4_o0_3_S512x1 r
  unfold Cert.Spec.gK
  rw [← t0, ← t1, ← t2, ← t3]
  rfl

end Branch

/-! ## The one-hot expansion and the last combination -/

/-- Column i of an eight-column block, broadcast along 256 columns, reads at (p, q) the block at (p, i). -/
theorem gcol_apply {α : Type} (G : S512x8.Idx → α) (i : ℕ) (hi : i < 8) (hs : S512x8.Slices ![0, i] S512x1)
    (p : Fin 512) (q : Fin 256) :
    broadcastTo S512x256 (extractStridedSlice S512x1 ![0, i] G hs) broadcasts_S512x1_S512x256 (ix2 p q)
      = G (ix2 p ⟨i, hi⟩) := by
  rw [broadcastTo_a1_ab_apply]
  exact slice2_axis1_apply i G hs p 0 ⟨i, hi⟩ rfl

/-- Row i of the eight-row table, broadcast along 512 rows, reads at (p, q) the table at (i, q). -/
theorem trow_apply {α : Type} (T : S8x256.Idx → α) (i : ℕ) (hi : i < 8) (hs : S8x256.Slices ![i, 0] S1x256)
    (p : Fin 512) (q : Fin 256) :
    broadcastTo S512x256 (extractStridedSlice S1x256 ![i, 0] T hs) broadcasts_S1x256_S512x256 (ix2 p q)
      = T (ix2 ⟨i, hi⟩ q) := by
  rw [broadcastTo_1b_ab_apply]
  exact slice2_axis0_apply i T hs 0 q ⟨i, hi⟩ rfl

/-- The expansion over the table's rows 0..3. -/
theorem pay30_apply (v39 : FVec Ideal S512x4 .f32) (v42 : FVec Ideal S512x32 .f32) (v44 : Vec Ideal S8x256 .f32)
    (v202 : FVec Ideal S512x32 .f32) (v208 : FVec Ideal S512x1 .f32) (v255 : FVec Ideal S512x8 .f32)
    (v275 : FVec Ideal S512x1 .f32) (v276 : FVec Ideal S512x8 .f32) (p : Fin 512) (q : Fin 256) :
    k0_pay30 v39 v42 v44 v202 v208 v255 v275 v276 (ix2 p q)
      = ((k0_pay29 v39 v42 v202 v208 v255 v275 v276 (ix2 p 0) * (v44 (ix2 0 q) : EReal)
          + k0_pay29 v39 v42 v202 v208 v255 v275 v276 (ix2 p 1) * (v44 (ix2 1 q) : EReal))
          + k0_pay29 v39 v42 v202 v208 v255 v275 v276 (ix2 p 2) * (v44 (ix2 2 q) : EReal))
          + k0_pay29 v39 v42 v202 v208 v255 v275 v276 (ix2 p 3) * (v44 (ix2 3 q) : EReal) := by
  unfold k0_pay30
  show ((broadcastTo S512x256 (extractStridedSlice S512x1 ![0, 0] (k0_pay29 v39 v42 v202 v208 v255 v275 v276) _) _ (ix2 p q)
          * broadcastTo S512x256 (extractStridedSlice S1x256 ![0, 0] v44 _) _ (ix2 p q)
        + broadcastTo S512x256 (extractStridedSlice S512x1 ![0, 1] (k0_pay29 v39 v42 v202 v208 v255 v275 v276) _) _ (ix2 p q)
          * broadcastTo S512x256 (extractStridedSlice S1x256 ![1, 0] v44 _) _ (ix2 p q))
        + broadcastTo S512x256 (extractStridedSlice S512x1 ![0, 2] (k0_pay29 v39 v42 v202 v208 v255 v275 v276) _) _ (ix2 p q)
          * broadcastTo S512x256 (extractStridedSlice S1x256 ![2, 0] v44 _) _ (ix2 p q))
        + broadcastTo S512x256 (extractStridedSlice S512x1 ![0, 3] (k0_pay29 v39 v42 v202 v208 v255 v275 v276) _) _ (ix2 p q)
          * broadcastTo S512x256 (extractStridedSlice S1x256 ![3, 0] v44 _) _ (ix2 p q) = _
  rw [gcol_apply _ 0 (by omega), gcol_apply _ 1 (by omega), gcol_apply _ 2 (by omega), gcol_apply _ 3 (by omega),
    trow_apply _ 0 (by omega), trow_apply _ 1 (by omega), trow_apply _ 2 (by omega), trow_apply _ 3 (by omega)]
  rfl

/-- Row 4 of the table. -/
theorem pay31_apply (v44 : Vec Ideal S8x256 .f32) (r : Fin 1) (q : Fin 256) :
    k0_pay31 v44 (ix2 r q) = (v44 (ix2 4 q) : EReal) := by
  unfold k0_pay31
  exact slice2_axis0_apply 4 v44 _ r q 4 (by show 4 = 4 + r.val; omega)

/-- Column 4 of the sum of terms, broadcast. -/
theorem pay32_apply (v39 : FVec Ideal S512x4 .f32) (v42 : FVec Ideal S512x32 .f32)
    (v202 : FVec Ideal S512x32 .f32) (v208 : FVec Ideal S512x1 .f32) (v255 : FVec Ideal S512x8 .f32)
    (v275 : FVec Ideal S512x1 .f32) (v276 : FVec Ideal S512x8 .f32) (p : Fin 512) (q : Fin 256) :
    k0_pay32 v39 v42 v202 v208 v255 v275 v276 (ix2 p q) = k0_pay29 v39 v42 v202 v208 v255 v275 v276 (ix2 p 4) := by
  unfold k0_pay32
  exact gcol_apply _ 4 (by omega) _ p q

/-- The last payload: rows 4..7 of the expansion, the product with the tiled second factor, and the new memory. -/
theorem pay1_apply (v4 : Vec Ideal S512x256 .f32) (v43 : FVec Ideal S512x32 .f32) (v44 : Vec Ideal S8x256 .f32)
    (v198 : FVec Ideal S512x256 .f32) (v303 : FVec Ideal S512x8 .f32) (v326 : FVec Ideal S512x256 .f32)
    (v328 : FVec Ideal S1x256 .f32) (v329 : FVec Ideal S512x256 .f32) (p : Fin 512) (q : Fin 256) :
    k0_pay1 v4 v43 v44 v198 v303 v326 v328 v329 (ix2 p q)
      = (v4 (ix2 p q) : EReal) + ((v198 (ix2 p q) : EReal)
          - ((((v326 (ix2 p q) + v329 (ix2 p q) * v328 (ix2 0 q))
              + v303 (ix2 p 5) * (v44 (ix2 5 q) : EReal))
              + v303 (ix2 p 6) * (v44 (ix2 6 q) : EReal))
              + v303 (ix2 p 7) * (v44 (ix2 7 q) : EReal))
            * v43 (ix2 p ⟨q.val % 32, Nat.mod_lt _ (by omega)⟩)) * Cert.Spec.quarterE := by
  unfold k0_pay1
  show (v4 (ix2 p q) : EReal) + ((v198 (ix2 p q) : EReal)
          - ((((v326 (ix2 p q) + v329 (ix2 p q) * broadcastTo S512x256 v328 _ (ix2 p q))
              + broadcastTo S512x256 (extractStridedSlice S512x1 ![0, 5] v303 _) _ (ix2 p q)
                * broadcastTo S512x256 (extractStridedSlice S1x256 ![5, 0] v44 _) _ (ix2 p q))
              + broadcastTo S512x256 (extractStridedSlice S512x1 ![0, 6] v303 _) _ (ix2 p q)
                * broadcastTo S512x256 (extractStridedSlice S1x256 ![6, 0] v44 _) _ (ix2 p q))
              + broadcastTo S512x256 (extractStridedSlice S512x1 ![0, 7] v303 _) _ (ix2 p q)
                * broadcastTo S512x256 (extractStridedSlice S1x256 ![7, 0] v44 _) _ (ix2 p q))
            * concatenate S512x256 1 [⟨S512x32, v43⟩, ⟨S512x32, v43⟩, ⟨S512x32, v43⟩, ⟨S512x32, v43⟩, ⟨S512x32, v43⟩,
                ⟨S512x32, v43⟩, ⟨S512x32, v43⟩, ⟨S512x32, v43⟩] _ (ix2 p q)) * Ideal.ofBits .f32 0x3E800000#32 = _
  rw [broadcastTo_1b_ab_apply, gcol_apply _ 5 (by omega), gcol_apply _ 6 (by omega), gcol_apply _ 7 (by omega),
    trow_apply _ 5 (by omega), trow_apply _ 6 (by omega), trow_apply _ 7 (by omega), tile8_apply]
  rfl

/-! ## The branch's tail: from the fused projection to the new memory block -/

/-- The new memory block from the old one, the fused projection before its bias, the bias row, the one-hot table
    and the alpha branch's finished contribution: the beta branch's payloads chained as the kernel chains them. -/
abbrev betaTail {F : FTy → Type} [FloatOps F] (v4 : Vec F S512x256 .f32) (v31 : FVec F S512x136 .f32)
    (v32 : Vec F S1x136 .f32) (v44 : Vec F S8x256 .f32) (v198 : FVec F S512x256 .f32) : FVec F S512x256 .f32 :=
  let v39 := k0_pay9 v31 v32
  let v42 := k0_pay12 v31 v32
  let v43 := k0_pay13 v31 v32
  let v202 := k0_pay22 v42
  let v208 := k0_pay23 v43
  let v229 := k0_pay24 v42
  let v230 := k0_pay25 v39 v42 v43
  let v255 := k0_pay26 v39 v42 v202 v208 v229 v230
  let v275 := k0_pay27 v39 v202 v208
  let v276 := k0_pay28 v42
  let v303 := k0_pay29 v39 v42 v202 v208 v255 v275 v276
  let v326 := k0_pay30 v39 v42 v44 v202 v208 v255 v275 v276
  let v328 := k0_pay31 v44
  let v329 := k0_pay32 v39 v42 v202 v208 v255 v275 v276
  k0_pay1 v4 v43 v44 v198 v303 v326 v328 v329

/-- The new memory entry at (p, q): the old entry plus (the alpha contribution minus the beta branch's contribution
    on row p, a function of that row's 64 branch columns, its four coefficients and the table) times one quarter. -/
theorem betaTail_apply (v4 : Vec Ideal S512x256 .f32) (v31 : FVec Ideal S512x136 .f32) (v32 : Vec Ideal S1x136 .f32)
    (v44 : Vec Ideal S8x256 .f32) (v198 : FVec Ideal S512x256 .f32) (p : Fin 512) (q : Fin 256) :
    betaTail (F := Ideal) v4 v31 v32 v44 v198 (ix2 p q)
      = (v4 (ix2 p q) : EReal) + ((v198 (ix2 p q) : EReal)
          - Cert.Spec.contribK (fun c : Fin 64 => (v31 (ix2 p ⟨64 + c.val, by omega⟩) : EReal) + v32 (ix2 0 ⟨64 + c.val, by omega⟩))
              (fun k : Fin 4 => (v31 (ix2 p ⟨132 + k.val, by omega⟩) : EReal) + v32 (ix2 0 ⟨132 + k.val, by omega⟩))
              (fun i q' => (v44 (ix2 i q') : EReal)) q) * Cert.Spec.quarterE := by
  have hg : ∀ r : Fin 8,
      k0_pay29 (k0_pay9 v31 v32) (k0_pay12 v31 v32) (k0_pay22 (k0_pay12 v31 v32)) (k0_pay23 (k0_pay13 v31 v32))
          (k0_pay26 (k0_pay9 v31 v32) (k0_pay12 v31 v32) (k0_pay22 (k0_pay12 v31 v32)) (k0_pay23 (k0_pay13 v31 v32)) (k0_pay24 (k0_pay12 v31 v32)) (k0_pay25 (k0_pay9 v31 v32) (k0_pay12 v31 v32) (k0_pay13 v31 v32)))
          (k0_pay27 (k0_pay9 v31 v32) (k0_pay22 (k0_pay12 v31 v32)) (k0_pay23 (k0_pay13 v31 v32))) (k0_pay28 (k0_pay12 v31 v32)) (ix2 p r)
        = Cert.Spec.gK (uRow v31 v32 p) (coRow v31 v32 p) r :=
    gVec_apply (k0_pay9 v31 v32) (k0_pay12 v31 v32) (k0_pay13 v31 v32) p (uRow v31 v32 p) (coRow v31 v32 p)
      (pay9_apply v31 v32 p) (pay12_apply v31 v32 p) (pay13_apply v31 v32 p)
  refine (pay1_apply _ _ _ _ _ _ _ _ p q).trans ?_
  rw [pay30_apply, pay32_apply, pay31_apply, pay13_apply]
  simp only [hg]
  rfl

end Cert.KernelIdeal.PayB

end
-- ==== Proof.KiFinal.lean ====
import proofs.«422122_j1039382085932_3_alg».proof.Proof.KiFrame
import proofs.«422122_j1039382085932_3_alg».proof.Proof.KiHost
import proofs.«422122_j1039382085932_3_alg».proof.Proof.KiPayH
import proofs.«422122_j1039382085932_3_alg».proof.Proof.KiPayA
import proofs.«422122_j1039382085932_3_alg».proof.Proof.KiPayB
import Idealize.ShloMosaic.Lib.Pipeline.Value
import Idealize.ShloMosaic.Lib.ValueIdx

/-!
# From blocks to arrays: the kernel's two results as functions of its arguments

Grid point t handles rows 512·t … 512·t + 511. A row-blocked window's block at t, read at (p, j), is its
array at (512·t + p, j); a resident window's block is its whole array. So what point t stores into the
hidden-state buffer is rows 512·t … of the specification's hK, and into the new-memory buffer rows 512·t … of
memK; the sixteen points' blocks tile both arrays, which therefore end holding hK and memK whole.
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## Loads through the body's rectangles, at an index -/

theorem ld_rX (x : Vec Ideal S512x1024 .f32) : View.ld x rX = x := View.ld_unit_zero hz _ x
theorem ld_rM (x : Vec Ideal S512x256 .f32) : View.ld x rM = x := View.ld_unit_zero hz _ x
theorem ld_rB (x : Vec Ideal S1x1024 .f32) : View.ld x rB = x := View.ld_unit_zero hz _ x
theorem ld_rBf (x : Vec Ideal S1x136 .f32) : View.ld x rBf = x := View.ld_unit_zero hz _ x
theorem ld_rR (x : Vec Ideal S8x256 .f32) : View.ld x rR = x := View.ld_unit_zero hz _ x

/-- Rows 0 … 1023 of the transposed weight. -/
theorem ld_rW0 (x : Vec Ideal S2304x1024 .bf16) (j : Fin 1024) (n : Fin 1024) :
    View.ld x rW0 (ix2 j n) = x (ix2 ⟨j.val, by omega⟩ n) :=
  congrArg x (funext fun a => Fin.ext (by
    match a with
    | ⟨0, _⟩ => show 0 + 1 * j.val = j.val; omega
    | ⟨1, _⟩ => show 0 + 1 * n.val = n.val; omega))
/-- Rows 1024 … 2047. -/
theorem ld_rW1 (x : Vec Ideal S2304x1024 .bf16) (j : Fin 1024) (n : Fin 1024) :
    View.ld x rW1 (ix2 j n) = x (ix2 ⟨1024 + j.val, by omega⟩ n) :=
  congrArg x (funext fun a => Fin.ext (by
    match a with
    | ⟨0, _⟩ => show 1024 + 1 * j.val = 1024 + j.val; omega
    | ⟨1, _⟩ => show 0 + 1 * n.val = n.val; omega))
/-- Rows 2048 … 2303. -/
theorem ld_rW2 (x : Vec Ideal S2304x1024 .bf16) (j : Fin 256) (n : Fin 1024) :
    View.ld x rW2 (ix2 j n) = x (ix2 ⟨2048 + j.val, by omega⟩ n) :=
  congrArg x (funext fun a => Fin.ext (by
    match a with
    | ⟨0, _⟩ => show 2048 + 1 * j.val = 2048 + j.val; omega
    | ⟨1, _⟩ => show 0 + 1 * n.val = n.val; omega))
/-- Rows 0 … 1023 of the fused weight. -/
theorem ld_rF0 (x : Vec Ideal S1280x136 .bf16) (j : Fin 1024) (c : Fin 136) :
    View.ld x rF0 (ix2 j c) = x (ix2 ⟨j.val, by omega⟩ c) :=
  congrArg x (funext fun a => Fin.ext (by
    match a with
    | ⟨0, _⟩ => show 0 + 1 * j.val = j.val; omega
    | ⟨1, _⟩ => show 0 + 1 * c.val = c.val; omega))
/-- Rows 1024 … 1279. -/
theorem ld_rF1 (x : Vec Ideal S1280x136 .bf16) (j : Fin 256) (c : Fin 136) :
    View.ld x rF1 (ix2 j c) = x (ix2 ⟨1024 + j.val, by omega⟩ c) :=
  congrArg x (funext fun a => Fin.ext (by
    match a with
    | ⟨0, _⟩ => show 1024 + 1 * j.val = 1024 + j.val; omega
    | ⟨1, _⟩ => show 0 + 1 * c.val = c.val; omega))

/-! ## The two stored values at an index, over any blocks -/

/-- The hidden-state block at (p, n): the three partial products, the bias, the maximum with zero. -/
theorem hPay_at (x0 x1 : Vec Ideal S512x1024 .f32) (x2 : Vec Ideal S512x256 .f32) (x3 : Vec Ideal S2304x1024 .bf16)
    (x4 : Vec Ideal S1x1024 .f32) (p : Fin 512) (n : Fin 1024) :
    hPay x0 x1 x2 x3 x4 (ix2 p n)
      = max ((((∑ j : Fin 1024, (x0 (ix2 p j) : EReal) * x3 (ix2 ⟨j.val, by omega⟩ n))
            + (∑ j : Fin 1024, (x1 (ix2 p j) : EReal) * x3 (ix2 ⟨1024 + j.val, by omega⟩ n)))
          + (∑ j : Fin 256, (x2 (ix2 p j) : EReal) * x3 (ix2 ⟨2048 + j.val, by omega⟩ n))) + x4 (ix2 0 n)) Cert.Spec.zeroE := by
  unfold hPay
  rw [PayH.pay3_apply]
  have s0 : (∑ j : Fin 1024, (View.ld x0 rX (ix2 p j) : EReal) * View.ld x3 rW0 (ix2 j n))
      = ∑ j : Fin 1024, (x0 (ix2 p j) : EReal) * x3 (ix2 ⟨j.val, by omega⟩ n) :=
    Finset.sum_congr rfl fun j _ => by rw [ld_rX, ld_rW0]
  have s1 : (∑ j : Fin 1024, (View.ld x1 rX (ix2 p j) : EReal) * View.ld x3 rW1 (ix2 j n))
      = ∑ j : Fin 1024, (x1 (ix2 p j) : EReal) * x3 (ix2 ⟨1024 + j.val, by omega⟩ n) :=
    Finset.sum_congr rfl fun j _ => by rw [ld_rX, ld_rW1]
  have s2 : (∑ j : Fin 256, (View.ld x2 rM (ix2 p j) : EReal) * View.ld x3 rW2 (ix2 j n))
      = ∑ j : Fin 256, (x2 (ix2 p j) : EReal) * x3 (ix2 ⟨2048 + j.val, by omega⟩ n) :=
    Finset.sum_congr rfl fun j _ => by rw [ld_rM, ld_rW2]
  rw [s0, s1, s2, ld_rB]

/-- The fused projection (before its bias) at (p, c). -/
theorem fusedPay_at (x0 x1 : Vec Ideal S512x1024 .f32) (x2 : Vec Ideal S512x256 .f32) (x3 : Vec Ideal S2304x1024 .bf16)
    (x4 : Vec Ideal S1x1024 .f32) (x5 : Vec Ideal S1280x136 .bf16) (p : Fin 512) (c : Fin 136) :
    fusedPay x0 x1 x2 x3 x4 x5 (ix2 p c)
      = (∑ j : Fin 1024, (hPay x0 x1 x2 x3 x4 (ix2 p j) : EReal) * x5 (ix2 ⟨j.val, by omega⟩ c))
        + (∑ j : Fin 256, (x2 (ix2 p j) : EReal) * x5 (ix2 ⟨1024 + j.val, by omega⟩ c)) := by
  unfold fusedPay
  rw [PayH.pay4_apply]
  have s0 : (∑ j : Fin 1024, (k0_pay3 (F := Ideal) (View.ld x0 rX) (View.ld x1 rX) (View.ld x2 rM) (View.ld x3 rW0) (View.ld x3 rW1)
        (View.ld x3 rW2) (View.ld x4 rB) (ix2 p j) : EReal) * View.ld x5 rF0 (ix2 j c))
      = ∑ j : Fin 1024, (hPay x0 x1 x2 x3 x4 (ix2 p j) : EReal) * x5 (ix2 ⟨j.val, by omega⟩ c) :=
    Finset.sum_congr rfl fun j _ => by rw [ld_rF0]; rfl
  have s1 : (∑ j : Fin 256, (View.ld x2 rM (ix2 p j) : EReal) * View.ld x5 rF1 (ix2 j c))
      = ∑ j : Fin 256, (x2 (ix2 p j) : EReal) * x5 (ix2 ⟨1024 + j.val, by omega⟩ c) :=
    Finset.sum_congr rfl fun j _ => by rw [ld_rM, ld_rF1]
  rw [s0, s1]

/-- The new-memory block at (p, q), from the fused row with its bias, the table and the old entry. -/
theorem memChain_at (v4 : Vec Ideal S512x256 .f32) (v31 : FVec Ideal S512x136 .f32) (v32 : Vec Ideal S1x136 .f32)
    (v44 : Vec Ideal S8x256 .f32) (p : Fin 512) (q : Fin 256) :
    memChain (F := Ideal) v4 v31 v32 v44 (ix2 p q)
      = Cert.Spec.memRowK (fun c => (v31 (ix2 p c) : EReal) + v32 (ix2 0 c)) (fun i q' => (v44 (ix2 i q') : EReal))
          (v4 (ix2 p q)) q := by
  show PayB.betaTail (F := Ideal) v4 v31 v32 v44 (PayA.alphaChain (F := Ideal) v31 v32 v44) (ix2 p q) = _
  rw [PayB.betaTail_apply, PayA.alphaChain_apply]
  rfl

/-! ## The windows' index maps over the grid -/

/-- Decided over the sixteen points: the five row-blocked windows sit at block (t, 0), the five resident ones at
    (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 16 := lt_of_lt_of_eq t.isLt N_0

/-- The array row that row p of point t's block is. -/
def row (t : Fin cfg0.N) (p : Fin 512) : Fin 8192 := ⟨512 * t.val + p.val, by have := t_lt t; omega⟩

/-! ## Each window's block, read as its array -/

theorem blk_x (c : Dev nD) (t : Fin cfg0.N) (p : Fin 512) (j : Fin 1024) :
    (iblk m c 0 t : S512x1024.Idx → EReal) (ix2 p j) = (argsAt m c).x (row t p) j := by
  obtain ⟨e0, e1, -⟩ := idx_facts t
  show (V m c main_arg0 : S8192x1024.Idx → EReal) (((cfg0.win 0).blk t).view.emb (ix2 p j)) = _
  rw [V_x]
  exact congrArg (m ((c : Thread nD τ).loc main_arg0)) (funext fun a => Fin.ext (by
    match a with
    | ⟨0, _⟩ => show win0_0.index t (0 : Fin 2) * 512 + 1 * p.val = 512 * t.val + p.val; omega
    | ⟨1, _⟩ => show win0_0.index t (1 : Fin 2) * 1024 + 1 * j.val = j.val; omega))

theorem blk_h0 (c : Dev nD) (t : Fin cfg0.N) (p : Fin 512) (j : Fin 1024) :
    (iblk m c 1 t : S512x1024.Idx → EReal) (ix2 p j) = (argsAt m c).h0 (row t p) j := by
  obtain ⟨-, -, e0, e1, -⟩ := idx_facts t
  show (V m c main_arg1 : S8192x1024.Idx → EReal) (((cfg0.win 1).blk t).view.emb (ix2 p j)) = _
  rw [V_h0]
  exact congrArg (m ((c : Thread nD τ).loc main_arg1)) (funext fun a => Fin.ext (by
    match a with
    | ⟨0, _⟩ => show win0_1.index t (0 : Fin 2) * 512 + 1 * p.val = 512 * t.val + p.val; omega
    | ⟨1, _⟩ => show win0_1.index t (1 : Fin 2) * 1024 + 1 * j.val = j.val; omega))

theorem blk_mem (c : Dev nD) (t : Fin cfg0.N) (p : Fin 512) (j : Fin 256) :
    (iblk m c 2 t : S512x256.Idx → EReal) (ix2 p j) = (argsAt m c).mem (row t p) j := by
  obtain ⟨-, -, -, -, e0, e1, -⟩ := idx_facts t
  show (V m c main_arg2 : S8192x256.Idx → EReal) (((cfg0.win 2).blk t).view.emb (ix2 p j)) = _
  rw [V_mem]
  exact congrArg (m ((c : Thread nD τ).loc main_arg2)) (funext fun a => Fin.ext (by
    match a with
    | ⟨0, _⟩ => show win0_2.index t (0 : Fin 2) * 512 + 1 * p.val = 512 * t.val + p.val; omega
    | ⟨1, _⟩ => show win0_2.index t (1 : Fin 2) * 256 + 1 * j.val = j.val; omega))

theorem blk_W (c : Dev nD) (t : Fin cfg0.N) (j : Fin 2304) (n : Fin 1024) :
    (iblk m c 3 t : S2304x1024.Idx → EReal) (ix2 j n) = (argsAt m c).Wh n j := by
  obtain ⟨-, -, -, -, -, -, e0, e1, -⟩ := idx_facts t
  have he : ((cfg0.win 3).blk t).view.emb (ix2 j n) = (ix2 j n : S2304x1024.Idx) := funext fun a => Fin.ext (by
    match a with
    | ⟨0, _⟩ => show win0_3.index t (0 : Fin 2) * 2304 + 1 * j.val = j.val; omega
    | ⟨1, _⟩ => show win0_3.index t (1 : Fin 2) * 1024 + 1 * n.val = n.val; omega)
  show (V m c main_v1 : S2304x1024.Idx → EReal) (((cfg0.win 3).blk t).view.emb (ix2 j n)) = _
  rw [he]
  exact V_v1_at m c j n

theorem blk_bh (c : Dev nD) (t : Fin cfg0.N) (n : Fin 1024) :
    (iblk m c 4 t : S1x1024.Idx → EReal) (ix2 0 n) = (argsAt m c).bh n := by
  obtain ⟨-, -, -, -, -, -, -, -, e0, e1, -⟩ := idx_facts t
  have he : ((cfg0.win 4).blk t).view.emb (ix2 0 n) = (ix2 0 n : S1x1024.Idx) := funext fun a => Fin.ext (by
    match a with
    | ⟨0, _⟩ => show win0_4.index t (0 : Fin 2) * 1 + 1 * 0 = 0; omega
    | ⟨1, _⟩ => show win0_4.index t (1 : Fin 2) * 1024 + 1 * n.val = n.val; omega)
  show (V m c main_v7 : S1x1024.Idx → EReal) (((cfg0.win 4).blk t).view.emb (ix2 0 n)) = _
  rw [he]
  exact V_v7_at m c n

theorem blk_Wf (c : Dev nD) (t : Fin cfg0.N) (j : Fin 1280) (c' : Fin 136) :
    (iblk m c 5 t : S1280x136.Idx → EReal) (ix2 j c') = Cert.Spec.Wf (argsAt m c) c' j := by
  obtain ⟨-, -, -, -, -, -, -, -, -, -, e0, e1, -⟩ := idx_facts t
  have he : ((cfg0.win 5).blk t).view.emb (ix2 j c') = (ix2 j c' : S1280x136.Idx) := funext fun a => Fin.ext (by
    match a with
    | ⟨0, _⟩ => show win0_5.index t (0 : Fin 2) * 1280 + 1 * j.val = j.val; omega
    | ⟨1, _⟩ => show win0_5.index t (1 : Fin 2) * 136 + 1 * c'.val = c'.val; omega)
  show (V m c main_v4 : S1280x136.Idx → EReal) (((cfg0.win 5).blk t).view.emb (ix2 j c')) = _
  rw [he]
  exact V_v4_at m c j c'

theorem blk_bf (c : Dev nD) (t : Fin cfg0.N) (c' : Fin 136) :
    (iblk m c 6 t : S1x136.Idx → EReal) (ix2 0 c') = Cert.Spec.bf (argsAt m c) c' := by
  obtain ⟨-, -, -, -, -, -, -, -, -, -, -, -, e0, e1, -⟩ := idx_facts t
  have he : ((cfg0.win 6).blk t).view.emb (ix2 0 c') = (ix2 0 c' : S1x136.Idx) := funext fun a => Fin.ext (by
    match a with
    | ⟨0, _⟩ => show win0_6.index t (0 : Fin 2) * 1 + 1 * 0 = 0; omega
    | ⟨1, _⟩ => show win0_6.index t (1 : Fin 2) * 136 + 1 * c'.val = c'.val; omega)
  show (V m c main_v6 : S1x136.Idx → EReal) (((cfg0.win 6).blk t).view.emb (ix2 0 c')) = _
  rw [he]
  exact V_v6_at m c c'

theorem blk_R (c : Dev nD) (t : Fin cfg0.N) (i : Fin 8) (q : Fin 256) :
    (iblk m c 7 t : S8x256.Idx → EReal) (ix2 i q) = Cert.Spec.onehot i q := by
  obtain ⟨-, -, -, -, -, -, -, -, -, -, -, -, -, -, e0, e1, -⟩ := idx_facts t
  have he : ((cfg0.win 7).blk t).view.emb (ix2 i q) = (ix2 i q : S8x256.Idx) := funext fun a => Fin.ext (by
    match a with
    | ⟨0, _⟩ => show win0_7.index t (0 : Fin 2) * 8 + 1 * i.val = i.val; omega
    | ⟨1, _⟩ => show win0_7.index t (1 : Fin 2) * 256 + 1 * q.val = q.val; omega)
  show (V m c main_cst : S8x256.Idx → EReal) (((cfg0.win 7).blk t).view.emb (ix2 i q)) = _
  rw [he]
  exact V_cst_at m c i q

/-! ## What point t stores, in the specification's terms -/

/-- The hidden-state block of point t at (p, n) is hK at row 512·t + p. -/
theorem hPay_blk (c : Dev nD) (t : Fin cfg0.N) (p : Fin 512) (n : Fin 1024) :
    hPay (iblk m c 0 t) (iblk m c 1 t) (iblk m c 2 t) (iblk m c 3 t) (iblk m c 4 t) (ix2 p n)
      = Cert.Spec.hK (argsAt m c) (row t p) n := by
  refine (hPay_at (iblk m c 0 t) (iblk m c 1 t) (iblk m c 2 t) (iblk m c 3 t) (iblk m c 4 t) p n).trans ?_
  simp only [blk_x m c t, blk_h0 m c t, blk_mem m c t, blk_W m c t, blk_bh m c t]
  rfl

/-- The fused row of point t, with its bias, at (p, c') is fusedK at row 512·t + p. -/
theorem fused_blk (c : Dev nD) (t : Fin cfg0.N) (p : Fin 512) (c' : Fin 136) :
    (fusedPay (iblk m c 0 t) (iblk m c 1 t) (iblk m c 2 t) (iblk m c 3 t) (iblk m c 4 t) (iblk m c 5 t) (ix2 p c') : EReal)
        + View.ld (iblk m c 6 t) rBf (ix2 0 c')
      = Cert.Spec.fusedK (argsAt m c) (row t p) c' := by
  refine (congrArg₂ (· + ·)
    (fusedPay_at (iblk m c 0 t) (iblk m c 1 t) (iblk m c 2 t) (iblk m c 3 t) (iblk m c 4 t) (iblk m c 5 t) p c')
    (congrFun (ld_rBf (iblk m c 6 t)) (ix2 0 c'))).trans ?_
  simp only [hPay_blk m c t, blk_mem m c t, blk_Wf m c t, blk_bf m c t]
  rfl

/-! ## The two results as functions of the arguments -/

/-- The hidden state, whole. -/
abbrev Gh (c : Dev nD) : S8192x1024.Idx → EReal := fun i => Cert.Spec.hK (argsAt m c) (i 0) (i 1)
/-- The new memory, whole. -/
abbrev Gm (c : Dev nD) : S8192x256.Idx → EReal := fun i => Cert.Spec.memK (argsAt m c) (i 0) (i 1)

/-- What point t writes back to the hidden-state array is block t of Gh. -/
theorem flushed9_eq (c : Dev nD) (t : Fin cfg0.N) :
    (dats m 0 c).flushed 9 t = ((cfg0.win 9).blk t).view.read (Elt Ideal) (Gh m c) := by
  show (cfg0.win 9).cut (grid0.coords t) ((dats m 0 c).after 9 t) = _
  rw [after0_9]
  unfold out0_9
  rw [View.canon_unit_zero hz]
  funext y
  obtain ⟨p, n, rfl⟩ : ∃ (p : Fin 512) (n : Fin 1024), y = ix2 p n := ⟨y 0, y 1, eq_ix2 y⟩
  obtain ⟨-, -, -, -, -, -, -, -, -, -, -, -, -, -, -, -, -, -, e0, e1⟩ := idx_facts t
  have he : ((cfg0.win 9).blk t).view.emb (ix2 p n) = (ix2 (row t p) n : S8192x1024.Idx) := funext fun a => Fin.ext (by
    match a with
    | ⟨0, _⟩ => show win0_9.index t (0 : Fin 2) * 512 + 1 * p.val = 512 * t.val + p.val; omega
    | ⟨1, _⟩ => show win0_9.index t (1 : Fin 2) * 1024 + 1 * n.val = n.val; omega)
  show hPay (iblk m c 0 t) (iblk m c 1 t) (iblk m c 2 t) (iblk m c 3 t) (iblk m c 4 t) (ix2 p n)
    = Gh m c (((cfg0.win 9).blk t).view.emb (ix2 p n))
  rw [he]
  exact hPay_blk m c t p n

/-- What point t writes back to the new-memory array is block t of Gm. -/
theorem flushed8_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after0_8]
  unfold out0_8
  rw [View.canon_unit_zero hz]
  funext y
  obtain ⟨p, q, rfl⟩ : ∃ (p : Fin 512) (q : Fin 256), y = ix2 p q := ⟨y 0, y 1, eq_ix2 y⟩
  obtain ⟨-, -, -, -, -, -, -, -, -, -, -, -, -, -, -, -, e0, e1, -⟩ := idx_facts t
  have he : ((cfg0.win 8).blk t).view.emb (ix2 p q) = (ix2 (row t p) q : S8192x256.Idx) := funext fun a => Fin.ext (by
    match a with
    | ⟨0, _⟩ => show win0_8.index t (0 : Fin 2) * 512 + 1 * p.val = 512 * t.val + p.val; omega
    | ⟨1, _⟩ => show win0_8.index t (1 : Fin 2) * 256 + 1 * q.val = q.val; omega)
  show memChain (View.ld (iblk m c 2 t) rM)
      (fusedPay (iblk m c 0 t) (iblk m c 1 t) (iblk m c 2 t) (iblk m c 3 t) (iblk m c 4 t) (iblk m c 5 t))
      (View.ld (iblk m c 6 t) rBf) (View.ld (iblk m c 7 t) rR) (ix2 p q)
    = Gm m c (((cfg0.win 8).blk t).view.emb (ix2 p q))
  rw [he]
  refine (memChain_at (View.ld (iblk m c 2 t) rM)
      (fusedPay (iblk m c 0 t) (iblk m c 1 t) (iblk m c 2 t) (iblk m c 3 t) (iblk m c 4 t) (iblk m c 5 t))
      (View.ld (iblk m c 6 t) rBf) (View.ld (iblk m c 7 t) rR) p q).trans ?_
  show Cert.Spec.memRowK _ _ _ q
    = Cert.Spec.memRowK (Cert.Spec.fusedK (argsAt m c) (row t p)) Cert.Spec.onehot ((argsAt m c).mem (row t p) q) q
  refine congr (congr (congr (congrArg Cert.Spec.memRowK ?_) ?_) ?_) rfl
  · funext c'
    exact fused_blk m c t p c'
  · funext i q'
    exact (congrFun (ld_rR (iblk m c 7 t)) (ix2 i q')).trans (blk_R m c t i q')
  · exact (congrFun (ld_rM (iblk m c 2 t)) (ix2 p q)).trans (blk_mem m c t p q)

/-! ## The sixteen blocks tile both arrays -/

theorem mem_blk9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v8_1).slice (win0_9.rect t)).set ↔ _
  rw [View.set_slice_whole, Rect.mem_set_unit]
  exact Iff.rfl

theorem mem_blk8 (t : Fin cfg0.N) (i : S8192x256.Idx) :
    i ∈ ((cfg0.win 8).blk t).view.set ↔ ∀ a : Fin 2, win0_8.index t a * S512x256.size a ≤ (i a).val
      ∧ (i a).val < win0_8.index t a * S512x256.size a + S512x256.size a := by
  show i ∈ ((View.whole main_v8_0).slice (win0_8.rect t)).set ↔ _
  rw [View.set_slice_whole, Rect.mem_set_unit]
  exact Iff.rfl

/-- Row r lies in the block of point r / 512. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < cfg0.N := lt_of_lt_of_eq (by omega : (i 0).val / 512 < 16) N_0.symm
  refine ⟨⟨(i 0).val / 512, hN⟩, flush0_9 _, ?_⟩
  obtain ⟨-, -, -, -, -, -, -, -, -, -, -, -, -, -, -, -, -, -, e0, e1⟩ := idx_facts ⟨(i 0).val / 512, hN⟩
  have e0' : win0_9.index ⟨(i 0).val / 512, hN⟩ (0 : Fin 2) = (i 0).val / 512 := e0
  rw [mem_blk9]
  intro a
  match a with
  | ⟨0, _⟩ =>
    show win0_9.index ⟨(i 0).val / 512, hN⟩ (0 : Fin 2) * 512 ≤ (i 0).val
      ∧ (i 0).val < win0_9.index ⟨(i 0).val / 512, hN⟩ (0 : Fin 2) * 512 + 512
    omega
  | ⟨1, _⟩ =>
    show win0_9.index ⟨(i 0).val / 512, hN⟩ (1 : Fin 2) * 1024 ≤ (i 1).val
      ∧ (i 1).val < win0_9.index ⟨(i 0).val / 512, hN⟩ (1 : Fin 2) * 1024 + 1024
    omega

theorem cover8 (i : S8192x256.Idx) :
    ∃ t : Fin cfg0.N, (cfg0.win 8).flush t = true ∧ i ∈ ((cfg0.win 8).blk t).view.set := by
  have hi0 : (i 0).val < 8192 := (i 0).isLt
  have hi1 : (i 1).val < 256 := (i 1).isLt
  have hN : (i 0).val / 512 < cfg0.N := lt_of_lt_of_eq (by omega : (i 0).val / 512 < 16) N_0.symm
  refine ⟨⟨(i 0).val / 512, hN⟩, flush0_8 _, ?_⟩
  obtain ⟨-, -, -, -, -, -, -, -, -, -, -, -, -, -, -, -, e0, e1, -⟩ := idx_facts ⟨(i 0).val / 512, hN⟩
  have e0' : win0_8.index ⟨(i 0).val / 512, hN⟩ (0 : Fin 2) = (i 0).val / 512 := e0
  rw [mem_blk8]
  intro a
  match a with
  | ⟨0, _⟩ =>
    show win0_8.index ⟨(i 0).val / 512, hN⟩ (0 : Fin 2) * 512 ≤ (i 0).val
      ∧ (i 0).val < win0_8.index ⟨(i 0).val / 512, hN⟩ (0 : Fin 2) * 512 + 512
    omega
  | ⟨1, _⟩ =>
    show win0_8.index ⟨(i 0).val / 512, hN⟩ (1 : Fin 2) * 256 ≤ (i 1).val
      ∧ (i 1).val < win0_8.index ⟨(i 0).val / 512, hN⟩ (1 : Fin 2) * 256 + 256
    omega

/-- The hidden-state array after the run. -/
theorem final9 (c : Dev nD) : (dats m 0 c).arrAt 9 cfg0.N = Gh m c :=
  (dats m 0 c).arrAt_eq_of_cover 9 (Gh m c) (fun t _ => flushed9_eq m c t) cover9
/-- The new-memory array after the run. -/
theorem final8 (c : Dev nD) : (dats m 0 c).arrAt 8 cfg0.N = Gm m c :=
  (dats m 0 c).arrAt_eq_of_cover 8 (Gm m c) (fun t _ => flushed8_eq m c t) cover8

/-! ## The run, read -/

/-- Every weakly fair execution of the kernel program terminates with the new memory at memK, the hidden state at
    hK, and the thirteen arguments as launched. -/
theorem run_value : θ_run defs (onTc (τ := τ) (main (F := Ideal))) ⟨m, fun _ => 0, ρ⟩ fun r => ∀ c : Dev nD,
      r.2.mem ((c.tc : Thread nD τ).loc main_v8_0) = Gm m c
      ∧ r.2.mem ((c.tc : Thread nD τ).loc main_v8_1) = Gh m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 8).trans (final8 m c), ((h c).1 9).trans (final9 m c), kept m r h c⟩)
    (run_main m ρ)

end Cert.KernelIdeal.Hand

end
-- ==== Proof.RefValue.lean ====
import proofs.«422122_j1039382085932_3_alg».proof.Proof.Gen.ReferenceIdeal.Run
import proofs.«422122_j1039382085932_3_alg».proof.Proof.Gen.ReferenceIdeal.Read
import proofs.«422122_j1039382085932_3_alg».proof.Proof.SpecArgs
import Idealize.ShloMosaic.Lib.ValueIdx
import Idealize.ShloMosaic.Lib.Pipeline.Value
import Idealize.ShloMosaic.Lib.ValueLayout
import Idealize.ShloMosaic.PureOps.Ideal.Laws

/-!
# The reference program's two results, read index by index

The reference computes, row by row: the hidden state h = max(cat(x, h0, mem) · W_hᵀ + b_h, 0); four linear layers of
(h, mem); for each of the two wide layers the outer product of its two halves regrouped from 32 × 32 to 4 × 256, the
fifth-power norm of each group with its floor, and the quotient; the difference of the two weighted quotients; the
mean over the four groups added to the old memory. Each stage below is one equation at explicit coordinates, in the
program's own order of operations; the two results are the specification's hR and memR.
-/

noncomputable section

namespace Cert.ReferenceIdeal.RefValue

open Cert.ReferenceIdeal Cert.ReferenceIdeal.Gen Cert.ReferenceIdeal.Read Idealize.ShloMosaic Idealize.ShloMosaic.ValueIdx

/-! ## Indices are determined by their coordinates -/

theorem ext1 {n : Nat} {i j : (⟨1, ![n]⟩ : Shape).Idx} (h0 : i 0 = j 0) : i = j :=
  funext fun a => match a with
    | ⟨0, _⟩ => h0
theorem ext2 {n0 n1 : Nat} {i j : (⟨2, ![n0, n1]⟩ : Shape).Idx} (h0 : i 0 = j 0) (h1 : i 1 = j 1) : i = j :=
  funext fun a => match a with
    | ⟨0, _⟩ => h0
    | ⟨1, _⟩ => h1
theorem ext3 {n0 n1 n2 : Nat} {i j : (⟨3, ![n0, n1, n2]⟩ : Shape).Idx} (h0 : i 0 = j 0) (h1 : i 1 = j 1)
    (h2 : i 2 = j 2) : i = j :=
  funext fun a => match a with
    | ⟨0, _⟩ => h0
    | ⟨1, _⟩ => h1
    | ⟨2, _⟩ => h2

/-- The one coordinate of an axis of extent one. -/
abbrev z1 : Fin 1 := ⟨0, Nat.one_pos⟩

variable (x0 x1 : (⟨S8192x1024, .f32⟩ : BufTy).Contents (Elt Ideal))
  (x2 : (⟨S8192x256, .f32⟩ : BufTy).Contents (Elt Ideal))
  (x3 : (⟨S1024x2304, .f32⟩ : BufTy).Contents (Elt Ideal))
  (x4 : (⟨S1024, .f32⟩ : BufTy).Contents (Elt Ideal))
  (x5 : (⟨S4x1280, .f32⟩ : BufTy).Contents (Elt Ideal))
  (x6 : (⟨S4, .f32⟩ : BufTy).Contents (Elt Ideal))
  (x7 : (⟨S4x1280, .f32⟩ : BufTy).Contents (Elt Ideal))
  (x8 : (⟨S4, .f32⟩ : BufTy).Contents (Elt Ideal))
  (x9 : (⟨S64x1280, .f32⟩ : BufTy).Contents (Elt Ideal))
  (x10 : (⟨S64, .f32⟩ : BufTy).Contents (Elt Ideal))
  (x11 : (⟨S64x1280, .f32⟩ : BufTy).Contents (Elt Ideal))
  (x12 : (⟨S64, .f32⟩ : BufTy).Contents (Elt Ideal))

/-- The specification's arguments read off the thirteen arrays. -/
local notation "𝔸" => Cert.Spec.argsOf x0 x1 x2 x3 x4 x5 x6 x7 x8 x9 x10 x11 x12

/-! ## The hidden state -/

/-- x, h0 and mem side by side: the column decides the piece. -/
theorem ref_cat (b : Fin 8192) (j : Fin 2304) :
    val_main_v0 (F := Ideal) x0 x1 x2 (ix2 b j) = Cert.Spec.catR 𝔸 b j := by
  unfold val_main_v0 Cert.Spec.catR
  by_cases h : j.val < 1024
  · rw [dif_pos h]
    refine concatenate_apply_piece 1 _ _ (ix2 b j) 0 (by simp) S8192x1024 x0 rfl rfl 0 rfl (ix2 b ⟨j.val, h⟩)
      (fun c hc => ?_) ?_
    · match c with
      | ⟨0, _⟩ => rfl
      | ⟨1, _⟩ => exact absurd rfl hc
    · show 0 + j.val = j.val
      omega
  · rw [dif_neg h]
    by_cases h2 : j.val < 2048
    · rw [dif_pos h2]
      refine concatenate_apply_piece 1 _ _ (ix2 b j) 1 (by simp) S8192x1024 x1 rfl rfl 1024 rfl
        (ix2 b ⟨j.val - 1024, by omega⟩) (fun c hc => ?_) ?_
      · match c with
        | ⟨0, _⟩ => rfl
        | ⟨1, _⟩ => exact absurd rfl hc
      · show 1024 + (j.val - 1024) = j.val
        omega
    · rw [dif_neg h2]
      refine concatenate_apply_piece 1 _ _ (ix2 b j) 2 (by simp) S8192x256 x2 rfl rfl 2048 rfl
        (ix2 b ⟨j.val - 2048, by omega⟩) (fun c hc => ?_) ?_
      · match c with
        | ⟨0, _⟩ => rfl
        | ⟨1, _⟩ => exact absurd rfl hc
      · show 2048 + (j.val - 2048) = j.val
        omega

/-- The first result: the product over the concatenated row, plus the bias, floored at zero. -/
theorem ref_h (b : Fin 8192) (n : Fin 1024) :
    val_main_v6 (F := Ideal) x0 x1 x2 x3 x4 (ix2 b n) = Cert.Spec.hR 𝔸 b n := by
  have hl : ∀ k : Fin 2304, lidx_main_v2 (ix2 b n) k = ix2 b k := fun k => ext2 rfl rfl
  have hr : ∀ k : Fin 2304, idx_main_v1 (ridx_main_v2 (ix2 b n) k) = ix2 n k := fun k => ext2 rfl rfl
  have hb : idx_main_v3 (idx_main_v4 (ix2 b n)) = ix1 n := ext1 rfl
  rw [val_main_v6_apply, val_main_v5_apply, val_main_v2_apply, val_main_v4_apply, val_main_v3_apply, hb,
    val_main_call0_v0_apply, val_main_call0_cst_apply]
  refine congrArg₂ max (congrArg₂ (· + ·) (Finset.sum_congr rfl fun k _ => ?_) rfl) rfl
  rw [hl k, val_main_v1_apply, hr k, ref_cat x0 x1 x2 x3 x4 x5 x6 x7 x8 x9 x10 x11 x12]
  rfl

/-- h and mem side by side. -/
theorem ref_hm (b : Fin 8192) (j : Fin 1280) :
    val_main_v7 (F := Ideal) x0 x1 x2 x3 x4 (ix2 b j) = Cert.Spec.hmR 𝔸 b j := by
  unfold val_main_v7 Cert.Spec.hmR
  by_cases h : j.val < 1024
  · rw [dif_pos h, ← ref_h x0 x1 x2 x3 x4 x5 x6 x7 x8 x9 x10 x11 x12 b ⟨j.val, h⟩]
    exact concatenate_pair_apply_left (t := S8192x1280) (s₁ := S8192x1024) (s₂ := S8192x256) 1
      (val_main_v6 (F := Ideal) x0 x1 x2 x3 x4) x2 _ (ix2 b j) rfl (ix2 b ⟨j.val, h⟩) (fun c => by
      match c with
      | ⟨0, _⟩ => rfl
      | ⟨1, _⟩ => rfl)
  · rw [dif_neg h]
    refine concatenate_pair_apply_right (t := S8192x1280) (s₁ := S8192x1024) (s₂ := S8192x256) 1
      (val_main_v6 (F := Ideal) x0 x1 x2 x3 x4) x2 _ (ix2 b j) rfl rfl (ix2 b ⟨j.val - 1024, by omega⟩)
      (fun c hc => ?_) ?_
    · match c with
      | ⟨0, _⟩ => rfl
      | ⟨1, _⟩ => exact absurd rfl hc
    · show (j.val - 1024) + 1024 = j.val
      omega

/-! ## The four linear layers of (h, mem) -/

/-- The coefficients alpha. -/
theorem ref_alpha (b : Fin 8192) (c : Fin 4) :
    val_main_v12 (F := Ideal) x0 x1 x2 x3 x4 x5 x6 (ix2 b c) = Cert.Spec.linR 𝔸 (𝔸).Wa (𝔸).ba b c := by
  have hl : ∀ k : Fin 1280, lidx_main_v9 (ix2 b c) k = ix2 b k := fun k => ext2 rfl rfl
  have hr : ∀ k : Fin 1280, idx_main_v8 (ridx_main_v9 (ix2 b c) k) = ix2 c k := fun k => ext2 rfl rfl
  have hb : idx_main_v10 (idx_main_v11 (ix2 b c)) = ix1 c := ext1 rfl
  rw [val_main_v12_apply, val_main_v9_apply, val_main_v11_apply, val_main_v10_apply, hb]
  refine congrArg₂ (· + ·) (Finset.sum_congr rfl fun k _ => ?_) rfl
  rw [hl k, val_main_v8_apply, hr k, ref_hm x0 x1 x2 x3 x4 x5 x6 x7 x8 x9 x10 x11 x12]
  rfl

/-- The coefficients beta. -/
theorem ref_beta (b : Fin 8192) (c : Fin 4) :
    val_main_v17 (F := Ideal) x0 x1 x2 x3 x4 x7 x8 (ix2 b c) = Cert.Spec.linR 𝔸 (𝔸).Wb (𝔸).bb b c := by
  have hl : ∀ k : Fin 1280, lidx_main_v14 (ix2 b c) k = ix2 b k := fun k => ext2 rfl rfl
  have hr : ∀ k : Fin 1280, idx_main_v13 (ridx_main_v14 (ix2 b c) k) = ix2 c k := fun k => ext2 rfl rfl
  have hb : idx_main_v15 (idx_main_v16 (ix2 b c)) = ix1 c := ext1 rfl
  rw [val_main_v17_apply, val_main_v14_apply, val_main_v16_apply, val_main_v15_apply, hb]
  refine congrArg₂ (· + ·) (Finset.sum_congr rfl fun k _ => ?_) rfl
  rw [hl k, val_main_v13_apply, hr k, ref_hm x0 x1 x2 x3 x4 x5 x6 x7 x8 x9 x10 x11 x12]
  rfl

/-- The first wide layer, its two halves side by side. -/
theorem ref_ua (b : Fin 8192) (c : Fin 64) :
    val_main_v22 (F := Ideal) x0 x1 x2 x3 x4 x9 x10 (ix2 b c) = Cert.Spec.linR 𝔸 (𝔸).Wva (𝔸).bva b c := by
  have hl : ∀ k : Fin 1280, lidx_main_v19 (ix2 b c) k = ix2 b k := fun k => ext2 rfl rfl
  have hr : ∀ k : Fin 1280, idx_main_v18 (ridx_main_v19 (ix2 b c) k) = ix2 c k := fun k => ext2 rfl rfl
  have hb : idx_main_v20 (idx_main_v21 (ix2 b c)) = ix1 c := ext1 rfl
  rw [val_main_v22_apply, val_main_v19_apply, val_main_v21_apply, val_main_v20_apply, hb]
  refine congrArg₂ (· + ·) (Finset.sum_congr rfl fun k _ => ?_) rfl
  rw [hl k, val_main_v18_apply, hr k, ref_hm x0 x1 x2 x3 x4 x5 x6 x7 x8 x9 x10 x11 x12]
  rfl

/-- The second wide layer. -/
theorem ref_ub (b : Fin 8192) (c : Fin 64) :
    val_main_v47 (F := Ideal) x0 x1 x2 x3 x4 x11 x12 (ix2 b c) = Cert.Spec.linR 𝔸 (𝔸).Wvb (𝔸).bvb b c := by
  have hl : ∀ k : Fin 1280, lidx_main_v44 (ix2 b c) k = ix2 b k := fun k => ext2 rfl rfl
  have hr : ∀ k : Fin 1280, idx_main_v43 (ridx_main_v44 (ix2 b c) k) = ix2 c k := fun k => ext2 rfl rfl
  have hb : idx_main_v45 (idx_main_v46 (ix2 b c)) = ix1 c := ext1 rfl
  rw [val_main_v47_apply, val_main_v44_apply, val_main_v46_apply, val_main_v45_apply, hb]
  refine congrArg₂ (· + ·) (Finset.sum_congr rfl fun k _ => ?_) rfl
  rw [hl k, val_main_v43_apply, hr k, ref_hm x0 x1 x2 x3 x4 x5 x6 x7 x8 x9 x10 x11 x12]
  rfl

/-! ## The first normalised outer product -/

/-- The outer product of the two halves of the wide layer, regrouped from 32 × 32 to 4 × 256: the flat position
    256·k + q of a row is 32·(8k + q/32) + q mod 32. -/
theorem ref_va (b : Fin 8192) (k : Fin 4) (q : Fin 256) :
    val_main_v30 (F := Ideal) x0 x1 x2 x3 x4 x9 x10 (ix3 b k q)
      = Cert.Spec.vR (Cert.Spec.linR 𝔸 (𝔸).Wva (𝔸).bva b) k q := by
  have h0 : idx_main_v23 (idx_main_v25 (idx_main_v27 (idx_main_v30 (ix3 b k q))))
      = ix2 b ⟨8 * k.val + q.val / 32, by omega⟩ :=
    ext2 (Fin.ext (by show ((b.val * 4 + k.val) * 256 + q.val) / 1024 = b.val; omega))
      (Fin.ext (by show ((b.val * 4 + k.val) * 256 + q.val) / 32 % 32 = 8 * k.val + q.val / 32; omega))
  have h1 : idx_main_v24 (idx_main_v26 (idx_main_v28 (idx_main_v30 (ix3 b k q))))
      = ix2 b ⟨32 + q.val % 32, by omega⟩ :=
    ext2 (Fin.ext (by show ((b.val * 4 + k.val) * 256 + q.val) / 1024 = b.val; omega))
      (Fin.ext (by show 32 + ((b.val * 4 + k.val) * 256 + q.val) % 32 = 32 + q.val % 32; omega))
  rw [val_main_v30_apply, val_main_v29_apply, val_main_v27_apply, val_main_v25_apply,
    val_main_v23_apply, h0, val_main_v28_apply, val_main_v26_apply, val_main_v24_apply, h1,
    ref_ua x0 x1 x2 x3 x4 x5 x6 x7 x8 x9 x10 x11 x12, ref_ua x0 x1 x2 x3 x4 x5 x6 x7 x8 x9 x10 x11 x12]
  rfl

/-- The fifth power of the absolute value, in the program's order of multiplications. -/
theorem ref_pa (b : Fin 8192) (k : Fin 4) (q : Fin 256) :
    val_main_v34 (F := Ideal) x0 x1 x2 x3 x4 x9 x10 (ix3 b k q)
      = Cert.Spec.pow5R (Cert.Spec.vR (Cert.Spec.linR 𝔸 (𝔸).Wva (𝔸).bva b) k q) := by
  rw [val_main_v34_apply, val_main_v33_apply, val_main_v32_apply, val_main_v31_apply,
    ref_va x0 x1 x2 x3 x4 x5 x6 x7 x8 x9 x10 x11 x12]
  rfl

/-- The norm of a group: the sum of the 256 fifth powers from zero, the power 0.2, the floor. -/
theorem ref_na (b : Fin 8192) (k : Fin 4) :
    val_main_v40 (F := Ideal) x0 x1 x2 x3 x4 x9 x10 (ix3 b k z1)
      = Cert.Spec.normR (Cert.Spec.linR 𝔸 (𝔸).Wva (𝔸).bva b) k := by
  have hi : idx_main_v36 (ix3 b k z1) = ix2 b k := ext2 rfl rfl
  have hk : ∀ q : Fin 256, idx_main_v35 (ix2 b k) q = ix3 b k q := fun q => ext3 rfl rfl rfl
  rw [val_main_v40_apply, val_main_v38_apply, val_main_v36_apply, hi, val_main_v35_apply,
    val_main_cst_apply, val_main_v37_apply, val_main_cst_0_apply, val_main_v39_apply,
    val_main_cst_1_apply]
  refine congrArg₂ max (congrArg₂ Ideal.pow (congrArg₂ (· + ·) rfl (Finset.sum_congr rfl fun q _ => ?_)) rfl) rfl
  rw [hk q, ref_pa x0 x1 x2 x3 x4 x5 x6 x7 x8 x9 x10 x11 x12]

/-- An entry of the outer product over the norm of its group. -/
theorem ref_da (b : Fin 8192) (k : Fin 4) (q : Fin 256) :
    val_main_v42 (F := Ideal) x0 x1 x2 x3 x4 x9 x10 (ix3 b k q)
      = Ideal.div (Cert.Spec.vR (Cert.Spec.linR 𝔸 (𝔸).Wva (𝔸).bva b) k q)
          (Cert.Spec.normR (Cert.Spec.linR 𝔸 (𝔸).Wva (𝔸).bva b) k) := by
  have hi : idx_main_v41 (ix3 b k q) = ix3 b k z1 := ext3 rfl rfl rfl
  rw [val_main_v42_apply, val_main_v41_apply, hi, ref_va x0 x1 x2 x3 x4 x5 x6 x7 x8 x9 x10 x11 x12, ref_na x0 x1 x2 x3 x4 x5 x6 x7 x8 x9 x10 x11 x12]
  rfl

/-! ## The second normalised outer product -/

/-- The outer product of the two halves of the wide layer, regrouped from 32 × 32 to 4 × 256: the flat position
    256·k + q of a row is 32·(8k + q/32) + q mod 32. -/
theorem ref_vb (b : Fin 8192) (k : Fin 4) (q : Fin 256) :
    val_main_v55 (F := Ideal) x0 x1 x2 x3 x4 x11 x12 (ix3 b k q)
      = Cert.Spec.vR (Cert.Spec.linR 𝔸 (𝔸).Wvb (𝔸).bvb b) k q := by
  have h0 : idx_main_v48 (idx_main_v50 (idx_main_v52 (idx_main_v55 (ix3 b k q))))
      = ix2 b ⟨8 * k.val + q.val / 32, by omega⟩ :=
    ext2 (Fin.ext (by show ((b.val * 4 + k.val) * 256 + q.val) / 1024 = b.val; omega))
      (Fin.ext (by show ((b.val * 4 + k.val) * 256 + q.val) / 32 % 32 = 8 * k.val + q.val / 32; omega))
  have h1 : idx_main_v49 (idx_main_v51 (idx_main_v53 (idx_main_v55 (ix3 b k q))))
      = ix2 b ⟨32 + q.val % 32, by omega⟩ :=
    ext2 (Fin.ext (by show ((b.val * 4 + k.val) * 256 + q.val) / 1024 = b.val; omega))
      (Fin.ext (by show 32 + ((b.val * 4 + k.val) * 256 + q.val) % 32 = 32 + q.val % 32; omega))
  rw [val_main_v55_apply, val_main_v54_apply, val_main_v52_apply, val_main_v50_apply,
    val_main_v48_apply, h0, val_main_v53_apply, val_main_v51_apply, val_main_v49_apply, h1,
    ref_ub x0 x1 x2 x3 x4 x5 x6 x7 x8 x9 x10 x11 x12, ref_ub x0 x1 x2 x3 x4 x5 x6 x7 x8 x9 x10 x11 x12]
  rfl

/-- The fifth power of the absolute value, in the program's order of multiplications. -/
theorem ref_pb (b : Fin 8192) (k : Fin 4) (q : Fin 256) :
    val_main_v59 (F := Ideal) x0 x1 x2 x3 x4 x11 x12 (ix3 b k q)
      = Cert.Spec.pow5R (Cert.Spec.vR (Cert.Spec.linR 𝔸 (𝔸).Wvb (𝔸).bvb b) k q) := by
  rw [val_main_v59_apply, val_main_v58_apply, val_main_v57_apply, val_main_v56_apply,
    ref_vb x0 x1 x2 x3 x4 x5 x6 x7 x8 x9 x10 x11 x12]
  rfl

/-- The norm of a group: the sum of the 256 fifth powers from zero, the power 0.2, the floor. -/
theorem ref_nb (b : Fin 8192) (k : Fin 4) :
    val_main_v65 (F := Ideal) x0 x1 x2 x3 x4 x11 x12 (ix3 b k z1)
      = Cert.Spec.normR (Cert.Spec.linR 𝔸 (𝔸).Wvb (𝔸).bvb b) k := by
  have hi : idx_main_v61 (ix3 b k z1) = ix2 b k := ext2 rfl rfl
  have hk : ∀ q : Fin 256, idx_main_v60 (ix2 b k) q = ix3 b k q := fun q => ext3 rfl rfl rfl
  rw [val_main_v65_apply, val_main_v63_apply, val_main_v61_apply, hi, val_main_v60_apply,
    val_main_cst_2_apply, val_main_v62_apply, val_main_cst_3_apply, val_main_v64_apply,
    val_main_cst_4_apply]
  refine congrArg₂ max (congrArg₂ Ideal.pow (congrArg₂ (· + ·) rfl (Finset.sum_congr rfl fun q _ => ?_)) rfl) rfl
  rw [hk q, ref_pb x0 x1 x2 x3 x4 x5 x6 x7 x8 x9 x10 x11 x12]

/-- An entry of the outer product over the norm of its group. -/
theorem ref_db (b : Fin 8192) (k : Fin 4) (q : Fin 256) :
    val_main_v67 (F := Ideal) x0 x1 x2 x3 x4 x11 x12 (ix3 b k q)
      = Ideal.div (Cert.Spec.vR (Cert.Spec.linR 𝔸 (𝔸).Wvb (𝔸).bvb b) k q)
          (Cert.Spec.normR (Cert.Spec.linR 𝔸 (𝔸).Wvb (𝔸).bvb b) k) := by
  have hi : idx_main_v66 (ix3 b k q) = ix3 b k z1 := ext3 rfl rfl rfl
  rw [val_main_v67_apply, val_main_v66_apply, hi, ref_vb x0 x1 x2 x3 x4 x5 x6 x7 x8 x9 x10 x11 x12, ref_nb x0 x1 x2 x3 x4 x5 x6 x7 x8 x9 x10 x11 x12]
  rfl

/-! ## The difference of the weighted quotients and the new memory -/

/-- alpha times the first quotient less beta times the second. -/
theorem ref_delta (b : Fin 8192) (k : Fin 4) (q : Fin 256) :
    val_main_v74 (F := Ideal) x0 x1 x2 x3 x4 x5 x6 x7 x8 x9 x10 x11 x12 (ix3 b k q)
      = Cert.Spec.deltaR (Cert.Spec.linR 𝔸 (𝔸).Wva (𝔸).bva b) (Cert.Spec.linR 𝔸 (𝔸).Wvb (𝔸).bvb b)
          (Cert.Spec.linR 𝔸 (𝔸).Wa (𝔸).ba b) (Cert.Spec.linR 𝔸 (𝔸).Wb (𝔸).bb b) k q := by
  have hi : idx_main_v68 (idx_main_v69 (ix3 b k q)) = ix2 b k := ext2 rfl rfl
  have hj : idx_main_v71 (idx_main_v72 (ix3 b k q)) = ix2 b k := ext2 rfl rfl
  rw [val_main_v74_apply, val_main_v70_apply, val_main_v69_apply, val_main_v68_apply, hi, val_main_v73_apply,
    val_main_v72_apply, val_main_v71_apply, hj, ref_alpha x0 x1 x2 x3 x4 x5 x6 x7 x8 x9 x10 x11 x12, ref_beta x0 x1 x2 x3 x4 x5 x6 x7 x8 x9 x10 x11 x12, ref_da x0 x1 x2 x3 x4 x5 x6 x7 x8 x9 x10 x11 x12, ref_db x0 x1 x2 x3 x4 x5 x6 x7 x8 x9 x10 x11 x12]
  rfl

/-- The second result: the old memory plus the mean of the four differences, taken as their sum from zero over 4. -/
theorem ref_mem (b : Fin 8192) (q : Fin 256) :
    val_main_v78 (F := Ideal) x0 x1 x2 x3 x4 x5 x6 x7 x8 x9 x10 x11 x12 (ix2 b q) = Cert.Spec.memR 𝔸 b q := by
  have hk : ∀ k : Fin 4, idx_main_v75 (ix2 b q) k = ix3 b k q := fun k => ext3 rfl rfl rfl
  rw [val_main_v78_apply, val_main_v77_apply, val_main_v75_apply, val_main_cst_5_apply, val_main_v76_apply,
    val_main_cst_6_apply]
  refine congrArg₂ (· + ·) rfl (congrArg₂ Ideal.div (congrArg₂ (· + ·) rfl (Finset.sum_congr rfl fun k _ => ?_)) rfl)
  rw [hk k, ref_delta x0 x1 x2 x3 x4 x5 x6 x7 x8 x9 x10 x11 x12]

end Cert.ReferenceIdeal.RefValue

end
-- ==== Proof.AlgLin.lean ====
import proofs.«422122_j1039382085932_3_alg».proof.Proof.Spec
import Mathlib.Data.EReal.Basic
import Mathlib.Data.EReal.Operations
import Mathlib.Algebra.BigOperators.Fin

/-!
# The linear part: partial products against one product over a concatenated row

A sum over an index range of length a + b is the sum over its first a indices plus the sum over its last b.
Applied twice, the product of the concatenated row (x, h0, mem) against a row of W_h is the sum of the three
partial products; applied once, a linear layer over (h, mem) is the sum of its h part and its mem part. Addition
of extended reals is commutative and associative, so the re-association needs no finiteness. Finiteness is
carried separately: sums, products and maxima of real numbers are real.
-/

noncomputable section

namespace Cert.Spec

open Idealize.ShloMosaic

/-! ## Splitting a finite sum at an index -/

/-- A sum over the first n = a + b indices is the sum over the first a plus the sum over the following b. -/
theorem sum_fin_split {M : Type*} [AddCommMonoid M] (a b n : ℕ) (h : a + b = n) (f : Fin n → M) :
    ∑ j : Fin n, f j
      = (∑ j : Fin a, f ⟨j.val, by omega⟩) + ∑ j : Fin b, f ⟨a + j.val, by omega⟩ := by
  subst h
  rw [Fin.sum_univ_add]
  rfl

/-! ## Real numbers inside the extended reals are closed under +, * , max and finite sums -/

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

theorem real_sum {ι : Type*} (s : Finset ι) (f : ι → EReal)
    (h : ∀ i ∈ s, ∃ r : ℝ, f i = (r : EReal)) : ∃ r : ℝ, ∑ i ∈ s, f i = (r : EReal) :=
  Finset.sum_induction f (fun a => ∃ r : ℝ, a = (r : EReal)) (fun _ _ ha hb => real_add ha hb)
    ⟨0, rfl⟩ h

/-- The literal zero is the real number zero. -/
theorem zeroE_eq : zeroE = 0 := by simp [Ideal.ofBits, Ideal.ieee]

theorem zeroE_real : ∃ r : ℝ, zeroE = (r : EReal) := ⟨0, zeroE_eq⟩

/-! ## The hidden state -/

/-- The concatenated row read on each of its three stretches. -/
theorem catR_lo (A : Args) (b : Fin 8192) (j : Fin 1024) :
    catR A b ⟨j.val, by omega⟩ = A.x b j := by
  have hj : j.val < 1024 := j.isLt
  simp only [catR, dif_pos hj]

theorem catR_mid (A : Args) (b : Fin 8192) (j : Fin 1024) :
    catR A b ⟨1024 + j.val, by omega⟩ = A.h0 b j := by
  have h1 : ¬ (1024 + j.val < 1024) := by omega
  have h2 : 1024 + j.val < 2048 := by omega
  simp only [catR, dif_neg h1, dif_pos h2]
  congr 1
  exact Fin.ext (by simp)

theorem catR_hi (A : Args) (b : Fin 8192) (j : Fin 256) :
    catR A b ⟨2048 + j.val, by omega⟩ = A.mem b j := by
  have h1 : ¬ (2048 + j.val < 1024) := by omega
  have h2 : ¬ (2048 + j.val < 2048) := by omega
  simp only [catR, dif_neg h1, dif_neg h2]
  congr 1
  exact Fin.ext (by simp)

/-- The one product over the concatenated row is the sum of the three partial products. -/
theorem catR_sum (A : Args) (b : Fin 8192) (n : Fin 1024) :
    ∑ j : Fin 2304, catR A b j * A.Wh n j
      = ((∑ j : Fin 1024, A.x b j * A.Wh n ⟨j.val, by omega⟩)
          + (∑ j : Fin 1024, A.h0 b j * A.Wh n ⟨1024 + j.val, by omega⟩))
        + (∑ j : Fin 256, A.mem b j * A.Wh n ⟨2048 + j.val, by omega⟩) := by
  have h1 : (∑ j : Fin 1024, catR A b ⟨j.val, by omega⟩ * A.Wh n ⟨j.val, by omega⟩)
      = ∑ j : Fin 1024, A.x b j * A.Wh n ⟨j.val, by omega⟩ :=
    Finset.sum_congr rfl (fun j _ => by rw [catR_lo])
  have h2 : (∑ j : Fin 1024, catR A b ⟨1024 + j.val, by omega⟩ * A.Wh n ⟨1024 + j.val, by omega⟩)
      = ∑ j : Fin 1024, A.h0 b j * A.Wh n ⟨1024 + j.val, by omega⟩ :=
    Finset.sum_congr rfl (fun j _ => by rw [catR_mid])
  have h3 : (∑ j : Fin 256, catR A b ⟨1024 + (1024 + j.val), by omega⟩
        * A.Wh n ⟨1024 + (1024 + j.val), by omega⟩)
      = ∑ j : Fin 256, A.mem b j * A.Wh n ⟨2048 + j.val, by omega⟩ := by
    refine Finset.sum_congr rfl (fun j _ => ?_)
    have e : (⟨1024 + (1024 + j.val), by omega⟩ : Fin 2304) = ⟨2048 + j.val, by omega⟩ :=
      Fin.ext (by show 1024 + (1024 + j.val) = 2048 + j.val; omega)
    rw [e, catR_hi]
  rw [sum_fin_split 1024 1280 2304 (by norm_num) (fun j => catR A b j * A.Wh n j)]
  rw [sum_fin_split 1024 256 1280 (by norm_num)
    (fun j : Fin 1280 => catR A b ⟨1024 + j.val, by omega⟩ * A.Wh n ⟨1024 + j.val, by omega⟩)]
  rw [← add_assoc]
  exact congrArg₂ (· + ·) (congrArg₂ (· + ·) h1 h2) h3

theorem hK_eq_hR (A : Args) (hA : A.Real) (b : Fin 8192) (n : Fin 1024) : hK A b n = hR A b n := by
  unfold hK hR
  rw [catR_sum]

theorem catR_real (A : Args) (hA : A.Real) (b : Fin 8192) (j : Fin 2304) :
    ∃ r : ℝ, catR A b j = (r : EReal) := by
  unfold catR
  split_ifs
  · exact hA.x _ _
  · exact hA.h0 _ _
  · exact hA.mem _ _

theorem hR_real (A : Args) (hA : A.Real) (b : Fin 8192) (n : Fin 1024) :
    ∃ r : ℝ, hR A b n = (r : EReal) := by
  unfold hR
  refine real_max (real_add (real_sum _ _ (fun j _ => ?_)) (hA.bh n)) zeroE_real
  exact real_mul (catR_real A hA b j) (hA.Wh n j)

/-! ## The fused projection -/

theorem hmR_lo (A : Args) (b : Fin 8192) (j : Fin 1024) :
    hmR A b ⟨j.val, by omega⟩ = hR A b j := by
  have hj : j.val < 1024 := j.isLt
  simp only [hmR, dif_pos hj]

theorem hmR_hi (A : Args) (b : Fin 8192) (j : Fin 256) :
    hmR A b ⟨1024 + j.val, by omega⟩ = A.mem b j := by
  have h1 : ¬ (1024 + j.val < 1024) := by omega
  simp only [hmR, dif_neg h1]
  congr 1
  exact Fin.ext (by simp)

/-- A row of the stacked weights that is a row of one of the four matrices makes the fused projection that
    matrix's linear layer. -/
theorem fusedK_eq_linR (A : Args) (hA : A.Real) {K : ℕ} (W : Fin K → Fin 1280 → EReal)
    (bias : Fin K → EReal) (b : Fin 8192) (c' : Fin 136) (c : Fin K)
    (hW : ∀ j, Wf A c' j = W c j) (hb : bf A c' = bias c) :
    fusedK A b c' = linR A W bias b c := by
  unfold fusedK linR
  rw [sum_fin_split 1024 256 1280 (by norm_num) (fun j => hmR A b j * W c j), hb]
  congr 2
  · exact Finset.sum_congr rfl (fun j _ => by rw [hmR_lo, hK_eq_hR A hA, hW])
  · exact Finset.sum_congr rfl (fun j _ => by rw [hmR_hi, hW])

theorem fusedK_va (A : Args) (hA : A.Real) (b : Fin 8192) (c : Fin 64) :
    fusedK A b ⟨c.val, by omega⟩ = linR A A.Wva A.bva b c := by
  have hc : c.val < 64 := c.isLt
  refine fusedK_eq_linR A hA A.Wva A.bva b _ c (fun j => ?_) ?_
  · simp only [Wf, dif_pos hc]
  · simp only [bf, dif_pos hc]

theorem fusedK_vb (A : Args) (hA : A.Real) (b : Fin 8192) (c : Fin 64) :
    fusedK A b ⟨64 + c.val, by omega⟩ = linR A A.Wvb A.bvb b c := by
  have h1 : ¬ (64 + c.val < 64) := by omega
  have h2 : 64 + c.val < 128 := by omega
  have e : (⟨64 + c.val - 64, by omega⟩ : Fin 64) = c := Fin.ext (by simp)
  refine fusedK_eq_linR A hA A.Wvb A.bvb b _ c (fun j => ?_) ?_
  · simp only [Wf, dif_neg h1, dif_pos h2, e]
  · simp only [bf, dif_neg h1, dif_pos h2, e]

theorem fusedK_a (A : Args) (hA : A.Real) (b : Fin 8192) (k : Fin 4) :
    fusedK A b ⟨128 + k.val, by omega⟩ = linR A A.Wa A.ba b k := by
  have h1 : ¬ (128 + k.val < 64) := by omega
  have h2 : ¬ (128 + k.val < 128) := by omega
  have h3 : 128 + k.val < 132 := by omega
  have e : (⟨128 + k.val - 128, by omega⟩ : Fin 4) = k := Fin.ext (by simp)
  refine fusedK_eq_linR A hA A.Wa A.ba b _ k (fun j => ?_) ?_
  · simp only [Wf, dif_neg h1, dif_neg h2, dif_pos h3, e]
  · simp only [bf, dif_neg h1, dif_neg h2, dif_pos h3, e]

theorem fusedK_b (A : Args) (hA : A.Real) (b : Fin 8192) (k : Fin 4) :
    fusedK A b ⟨132 + k.val, by omega⟩ = linR A A.Wb A.bb b k := by
  have h1 : ¬ (132 + k.val < 64) := by omega
  have h2 : ¬ (132 + k.val < 128) := by omega
  have h3 : ¬ (132 + k.val < 132) := by omega
  have e : (⟨132 + k.val - 132, by omega⟩ : Fin 4) = k := Fin.ext (by simp)
  refine fusedK_eq_linR A hA A.Wb A.bb b _ k (fun j => ?_) ?_
  · simp only [Wf, dif_neg h1, dif_neg h2, dif_neg h3, e]
  · simp only [bf, dif_neg h1, dif_neg h2, dif_neg h3, e]

theorem Wf_real (A : Args) (hA : A.Real) (c : Fin 136) (j : Fin 1280) :
    ∃ r : ℝ, Wf A c j = (r : EReal) := by
  unfold Wf
  split_ifs
  · exact hA.Wva _ _
  · exact hA.Wvb _ _
  · exact hA.Wa _ _
  · exact hA.Wb _ _

theorem bf_real (A : Args) (hA : A.Real) (c : Fin 136) : ∃ r : ℝ, bf A c = (r : EReal) := by
  unfold bf
  split_ifs
  · exact hA.bva _
  · exact hA.bvb _
  · exact hA.ba _
  · exact hA.bb _

theorem fusedK_real (A : Args) (hA : A.Real) (b : Fin 8192) (c : Fin 136) :
    ∃ r : ℝ, fusedK A b c = (r : EReal) := by
  unfold fusedK
  refine real_add (real_add (real_sum _ _ (fun j _ => ?_)) (real_sum _ _ (fun j _ => ?_))) (bf_real A hA c)
  · rw [hK_eq_hR A hA]
    exact real_mul (hR_real A hA b j) (Wf_real A hA c _)
  · exact real_mul (hA.mem b j) (Wf_real A hA c _)

end Cert.Spec

end
-- ==== Proof.AlgRow.lean ====
import proofs.«422122_j1039382085932_3_alg».proof.Proof.Spec
import Mathlib.Analysis.SpecialFunctions.Pow.Real
import Mathlib.Analysis.SpecialFunctions.Log.Basic
import Mathlib.Data.EReal.Basic
import Mathlib.Data.EReal.Operations
import Mathlib.Data.EReal.Inv
import Mathlib.Algebra.BigOperators.Fin
import Mathlib.Algebra.BigOperators.Ring.Finset
import Mathlib.Tactic.Ring
import Mathlib.Tactic.FinCases
import Mathlib.Tactic.Positivity
import Mathlib.Tactic.NormNum

/-!
# One row of the memory update: the factorized fifth-power norm against the direct one

All entries are real numbers, so both sides are computed in the reals and compared there. The kernel takes
the norm of the outer product u0 ⊗ u1 as a product of two sums of fifth powers, the reference as one sum over
the 256 entries of a group; the two agree because |ab|^5 = |a|^5 |b|^5 and a double sum of products is a
product of sums. The fifth root exp(c · log s) (s > 0; 0 at s = 0) is the real power s^c. The one-hot
expansion picks the entry q / 32 of its eight-vector. What is left is distributivity.
-/

noncomputable section

namespace Cert.Spec

open Idealize.ShloMosaic

namespace AlgRow

/-! ## The literals as real numbers -/

/-- the exponent: the single-precision number nearest 0.2 -/
def c02 : ℝ := 13421773 / 67108864
/-- the floor of a norm: the single-precision number nearest 1e-12 -/
def eps : ℝ := 9223372 / 9223372036854775808

theorem c02_pos : 0 < c02 := by unfold c02; norm_num
theorem eps_pos : 0 < eps := by unfold eps; norm_num

theorem zeroE_eq : zeroE = 0 := by
  simp [zeroE, Ideal.ofBits, Ideal.ieee]

theorem oneE_eq : oneE = 1 := by
  simp [oneE, Ideal.ofBits, Ideal.ieee, -EReal.coe_mul]; norm_num

theorem quarterE_eq : quarterE = ((1 / 4 : ℝ) : EReal) := by
  simp [quarterE, Ideal.ofBits, Ideal.ieee, -EReal.coe_mul]; norm_num

theorem fourE_eq : fourE = ((4 : ℝ) : EReal) := by
  simp [fourE, Ideal.ofBits, Ideal.ieee, -EReal.coe_mul]; norm_num

theorem c02E_eq : c02E = ((c02 : ℝ) : EReal) := by
  unfold c02
  simp [c02E, Ideal.ofBits, Ideal.ieee, -EReal.coe_mul]; norm_num

theorem epsE_eq : epsE = ((eps : ℝ) : EReal) := by
  unfold eps
  simp [epsE, Ideal.ofBits, Ideal.ieee, -EReal.coe_mul]; norm_num

/-! ## Coercion of a maximum and of a finite sum -/

theorem coe_max (a b : ℝ) : ((max a b : ℝ) : EReal) = max (a : EReal) (b : EReal) :=
  EReal.coe_strictMono.monotone.map_max

theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-! ## The absolute value and the fifth power -/

theorem absE_coe (r : ℝ) : absE (r : EReal) = ((|r| : ℝ) : EReal) := by
  rw [absE, ← EReal.coe_neg, ← coe_max, ← abs_eq_max_neg]

theorem pow5K_coe (r : ℝ) : pow5K (r : EReal) = ((|r| ^ 5 : ℝ) : EReal) := by
  simp only [pow5K, absE_coe, ← EReal.coe_mul]
  congr 1; ring

theorem pow5R_coe (r : ℝ) : pow5R (r : EReal) = ((|r| ^ 5 : ℝ) : EReal) := by
  simp only [pow5R, absE_coe, ← EReal.coe_mul]
  congr 1; ring

/-! ## The fifth root with its floor -/

/-- For s ≥ 0 the kernel's exp(c · log s) (taken as 0 at s = 0) is the real power s^c. -/
theorem normK_coe {s : ℝ} (hs : 0 ≤ s) : normK (s : EReal) = ((max (s ^ c02) eps : ℝ) : EReal) := by
  rw [coe_max, ← epsE_eq]
  unfold normK
  congr 1
  rcases hs.lt_or_eq with h | h
  · have h' : (0 : EReal) < (s : EReal) := EReal.coe_pos.mpr h
    rw [if_pos h', if_pos h', c02E_eq, Ideal.log_coe, if_neg (not_le.mpr h), ← EReal.coe_mul, Ideal.exp_coe,
      Real.rpow_def_of_pos h, mul_comm]
  · subst h
    have h' : ¬ (0 : EReal) < ((0 : ℝ) : EReal) := by simp
    rw [if_neg h', zeroE_eq, Real.zero_rpow c02_pos.ne', EReal.coe_zero]

/-! ## The sums of fifth powers -/

/-- the sum over the k-th group of eight entries of u0 -/
def S0 (u : Fin 64 → ℝ) (k : Fin 4) : ℝ := ∑ r : Fin 8, |u ⟨8 * k.val + r.val, by omega⟩| ^ 5
/-- the sum over u1 -/
def S1 (u : Fin 64 → ℝ) : ℝ := ∑ j : Fin 32, |u ⟨32 + j.val, by omega⟩| ^ 5
/-- the reference's direct sum over the 256 entries of group k of the outer product -/
def SR (u : Fin 64 → ℝ) (k : Fin 4) : ℝ :=
  ∑ q : Fin 256, |u ⟨8 * k.val + q.val / 32, by omega⟩ * u ⟨32 + q.val % 32, by omega⟩| ^ 5
/-- the norm both programs divide by -/
def N (u : Fin 64 → ℝ) (k : Fin 4) : ℝ := max ((S0 u k * S1 u) ^ c02) eps

theorem S0_nonneg (u : Fin 64 → ℝ) (k : Fin 4) : 0 ≤ S0 u k :=
  Finset.sum_nonneg (fun _ _ => by positivity)
theorem S1_nonneg (u : Fin 64 → ℝ) : 0 ≤ S1 u :=
  Finset.sum_nonneg (fun _ _ => by positivity)
theorem N_pos (u : Fin 64 → ℝ) (k : Fin 4) : 0 < N u k :=
  lt_of_lt_of_le eps_pos (le_max_right _ _)

/-- q ↦ (q / 32, q mod 32) -/
def split : Fin 256 ≃ Fin 8 × Fin 32 where
  toFun q := (⟨q.val / 32, by omega⟩, ⟨q.val % 32, by omega⟩)
  invFun p := ⟨32 * p.1.val + p.2.val, by omega⟩
  left_inv q := by
    apply Fin.ext
    show 32 * (q.val / 32) + q.val % 32 = q.val
    omega
  right_inv p := by
    obtain ⟨⟨a, ha⟩, ⟨b, hb⟩⟩ := p
    apply Prod.ext
    · apply Fin.ext
      show (32 * a + b) / 32 = a
      omega
    · apply Fin.ext
      show (32 * a + b) % 32 = b
      omega

/-- The factorization: the sum over the 256 entries of |a·b|^5 is the product of the two sums. -/
theorem sum_split (a : Fin 8 → ℝ) (b : Fin 32 → ℝ) :
    ∑ q : Fin 256, |a ⟨q.val / 32, by omega⟩ * b ⟨q.val % 32, by omega⟩| ^ 5
      = (∑ r : Fin 8, |a r| ^ 5) * (∑ j : Fin 32, |b j| ^ 5) := by
  rw [Finset.sum_mul_sum, ← Finset.sum_product']
  refine Fintype.sum_equiv split _ _ (fun q => ?_)
  show |a ⟨q.val / 32, _⟩ * b ⟨q.val % 32, _⟩| ^ 5 = |a ⟨q.val / 32, _⟩| ^ 5 * |b ⟨q.val % 32, _⟩| ^ 5
  rw [abs_mul, mul_pow]

theorem SR_eq (u : Fin 64 → ℝ) (k : Fin 4) : SR u k = S0 u k * S1 u :=
  sum_split (fun r => u ⟨8 * k.val + r.val, by omega⟩) (fun j => u ⟨32 + j.val, by omega⟩)

theorem s0K_coe (u : Fin 64 → ℝ) (k : Fin 4) :
    s0K (fun c => (u c : EReal)) k = ((S0 u k : ℝ) : EReal) := by
  unfold S0
  rw [coe_sum]; unfold s0K; simp only [pow5K_coe]

theorem s1K_coe (u : Fin 64 → ℝ) : s1K (fun c => (u c : EReal)) = ((S1 u : ℝ) : EReal) := by
  unfold S1
  rw [coe_sum]; unfold s1K; simp only [pow5K_coe]

theorem normK_s (u : Fin 64 → ℝ) (k : Fin 4) :
    normK (s0K (fun c => (u c : EReal)) k * s1K (fun c => (u c : EReal))) = ((N u k : ℝ) : EReal) := by
  rw [s0K_coe, s1K_coe, ← EReal.coe_mul, normK_coe (mul_nonneg (S0_nonneg u k) (S1_nonneg u))]
  rfl

theorem normR_coe (u : Fin 64 → ℝ) (k : Fin 4) :
    normR (fun c => (u c : EReal)) k = ((N u k : ℝ) : EReal) := by
  unfold normR vR
  simp only [← EReal.coe_mul, pow5R_coe]
  rw [← coe_sum, zeroE_eq, zero_add, c02E_eq, Ideal.pow_coe_coe, epsE_eq, ← coe_max]
  unfold N
  rw [← SR_eq]
  rfl

/-! ## The kernel's contribution of one branch, as a real formula -/

/-- coefficient over norm, times the entry 8k + r of u0 -/
def T (u : Fin 64 → ℝ) (co : Fin 4 → ℝ) (k : Fin 4) (r : Fin 8) : ℝ :=
  co k * (1 / N u k) * u ⟨8 * k.val + r.val, by omega⟩

theorem termK_coe (u : Fin 64 → ℝ) (co : Fin 4 → ℝ) (k : Fin 4) (r : Fin 8) :
    termK (fun c => (u c : EReal)) (fun k => (co k : EReal)) k r = ((T u co k r : ℝ) : EReal) := by
  unfold termK T
  rw [normK_s, Ideal.div_coe (N_pos u k).ne']
  simp only [← EReal.coe_mul]

theorem gK_coe (u : Fin 64 → ℝ) (co : Fin 4 → ℝ) (r : Fin 8) :
    gK (fun c => (u c : EReal)) (fun k => (co k : EReal)) r
      = ((((T u co 0 r + T u co 1 r) + T u co 2 r) + T u co 3 r : ℝ) : EReal) := by
  unfold gK
  rw [termK_coe, termK_coe, termK_coe, termK_coe]
  simp only [← EReal.coe_add]

/-- The one-hot expansion picks the entry q / 32: every other term is a product with 0. -/
theorem expandK_onehot (g : Fin 8 → EReal) (q : Fin 256) :
    expandK g onehot q = g ⟨q.val / 32, by omega⟩ := by
  have h8 : q.val / 32 < 8 := by omega
  generalize hi : (⟨q.val / 32, h8⟩ : Fin 8) = i
  have hv : q.val / 32 = i.val := by rw [← hi]
  unfold expandK onehot
  simp only [hv, zeroE_eq, oneE_eq]
  fin_cases i <;> simp

theorem contribK_coe (u : Fin 64 → ℝ) (co : Fin 4 → ℝ) (q : Fin 256) :
    contribK (fun c => (u c : EReal)) (fun k => (co k : EReal)) onehot q
      = (((((T u co 0 ⟨q.val / 32, by omega⟩ + T u co 1 ⟨q.val / 32, by omega⟩)
            + T u co 2 ⟨q.val / 32, by omega⟩) + T u co 3 ⟨q.val / 32, by omega⟩)
          * u ⟨32 + q.val % 32, by omega⟩ : ℝ) : EReal) := by
  unfold contribK
  rw [expandK_onehot, gK_coe, ← EReal.coe_mul]

/-! ## The reference's difference, as a real formula -/

theorem deltaR_coe (ua ub : Fin 64 → ℝ) (al be : Fin 4 → ℝ) (k : Fin 4) (q : Fin 256) :
    deltaR (fun c => (ua c : EReal)) (fun c => (ub c : EReal)) (fun k => (al k : EReal))
        (fun k => (be k : EReal)) k q
      = ((al k * ((ua ⟨8 * k.val + q.val / 32, by omega⟩ * ua ⟨32 + q.val % 32, by omega⟩) * (1 / N ua k))
          - be k * ((ub ⟨8 * k.val + q.val / 32, by omega⟩ * ub ⟨32 + q.val % 32, by omega⟩) * (1 / N ub k)) : ℝ)
          : EReal) := by
  unfold deltaR vR
  rw [normR_coe, normR_coe, Ideal.div_coe (N_pos ua k).ne', Ideal.div_coe (N_pos ub k).ne']
  simp only [← EReal.coe_mul, ← EReal.coe_sub]

/-- One row with real entries: the kernel's update and the reference's agree. -/
theorem memRow_real (ua ub : Fin 64 → ℝ) (al be : Fin 4 → ℝ) (m : ℝ) (q : Fin 256) :
    (m : EReal) + (contribK (fun c => (ua c : EReal)) (fun k => (al k : EReal)) onehot q
        - contribK (fun c => (ub c : EReal)) (fun k => (be k : EReal)) onehot q) * quarterE
      = memRowR (fun c => (ua c : EReal)) (fun c => (ub c : EReal)) (fun k => (al k : EReal))
          (fun k => (be k : EReal)) (m : EReal) q := by
  unfold memRowR
  simp only [deltaR_coe, contribK_coe]
  rw [← coe_sum, zeroE_eq, zero_add, fourE_eq, Ideal.div_coe (by norm_num : (4 : ℝ) ≠ 0), quarterE_eq,
    ← EReal.coe_sub, ← EReal.coe_mul, ← EReal.coe_mul, ← EReal.coe_add, ← EReal.coe_add]
  congr 1
  rw [Fin.sum_univ_four]
  simp only [T, Fin.val_mk]
  ring

end AlgRow

open AlgRow in
/-- One row of the memory update: for a real fused row and a real old entry the kernel's new entry is the
    reference's. -/
theorem memRow_eq (fz : Fin 136 → EReal) (hfz : ∀ c, ∃ r : ℝ, fz c = (r : EReal)) (mv : EReal)
    (hmv : ∃ r : ℝ, mv = (r : EReal)) (q : Fin 256) :
    memRowK fz onehot mv q
      = memRowR (fun c : Fin 64 => fz ⟨c.val, by omega⟩) (fun c : Fin 64 => fz ⟨64 + c.val, by omega⟩)
          (fun k : Fin 4 => fz ⟨128 + k.val, by omega⟩) (fun k : Fin 4 => fz ⟨132 + k.val, by omega⟩) mv q := by
  choose f hf using hfz
  obtain ⟨m, rfl⟩ := hmv
  obtain rfl : fz = fun c => (f c : EReal) := funext hf
  exact memRow_real (fun c : Fin 64 => f ⟨c.val, by omega⟩) (fun c : Fin 64 => f ⟨64 + c.val, by omega⟩)
    (fun k : Fin 4 => f ⟨128 + k.val, by omega⟩) (fun k : Fin 4 => f ⟨132 + k.val, by omega⟩) m q

end Cert.Spec

end
-- ==== Proof.Finite.lean ====
import proofs.«422122_j1039382085932_3_alg».proof.Defs
import proofs.«422122_j1039382085932_3_alg».proof.Proof.SpecArgs
import Idealize.ShloMosaic.Lib.ReduceAll
import Idealize.ShloMosaic.Lib.ValueIdx
import Idealize.ShloMosaic.PureOps.Ideal.Laws

/-!
# Finiteness from the precondition

The precondition says, for each of the thirteen argument arrays, that every entry has absolute value strictly below
plus infinity. On the extended reals the absolute value of a is max a (-a), plus infinity is the top element, and
max a (-a) < ⊤ excludes both infinities, so every entry is a real number. The precondition is the conjunction of
thirteen such tests, each a conjunction over all entries of one array.
-/

noncomputable section

namespace Cert.Proof.Finite

open Idealize.ShloMosaic Idealize.ShloMosaic.ValueIdx

/-- The single-precision word of plus infinity denotes the top extended real. -/
theorem ofBits_inf : Ideal.ofBits .f32 0x7F800000#32 = (⊤ : EReal) := by
  simp [Ideal.ofBits, Ideal.ieee]

/-- An extended real whose absolute value max a (-a) is strictly below the top is a real number:
    at the bottom the negation is the top, at the top the value itself is. -/
theorem real_of_abs_lt_top (a : EReal)
    (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

instance : Subsingleton (Cert.Pre_finite_inputs.S_).Idx := ⟨fun a b => funext fun d => d.elim0⟩

/-- One argument's test: if the conjunction over all entries of "|x| < +inf" came out true,
    every entry of x is a real number. -/
theorem real_of_all {S : Shape} {axes : List (Fin S.rank)} (x : FVec Ideal S .f32)
    (hb : (Cert.Pre_finite_inputs.S_).BroadcastsInDim S (![] : Fin 0 → Fin S.rank))
    (hr : S.ReducesTo axes Cert.Pre_finite_inputs.S_) (hu : 0 < (Cert.Pre_finite_inputs.S_).numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ix0 = 1#1) (i : S.Idx) :
    ∃ r : ℝ, x i = (r : EReal) := by
  have hi := Host.reduce_andi_all _ _ hr hu ix0 e i
  exact real_of_abs_lt_top (x i) hi

open Cert.Pre_finite_inputs in
/-- The printed predicate over the thirteen arrays: if it is true (all ones on the scalar shape), every entry of
    every array is a real number. The predicate is a left-nested conjunction of thirteen tests, one per array; it is
    peeled from the outside, and each test is read back entry by entry. -/
theorem real_of_fn [hP : Cert.Pre_finite_inputs.Facts]
    (a0 a1 : FVec Ideal S8192x1024 .f32) (a2 : FVec Ideal S8192x256 .f32) (a3 : FVec Ideal S1024x2304 .f32)
    (a4 : FVec Ideal S1024 .f32) (a5 : FVec Ideal S4x1280 .f32) (a6 : FVec Ideal S4 .f32)
    (a7 : FVec Ideal S4x1280 .f32) (a8 : FVec Ideal S4 .f32) (a9 : FVec Ideal S64x1280 .f32)
    (a10 : FVec Ideal S64 .f32) (a11 : FVec Ideal S64x1280 .f32) (a12 : FVec Ideal S64 .f32)
    (h : Cert.Pre_finite_inputs.fn (F := Ideal) a0 a1 a2 a3 a4 a5 a6 a7 a8 a9 a10 a11 a12 = fun _ => 1#1) :
    (Cert.Spec.argsOf a0 a1 a2 a3 a4 a5 a6 a7 a8 a9 a10 a11 a12).Real := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact
    { x := fun b j => real_of_all a0 _ _ _ e0 (ix2 b j)
      h0 := fun b j => real_of_all a1 _ _ _ e1 (ix2 b j)
      mem := fun b j => real_of_all a2 _ _ _ e2 (ix2 b j)
      Wh := fun n j => real_of_all a3 _ _ _ e3 (ix2 n j)
      bh := fun n => real_of_all a4 _ _ _ e4 (ix1 n)
      Wa := fun k j => real_of_all a5 _ _ _ e5 (ix2 k j)
      ba := fun k => real_of_all a6 _ _ _ e6 (ix1 k)
      Wb := fun k j => real_of_all a7 _ _ _ e7 (ix2 k j)
      bb := fun k => real_of_all a8 _ _ _ e8 (ix1 k)
      Wva := fun c j => real_of_all a9 _ _ _ e9 (ix2 c j)
      bva := fun c => real_of_all a10 _ _ _ e10 (ix1 c)
      Wvb := fun c j => real_of_all a11 _ _ _ e11 (ix2 c j)
      bvb := fun c => real_of_all a12 _ _ _ e12 (ix1 c) }

/-- Finiteness from the precondition: on every device, the thirteen argument arrays the precondition speaks of have
    only real entries. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Spec.argsOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))).Real :=
  real_of_fn _ _ _ _ _ _ _ _ _ _ _ _ _ (h c)

end Cert.Proof.Finite

end
-- ==== Proof.lean ====
import proofs.«422122_j1039382085932_3_alg».proof.Defs
import proofs.«422122_j1039382085932_3_alg».proof.Proof.Gen.Kernel
import proofs.«422122_j1039382085932_3_alg».proof.Proof.Gen.KernelIdeal
import proofs.«422122_j1039382085932_3_alg».proof.Proof.Gen.ReferenceIdeal
import proofs.«422122_j1039382085932_3_alg».proof.Proof.Gen.Pre_finite_inputs
import proofs.«422122_j1039382085932_3_alg».proof.Proof.KFrame
import proofs.«422122_j1039382085932_3_alg».proof.Proof.KiFinal
import proofs.«422122_j1039382085932_3_alg».proof.Proof.RefValue
import proofs.«422122_j1039382085932_3_alg».proof.Proof.AlgLin
import proofs.«422122_j1039382085932_3_alg».proof.Proof.AlgRow
import proofs.«422122_j1039382085932_3_alg».proof.Proof.Finite
import Idealize.ShloMosaic.Adequacy
import Idealize.ShloMosaic.Init

/-!
# The certificate: a recurrent cell with a scattered memory, fused kernel against its reference

Over the extended reals, with every input a real number, the fused kernel and the reference compute the same
hidden state h = max(W_h·(x, h0, mem) + b_h, 0) and the same new memory
mem + (1/4)·Σ_k (alpha_k·v^a_k − beta_k·v^b_k), where v_k is the k-th quarter of the outer product u0 ⊗ u1 divided by
its fifth-power norm floored at 1e-12. The kernel splits the first product in three, fuses the four narrow layers
into one, and takes the norm of the rank-one outer product as the product of two norms: Σ|u0_r u1_j|^5 =
(Σ|u0_r|^5)(Σ|u1_j|^5); its fifth root exp(c·log s) is the reference's s^c for s > 0 and both are 0 at s = 0
(c the single-precision 0.2 on both sides). The kernel's run is read off its frame (every grid point stores rows
512·t … 512·t+511 of both results, the sixteen blocks tile the arrays); the reference's run is the generated one.
-/

noncomputable section

namespace Cert.Proof

open Idealize.ShloMosaic Idealize.SL.Sem Idealize.ShloMosaic.ValueIdx

/-! ## The algebra, joined -/

/-- With real arguments the kernel's new memory is the reference's: the fused projection's four column ranges are
    the four linear layers, and one row's update agrees by the norm's factorisation. -/
theorem memK_eq_memR (A : Cert.Spec.Args) (hA : A.Real) (b : Fin 8192) (q : Fin 256) :
    Cert.Spec.memK A b q = Cert.Spec.memR A b q := by
  unfold Cert.Spec.memK Cert.Spec.memR
  refine (Cert.Spec.memRow_eq (Cert.Spec.fusedK A b) (Cert.Spec.fusedK_real A hA b) (A.mem b q) (hA.mem b q) q).trans ?_
  exact congr (congr (congr (congr (congr (congrArg Cert.Spec.memRowR (funext (Cert.Spec.fusedK_va A hA b)))
    (funext (Cert.Spec.fusedK_vb A hA b))) (funext (Cert.Spec.fusedK_a A hA b))) (funext (Cert.Spec.fusedK_b A hA b))) rfl) rfl

/-! ## The claims -/

theorem frame_p : Cert.frame_Kernel := fun m ρ _ => Cert.Kernel.Hand.frame m ρ
theorem frame_pi : Cert.frame_KernelIdeal := fun m ρ _ => Cert.KernelIdeal.Hand.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the new memory at the kernel's memK and the hidden state at the kernel's hK of the
    kernel's arguments: the kernel by its run read block by block, the reference by its generated run, read index by
    index as memR and hR of its own arguments, which agree with the kernel's and are real by the precondition. -/
theorem algebraic : Cert.algebraic_KernelIdeal_ReferenceIdeal := by
  intro m ρ m' ρ' hpre hagree
  refine ⟨fun c => Cert.KernelIdeal.Hand.Gm m c, fun c => Cert.KernelIdeal.Hand.Gh m c,
    Cert.KernelIdeal.Hand.run_value m ρ, ?_⟩
  refine (θ_run Cert.ReferenceIdeal.defs _ _).mono (fun r h c => ?_) (Cert.ReferenceIdeal.Value.run (F := Ideal) m' ρ')
  obtain ⟨h78, h6, hkept⟩ := h c
  have hreal : (Cert.KernelIdeal.Hand.argsAt m c).Real := Cert.Proof.Finite.real_of_pre m hpre c
  have hargs : Cert.Spec.argsOf
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
      = Cert.KernelIdeal.Hand.argsAt m c := by
    obtain ⟨a0, a1, a2, a3, a4, a5, a6, a7, a8, a9, a10, a11, a12⟩ := hagree c
    unfold Cert.KernelIdeal.Hand.argsAt
    rw [a0, a1, a2, a3, a4, a5, a6, a7, a8, a9, a10, a11, a12]
  refine ⟨?_, ?_, hkept⟩
  · refine h78.trans ((Cert.ReferenceIdeal.Read.val_main_v78_eq m' c).trans ?_)
    funext i
    obtain ⟨b, q, rfl⟩ : ∃ (b : Fin 8192) (q : Fin 256), i = ix2 b q := ⟨i 0, i 1, eq_ix2 i⟩
    refine (Cert.ReferenceIdeal.RefValue.ref_mem _ _ _ _ _ _ _ _ _ _ _ _ _ b q).trans ?_
    rw [hargs]
    exact (memK_eq_memR _ hreal b q).symm
  · refine h6.trans ?_
    funext i
    obtain ⟨b, n, rfl⟩ : ∃ (b : Fin 8192) (n : Fin 1024), i = ix2 b n := ⟨i 0, i 1, eq_ix2 i⟩
    refine (congrFun (Cert.ReferenceIdeal.Read.val_main_v6_eq _ _ _ _ _) (ix2 b n)).trans ?_
    refine (Cert.ReferenceIdeal.RefValue.ref_h _ _ _ _ _
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) b n).trans ?_
    rw [hargs]
    exact (Cert.Spec.hK_eq_hR _ hreal b n).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
